-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v133)) (v1 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v133) = v0 c
          ∧ r.2.mem ((c.tc : Thread Cert.KernelIdeal.nD Cert.KernelIdeal.τ).loc Cert.KernelIdeal.main_v93) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v227) = v0 c
          ∧ r.2.mem ((c.tc : Thread Cert.ReferenceIdeal.nD Cert.ReferenceIdeal.τ).loc Cert.ReferenceIdeal.main_v140) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S100000 : Shape := ⟨1, ![100000]⟩
abbrev S32x64 : Shape := ⟨2, ![32, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S16x64 : Shape := ⟨2, ![16, 64]⟩
abbrev S64x32 : Shape := ⟨2, ![64, 32]⟩
abbrev S32 : Shape := ⟨1, ![32]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x64 : S_.BroadcastsInDim S16x64 (![] : Fin 0 → Fin S16x64.rank)
  reducesTo_S16x64_S_d0_1 : S16x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S100000 : S_.BroadcastsInDim S100000 (![] : Fin 0 → Fin S100000.rank)
  reducesTo_S100000_S_d0 : S100000.ReducesTo [0] S_

variable [Facts]

def fn_part4 {F : FTy → Type} [FloatOps F] (main_arg2 : IVec S100000 32) (main_arg16 : FVec F S32 .f32) (main_v63 : IVec S_ 1) (main_v67 : IVec S_ 1) : IVec S_ 1 :=
  let main_v68 : IVec S_ 1 := andi main_v63 main_v67
  let main_v69 : FVec F S32 .f32 := Host.absf main_arg16
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_c_28 : IVec S_ 32 := constantI S_ 32 0#32
  let main_v74 : IVec S100000 32 := broadcastInDim S100000 ![] bcast_S_S100000 main_c_28
  let main_v75 : IVec S100000 1 := cmpi .sge main_arg2 main_v74
  let main_c_29 : IVec S_ 32 := constantI S_ 32 64#32
  let main_v76 : IVec S100000 32 := broadcastInDim S100000 ![] bcast_S_S100000 main_c_29
  let main_v77 : IVec S100000 1 := cmpi .slt main_arg2 main_v76
  let main_v78 : IVec S100000 1 := andi main_v75 main_v77
  let main_c_30 : IVec S_ 1 := constantI S_ 1 1#1
  let main_v79 : IVec S_ 1 := (fun x v => Host.reduce IntOp.andi x v reducesTo_S100000_S_d0 h_S_) main_v78 main_c_30
  let main_v80 : IVec S_ 1 := andi main_v73 main_v79
  main_v80

def fn_part3 {F : FTy → Type} [FloatOps F] (main_arg2 : IVec S100000 32) (main_arg13 : FVec F S64x64 .f32) (main_arg14 : FVec F S64 .f32) (main_arg15 : FVec F S64x32 .f32) (main_arg16 : FVec F S32 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg13
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x32 .f32 := Host.absf main_arg15
  let main_cst_24 : FVec F S_ .f32 := constant S_ .f32 0x7F800000#32
  let main_v65 : FVec F S64x32 .f32 := broadcastInDim S64x32 ![] bcast_S_S64x32 main_cst_24
  let main_v66 : IVec S64x32 1 := cmpf .olt main_v64 main_v65
  let main_c_25 : IVec S_ 1 := constantI S_ 1 1#1
  let main_v67 : IVec S_ 1 := (fun x v => Host.reduce IntOp.andi x v reducesTo_S64x32_S_d0_1 h_S_) main_v66 main_c_25
  fn_part4 (F := F) main_arg2 main_arg16 main_v63 main_v67

def fn_part2 {F : FTy → Type} [FloatOps F] (main_arg2 : IVec S100000 32) (main_arg9 : FVec F S64x16 .f32) (main_arg10 : FVec F S16 .f32) (main_arg11 : FVec F S16x64 .f32) (main_arg12 : FVec F S64 .f32) (main_arg13 : FVec F S64x64 .f32) (main_arg14 : FVec F S64 .f32) (main_arg15 : FVec F S64x32 .f32) (main_arg16 : FVec F S32 .f32) (main_v33 : IVec S_ 1) : IVec S_ 1 :=
  let main_v34 : FVec F S64x16 .f32 := Host.absf main_arg9
  let main_cst_12 : FVec F S_ .f32 := constant S_ .f32 0x7F800000#32
  let main_v35 : FVec F S64x16 .f32 := broadcastInDim S64x16 ![] bcast_S_S64x16 main_cst_12
  let main_v36 : IVec S64x16 1 := cmpf .olt main_v34 main_v35
  let main_c_13 : IVec S_ 1 := constantI S_ 1 1#1
  let main_v37 : IVec S_ 1 := (fun x v => Host.reduce IntOp.andi x v reducesTo_S64x16_S_d0_1 h_S_) main_v36 main_c_13
  let main_v38 : IVec S_ 1 := andi main_v33 main_v37
  let main_v39 : FVec F S16 .f32 := Host.absf main_arg10
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16x64 .f32 := Host.absf main_arg11
  let main_cst_16 : FVec F S_ .f32 := constant S_ .f32 0x7F800000#32
  let main_v45 : FVec F S16x64 .f32 := broadcastInDim S16x64 ![] bcast_S_S16x64 main_cst_16
  let main_v46 : IVec S16x64 1 := cmpf .olt main_v44 main_v45
  let main_c_17 : IVec S_ 1 := constantI S_ 1 1#1
  let main_v47 : IVec S_ 1 := (fun x v => Host.reduce IntOp.andi x v reducesTo_S16x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg2 main_arg13 main_arg14 main_arg15 main_arg16 main_v48 main_v49 main_v50

def fn_part1 {F : FTy → Type} [FloatOps F] (main_arg2 : IVec S100000 32) (main_arg6 : FVec F S64 .f32) (main_arg7 : FVec F S64x64 .f32) (main_arg8 : FVec F S64 .f32) (main_arg9 : FVec F S64x16 .f32) (main_arg10 : FVec F S16 .f32) (main_arg11 : FVec F S16x64 .f32) (main_arg12 : FVec F S64 .f32) (main_arg13 : FVec F S64x64 .f32) (main_arg14 : FVec F S64 .f32) (main_arg15 : FVec F S64x32 .f32) (main_arg16 : FVec F S32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg2 main_arg9 main_arg10 main_arg11 main_arg12 main_arg13 main_arg14 main_arg15 main_arg16 main_v33

def fn {F : FTy → Type} [FloatOps F] (main_arg0 : FVec F S100000x32 .f32) (main_arg1 : IVec S2x1600000 32) (main_arg2 : IVec S100000 32) (main_arg3 : FVec F S32x64 .f32) (main_arg4 : FVec F S64 .f32) (main_arg5 : FVec F S64x64 .f32) (main_arg6 : FVec F S64 .f32) (main_arg7 : FVec F S64x64 .f32) (main_arg8 : FVec F S64 .f32) (main_arg9 : FVec F S64x16 .f32) (main_arg10 : FVec F S16 .f32) (main_arg11 : FVec F S16x64 .f32) (main_arg12 : FVec F S64 .f32) (main_arg13 : FVec F S64x64 .f32) (main_arg14 : FVec F S64 .f32) (main_arg15 : FVec F S64x32 .f32) (main_arg16 : FVec F S32 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x64 .f32 := Host.absf main_arg3
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg2 main_arg6 main_arg7 main_arg8 main_arg9 main_arg10 main_arg11 main_arg12 main_arg13 main_arg14 main_arg15 main_arg16 main_v13 main_v16
-- ==== Kernel.lean ====
abbrev S100000x32 : Shape := ⟨2, ![100000, 32]⟩
abbrev S2x1600000 : Shape := ⟨2, ![2, 1600000]⟩
abbrev S100000 : Shape := ⟨1, ![100000]⟩
abbrev S32x64 : Shape := ⟨2, ![32, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S16x64 : Shape := ⟨2, ![16, 64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x64 : Shape := ⟨2, ![100000, 64]⟩
abbrev S10000x32 : Shape := ⟨2, ![10000, 32]⟩
abbrev S10000x64 : Shape := ⟨2, ![10000, 64]⟩
abbrev S1600000x64 : Shape := ⟨2, ![1600000, 64]⟩
abbrev S100000x1 : Shape := ⟨2, ![100000, 1]⟩
abbrev S1x64 : Shape := ⟨2, ![1, 64]⟩
abbrev S10000x1 : Shape := ⟨2, ![10000, 1]⟩
abbrev S64x1 : Shape := ⟨2, ![64, 1]⟩
abbrev S1x16 : Shape := ⟨2, ![1, 16]⟩
abbrev S1600000x32 : Shape := ⟨2, ![1600000, 32]⟩
abbrev S1x32 : Shape := ⟨2, ![1, 32]⟩

abbrev nBuf : Space → Nat
  | .hbm => 177
  | .vmem => 75
  | .smem => 0
  | _ => 0

abbrev hbmTy0_0 (i : Nat) : BufTy := match i % 128 with
  | 0 => ⟨S100000x32, .f32⟩
  | 1 => ⟨S2x1600000, .i32⟩
  | 2 => ⟨S100000, .i32⟩
  | 3 => ⟨S32x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x16, .f32⟩
  | 10 => ⟨S16, .f32⟩
  | 11 => ⟨S16x64, .f32⟩
  | 12 => ⟨S64, .f32⟩
  | 13 => ⟨S64x64, .f32⟩
  | 14 => ⟨S64, .f32⟩
  | 15 => ⟨S64x32, .f32⟩
  | 16 => ⟨S32, .f32⟩
  | 17 => ⟨S1x1600000, .i32⟩
  | 18 => ⟨S1600000, .i32⟩
  | 19 => ⟨S1x1600000, .i32⟩
  | 20 => ⟨S1600000, .i32⟩
  | 21 => ⟨S_, .f32⟩
  | 22 => ⟨S1600000, .f32⟩
  | 23 => ⟨S_, .f32⟩
  | 24 => ⟨S100000, .f32⟩
  | 25 => ⟨S1600000x1, .i32⟩
  | 26 => ⟨S100000, .f32⟩
  | 27 => ⟨S_, .f32⟩
  | 28 => ⟨S100000, .f32⟩
  | 29 => ⟨S100000, .f32⟩
  | 30 => ⟨S100000, .f32⟩
  | 31 => ⟨S100000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000, .f32⟩
  | 50 => ⟨S1600000, .f32⟩
  | 51 => ⟨S100000x64, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x64, .f32⟩
  | 61 => ⟨S1600000x1, .f32⟩
  | 62 => ⟨S1600000x64, .f32⟩
  | 63 => ⟨S1600000x64, .f32⟩
  | 64 => ⟨S_, .f32⟩
  | 65 => ⟨S100000x64, .f32⟩
  | 66 => ⟨S1600000x1, .i32⟩
  | 67 => ⟨S100000x64, .f32⟩
  | 68 => ⟨S100000x1, .f32⟩
  | 69 => ⟨S1x64, .f32⟩
  | 70 => ⟨S100000x64, .f32⟩
  | 71 => ⟨S100000x64, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S1600000x64, .f32⟩
  | 81 => ⟨S1600000x1, .f32⟩
  | 82 => ⟨S1600000x64, .f32⟩
  | 83 => ⟨S1600000x64, .f32⟩
  | 84 => ⟨S_, .f32⟩
  | 85 => ⟨S100000x64, .f32⟩
  | 86 => ⟨S1600000x1, .i32⟩
  | 87 => ⟨S100000x64, .f32⟩
  | 88 => ⟨S100000x1, .f32⟩
  | 89 => ⟨S1x64, .f32⟩
  | 90 => ⟨S100000x64, .f32⟩
  | 91 => ⟨S100000x64, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000x64, .f32⟩
  | 101 => ⟨S1600000x1, .f32⟩
  | 102 => ⟨S1600000x64, .f32⟩
  | 103 => ⟨S1600000x64, .f32⟩
  | 104 => ⟨S_, .f32⟩
  | 105 => ⟨S100000x64, .f32⟩
  | 106 => ⟨S1600000x1, .i32⟩
  | 107 => ⟨S100000x64, .f32⟩
  | 108 => ⟨S100000x1, .f32⟩
  | 109 => ⟨S1x64, .f32⟩
  | 110 => ⟨S100000x64, .f32⟩
  | 111 => ⟨S_, .f32⟩
  | 112 => ⟨S64x64, .f32⟩
  | 113 => ⟨S100000x1, .i32⟩
  | 114 => ⟨S64x64, .f32⟩
  | 115 => ⟨S_, .f32⟩
  | 116 => ⟨S100000, .f32⟩
  | 117 => ⟨S_, .f32⟩
  | 118 => ⟨S64, .f32⟩
  | 119 => ⟨S100000x1, .i32⟩
  | 120 => ⟨S64, .f32⟩
  | 121 => ⟨S_, .f32⟩
  | 122 => ⟨S64, .f32⟩
  | 123 => ⟨S64, .f32⟩
  | 124 => ⟨S64x1, .f32⟩
  | 125 => ⟨S64x64, .f32⟩
  | 126 => ⟨S64x64, .f32⟩
  | 127 => ⟨S64x16, .f32⟩
  | _ => ⟨S100000x32, .f32⟩

abbrev hbmTy0_1 (i : Nat) : BufTy := match i % 128 with
  | 0 => ⟨S1x16, .f32⟩
  | 1 => ⟨S64x16, .f32⟩
  | 2 => ⟨S64x16, .f32⟩
  | 3 => ⟨S64x64, .f32⟩
  | 4 => ⟨S1x64, .f32⟩
  | 5 => ⟨S64x64, .f32⟩
  | 6 => ⟨S64x64, .f32⟩
  | 7 => ⟨S100000x1, .i32⟩
  | 8 => ⟨S100000x64, .f32⟩
  | 9 => ⟨S100000x64, .f32⟩
  | 10 => ⟨S_, .i32⟩
  | 11 => ⟨S1600000, .i32⟩
  | 12 => ⟨S1600000, .i1⟩
  | 13 => ⟨S_, .i32⟩
  | 14 => ⟨S1600000, .i32⟩
  | 15 => ⟨S1600000, .i32⟩
  | 16 => ⟨S1600000, .i32⟩
  | 17 => ⟨S1600000x1, .i32⟩
  | 18 => ⟨S1600000x64, .f32⟩
  | 19 => ⟨S1600000x1, .f32⟩
  | 20 => ⟨S1600000x64, .f32⟩
  | 21 => ⟨S1600000x64, .f32⟩
  | 22 => ⟨S_, .f32⟩
  | 23 => ⟨S100000x64, .f32⟩
  | 24 => ⟨S1600000x1, .i32⟩
  | 25 => ⟨S100000x64, .f32⟩
  | 26 => ⟨S100000x1, .f32⟩
  | 27 => ⟨S1x64, .f32⟩
  | 28 => ⟨S100000x64, .f32⟩
  | 29 => ⟨S100000x32, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000x32, .f32⟩
  | 39 => ⟨S1600000x1, .f32⟩
  | 40 => ⟨S1600000x32, .f32⟩
  | 41 => ⟨S1600000x32, .f32⟩
  | 42 => ⟨S_, .f32⟩
  | 43 => ⟨S100000x32, .f32⟩
  | 44 => ⟨S1600000x1, .i32⟩
  | 45 => ⟨S100000x32, .f32⟩
  | 46 => ⟨S100000x1, .f32⟩
  | 47 => ⟨S1x32, .f32⟩
  | 48 => ⟨S100000x32, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | .local _ .vmem, ⟨0, _⟩ => ⟨S10000x32, .f32⟩
  | .local _ .vmem, ⟨1, _⟩ => ⟨S10000x32, .f32⟩
  | .local _ .vmem, ⟨2, _⟩ => ⟨S32x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x1, .f32⟩
  | .local _ .vmem, ⟨24, _⟩ => ⟨S10000x1, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S64x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x1, .f32⟩
  | .local _ .vmem, ⟨38, _⟩ => ⟨S10000x1, .f32⟩
  | .local _ .vmem, ⟨39, _⟩ => ⟨S1x64, .f32⟩
  | .local _ .vmem, ⟨40, _⟩ => ⟨S10000x64, .f32⟩
  | .local _ .vmem, ⟨41, _⟩ => ⟨S10000x64, .f32⟩
  | .local _ .vmem, ⟨42, _⟩ => ⟨S10000x1, .i32⟩
  | .local _ .vmem, ⟨43, _⟩ => ⟨S10000x1, .i32⟩
  | .local _ .vmem, ⟨44, _⟩ => ⟨S64x64, .f32⟩
  | .local _ .vmem, ⟨45, _⟩ => ⟨S10000x64, .f32⟩
  | .local _ .vmem, ⟨46, _⟩ => ⟨S10000x64, .f32⟩
  | .local _ .vmem, ⟨47, _⟩ => ⟨S10000x64, .f32⟩
  | .local _ .vmem, ⟨48, _⟩ => ⟨S10000x64, .f32⟩
  | .local _ .vmem, ⟨49, _⟩ => ⟨S64x64, .f32⟩
  | .local _ .vmem, ⟨50, _⟩ => ⟨S10000x64, .f32⟩
  | .local _ .vmem, ⟨51, _⟩ => ⟨S10000x64, .f32⟩
  | .local _ .vmem, ⟨52, _⟩ => ⟨S10000x64, .f32⟩
  | .local _ .vmem, ⟨53, _⟩ => ⟨S10000x64, .f32⟩
  | .local _ .vmem, ⟨54, _⟩ => ⟨S10000x64, .f32⟩
  | .local _ .vmem, ⟨55, _⟩ => ⟨S10000x64, .f32⟩
  | .local _ .vmem, ⟨56, _⟩ => ⟨S10000x1, .f32⟩
  | .local _ .vmem, ⟨57, _⟩ => ⟨S10000x1, .f32⟩
  | .local _ .vmem, ⟨58, _⟩ => ⟨S1x64, .f32⟩
  | .local _ .vmem, ⟨59, _⟩ => ⟨S10000x64, .f32⟩
  | .local _ .vmem, ⟨60, _⟩ => ⟨S10000x64, .f32⟩
  | .local _ .vmem, ⟨61, _⟩ => ⟨S10000x64, .f32⟩
  | .local _ .vmem, ⟨62, _⟩ => ⟨S10000x64, .f32⟩
  | .local _ .vmem, ⟨63, _⟩ => ⟨S64x32, .f32⟩
  | .local _ .vmem, ⟨64, _⟩ => ⟨S10000x32, .f32⟩
  | .local _ .vmem, ⟨65, _⟩ => ⟨S10000x32, .f32⟩
  | .local _ .vmem, ⟨66, _⟩ => ⟨S10000x32, .f32⟩
  | .local _ .vmem, ⟨67, _⟩ => ⟨S10000x32, .f32⟩
  | .local _ .vmem, ⟨68, _⟩ => ⟨S10000x32, .f32⟩
  | .local _ .vmem, ⟨69, _⟩ => ⟨S10000x32, .f32⟩
  | .local _ .vmem, ⟨70, _⟩ => ⟨S10000x1, .f32⟩
  | .local _ .vmem, ⟨71, _⟩ => ⟨S10000x1, .f32⟩
  | .local _ .vmem, ⟨72, _⟩ => ⟨S1x32, .f32⟩
  | .local _ .vmem, ⟨73, _⟩ => ⟨S10000x32, .f32⟩
  | .local _ .vmem, ⟨74, _⟩ => ⟨S10000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | _, _ => false

abbrev semScoped : Fin 0 → Bool
  | ⟨_, h⟩ => absurd h (Nat.not_lt_zero _)

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  ofTc nBuf bufTy 0 75 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c : Ref sig .tc := ⟨.hbm, 32, rfl⟩
abbrev main_v12 : Ref sig .tc := ⟨.hbm, 33, rfl⟩
abbrev main_v13 : Ref sig .tc := ⟨.hbm, 34, rfl⟩
abbrev main_c_2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_3 : Ref sig .tc := ⟨.hbm, 41, rfl⟩
abbrev main_v19 : Ref sig .tc := ⟨.hbm, 42, rfl⟩
abbrev main_v20 : Ref sig .tc := ⟨.hbm, 43, rfl⟩
abbrev main_c_4 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_5 : Ref sig .tc := ⟨.hbm, 52, rfl⟩
abbrev main_v28 : Ref sig .tc := ⟨.hbm, 53, rfl⟩
abbrev main_v29 : Ref sig .tc := ⟨.hbm, 54, rfl⟩
abbrev main_c_6 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_7 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_c_8 : Ref sig .tc := ⟨.hbm, 72, rfl⟩
abbrev main_v45 : Ref sig .tc := ⟨.hbm, 73, rfl⟩
abbrev main_v46 : Ref sig .tc := ⟨.hbm, 74, rfl⟩
abbrev main_c_9 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_10 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_c_11 : Ref sig .tc := ⟨.hbm, 92, rfl⟩
abbrev main_v62 : Ref sig .tc := ⟨.hbm, 93, rfl⟩
abbrev main_v63 : Ref sig .tc := ⟨.hbm, 94, rfl⟩
abbrev main_c_12 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_13 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_14 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_15 : Ref sig .tc := ⟨.hbm, 115, rfl⟩
abbrev main_v81 : Ref sig .tc := ⟨.hbm, 116, rfl⟩
abbrev main_cst_16 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_17 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_c_18 : Ref sig .tc := ⟨.hbm, 138, rfl⟩
abbrev main_v101 : Ref sig .tc := ⟨.hbm, 139, rfl⟩
abbrev main_v102 : Ref sig .tc := ⟨.hbm, 140, rfl⟩
abbrev main_c_19 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_cst_20 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_c_21 : Ref sig .tc := ⟨.hbm, 158, rfl⟩
abbrev main_v118 : Ref sig .tc := ⟨.hbm, 159, rfl⟩
abbrev main_v119 : Ref sig .tc := ⟨.hbm, 160, rfl⟩
abbrev main_c_22 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_cst_23 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg2_1 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg2_0 : Ref sig .tc := ⟨.vmem, 50, rfl⟩
abbrev cc7_stg2_1 : Ref sig .tc := ⟨.vmem, 51, rfl⟩
abbrev cc8_stg0_0 : Ref sig .tc := ⟨.vmem, 52, rfl⟩
abbrev cc8_stg0_1 : Ref sig .tc := ⟨.vmem, 53, rfl⟩
abbrev cc8_stg1_0 : Ref sig .tc := ⟨.vmem, 54, rfl⟩
abbrev cc8_stg1_1 : Ref sig .tc := ⟨.vmem, 55, rfl⟩
abbrev cc8_stg2_0 : Ref sig .tc := ⟨.vmem, 56, rfl⟩
abbrev cc8_stg2_1 : Ref sig .tc := ⟨.vmem, 57, rfl⟩
abbrev cc8_stg3_0 : Ref sig .tc := ⟨.vmem, 58, rfl⟩
abbrev cc8_stg4_0 : Ref sig .tc := ⟨.vmem, 59, rfl⟩
abbrev cc8_stg4_1 : Ref sig .tc := ⟨.vmem, 60, rfl⟩
abbrev cc9_stg0_0 : Ref sig .tc := ⟨.vmem, 61, rfl⟩
abbrev cc9_stg0_1 : Ref sig .tc := ⟨.vmem, 62, rfl⟩
abbrev cc9_stg1_0 : Ref sig .tc := ⟨.vmem, 63, rfl⟩
abbrev cc9_stg2_0 : Ref sig .tc := ⟨.vmem, 64, rfl⟩
abbrev cc9_stg2_1 : Ref sig .tc := ⟨.vmem, 65, rfl⟩
abbrev cc10_stg0_0 : Ref sig .tc := ⟨.vmem, 66, rfl⟩
abbrev cc10_stg0_1 : Ref sig .tc := ⟨.vmem, 67, rfl⟩
abbrev cc10_stg1_0 : Ref sig .tc := ⟨.vmem, 68, rfl⟩
abbrev cc10_stg1_1 : Ref sig .tc := ⟨.vmem, 69, rfl⟩
abbrev cc10_stg2_0 : Ref sig .tc := ⟨.vmem, 70, rfl⟩
abbrev cc10_stg2_1 : Ref sig .tc := ⟨.vmem, 71, rfl⟩
abbrev cc10_stg3_0 : Ref sig .tc := ⟨.vmem, 72, rfl⟩
abbrev cc10_stg4_0 : Ref sig .tc := ⟨.vmem, 73, rfl⟩
abbrev cc10_stg4_1 : Ref sig .tc := ⟨.vmem, 74, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem2_1 : DmaSem sig := 46
abbrev cc7_sem0_0 : DmaSem sig := 47
abbrev cc7_sem0_1 : DmaSem sig := 48
abbrev cc7_sem1_0 : DmaSem sig := 49
abbrev cc7_sem2_0 : DmaSem sig := 50
abbrev cc7_sem2_1 : DmaSem sig := 51
abbrev cc8_sem0_0 : DmaSem sig := 52
abbrev cc8_sem0_1 : DmaSem sig := 53
abbrev cc8_sem1_0 : DmaSem sig := 54
abbrev cc8_sem1_1 : DmaSem sig := 55
abbrev cc8_sem2_0 : DmaSem sig := 56
abbrev cc8_sem2_1 : DmaSem sig := 57
abbrev cc8_sem3_0 : DmaSem sig := 58
abbrev cc8_sem4_0 : DmaSem sig := 59
abbrev cc8_sem4_1 : DmaSem sig := 60
abbrev cc9_sem0_0 : DmaSem sig := 61
abbrev cc9_sem0_1 : DmaSem sig := 62
abbrev cc9_sem1_0 : DmaSem sig := 63
abbrev cc9_sem2_0 : DmaSem sig := 64
abbrev cc9_sem2_1 : DmaSem sig := 65
abbrev cc10_sem0_0 : DmaSem sig := 66
abbrev cc10_sem0_1 : DmaSem sig := 67
abbrev cc10_sem1_0 : DmaSem sig := 68
abbrev cc10_sem1_1 : DmaSem sig := 69
abbrev cc10_sem2_0 : DmaSem sig := 70
abbrev cc10_sem2_1 : DmaSem sig := 71
abbrev cc10_sem3_0 : DmaSem sig := 72
abbrev cc10_sem4_0 : DmaSem sig := 73
abbrev cc10_sem4_1 : DmaSem sig := 74

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S10000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x1 .i32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S10000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S10000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S10000x1 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S10000x64 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x32 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S10000x32 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S10000x32 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S10000x32 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S10000x1 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 1 → Memref sig .tc .vmem S1x32 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 2 → Memref sig .tc .vmem S10000x32 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S10000x32_S10000x32_0_0 : ∀ a, (![0, 0] : Fin 2 → Nat) a + S10000x32.size a ≤ S10000x32.size a
  h_S10000x32 : 0 < S10000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S10000x64_S10000x64_0_0 : ∀ a, (![0, 0] : Fin 2 → Nat) a + S10000x64.size a ≤ S10000x64.size a
  h_S10000x64 : 0 < S10000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S100000_S100000x1 : S100000.ShapeCasts S100000x1
  shapeCasts_S64_S1x64 : S64.ShapeCasts S1x64
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  bcast_S_S64x64 : S_.BroadcastsInDim S64x64 (![] : Fin 0 → Fin S64x64.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  iota_S10000x64_d1_w32 : S10000x64.Iotas .tc 32 [1]
  natLt_1_32 : 1 < 32
  shapeCasts_S64x64_S64x64 : S64x64.ShapeCasts S64x64
  inb_S64x32_S64x32_0_0 : ∀ a, (![0, 0] : Fin 2 → Nat) a + S64x32.size a ≤ S64x32.size a
  h_S64x32 : 0 < S64x32.numel
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  broadcasts_S10000x1_S10000x32 : S10000x1.Broadcasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x32_S32x64_S10000x64_1_0_0_1_n_n_wf : DotDims.WF S10000x32 S32x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x16_S64x16_1_0_0_1_n_n_wf : DotDims.WF S64x64 S64x16 S64x16 [1] [0] [0] [1] [] []
  dot_S64x16_S16x64_S64x64_1_0_0_1_n_n_wf : DotDims.WF S64x16 S16x64 S64x64 [1] [0] [0] [1] [] []
  dot_S10000x64_S64x32_S10000x32_1_0_0_1_n_n_wf : DotDims.WF S10000x64 S64x32 S10000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S100000x64.size a
  hwx3_4 : ∀ i : grid3.Coords, EltTy.bits .f32 = 32 ∨ (Rect.block (s := S100000x64) S10000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S100000x64.size a
  hwx5_1 : ∀ i : grid5.Coords, EltTy.bits .f32 = 32 ∨ (Rect.block (s := S100000x64) S10000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x1.size a ≤ S100000x1.size a
  hwx5_2 : ∀ i : grid5.Coords, EltTy.bits .f32 = 32 ∨ (Rect.block (s := S100000x1) S10000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S10000x64.size a ≤ S100000x64.size a
  hwx5_4 : ∀ i : grid5.Coords, EltTy.bits .f32 = 32 ∨ (Rect.block (s := S100000x64) S10000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x1.size a ≤ S100000x1.size a
  hwx6_0 : ∀ i : grid6.Coords, EltTy.bits .i32 = 32 ∨ (Rect.block (s := S100000x1) S10000x1.size (cc6_transform_0 i) (hinb6_0 i)).WholeWords (EltTy.packing .i32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x64.size a ≤ S100000x64.size a
  hwx6_2 : ∀ i : grid6.Coords, EltTy.bits .f32 = 32 ∨ (Rect.block (s := S100000x64) S10000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x64.size a ≤ S64x64.size a
  hwx7_1 : ∀ i : grid7.Coords, EltTy.bits .f32 = 32 ∨ (Rect.block (s := S64x64) S64x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x64.size a ≤ S100000x64.size a
  hwx7_2 : ∀ i : grid7.Coords, EltTy.bits .f32 = 32 ∨ (Rect.block (s := S100000x64) S10000x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S100000x64.size a
  hwx8_0 : ∀ i : grid8.Coords, EltTy.bits .f32 = 32 ∨ (Rect.block (s := S100000x64) S10000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S10000x64.size a ≤ S100000x64.size a
  hwx8_1 : ∀ i : grid8.Coords, EltTy.bits .f32 = 32 ∨ (Rect.block (s := S100000x64) S10000x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S10000x1.size a ≤ S100000x1.size a
  hwx8_2 : ∀ i : grid8.Coords, EltTy.bits .f32 = 32 ∨ (Rect.block (s := S100000x1) S10000x1.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S10000x64.size a ≤ S100000x64.size a
  hwx8_4 : ∀ i : grid8.Coords, EltTy.bits .f32 = 32 ∨ (Rect.block (s := S100000x64) S10000x64.size (cc8_transform_4 i) (hinb8_4 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x64.size a ≤ S100000x64.size a
  hwx9_0 : ∀ i : grid9.Coords, EltTy.bits .f32 = 32 ∨ (Rect.block (s := S100000x64) S10000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x32.size a ≤ S64x32.size a
  hwx9_1 : ∀ i : grid9.Coords, EltTy.bits .f32 = 32 ∨ (Rect.block (s := S64x32) S64x32.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S10000x32.size a ≤ S100000x32.size a
  hwx9_2 : ∀ i : grid9.Coords, EltTy.bits .f32 = 32 ∨ (Rect.block (s := S100000x32) S10000x32.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x32.size a ≤ S100000x32.size a
  hwx10_0 : ∀ i : grid10.Coords, EltTy.bits .f32 = 32 ∨ (Rect.block (s := S100000x32) S10000x32.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S10000x32.size a ≤ S100000x32.size a
  hwx10_1 : ∀ i : grid10.Coords, EltTy.bits .f32 = 32 ∨ (Rect.block (s := S100000x32) S10000x32.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S10000x1.size a ≤ S100000x1.size a
  hwx10_2 : ∀ i : grid10.Coords, EltTy.bits .f32 = 32 ∨ (Rect.block (s := S100000x1) S10000x1.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x32.size a ≤ S1x32.size a
  hwx10_3 : ∀ i : grid10.Coords, EltTy.bits .f32 = 32 ∨ (Rect.block (s := S1x32) S1x32.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S10000x32.size a ≤ S100000x32.size a
  hwx10_4 : ∀ i : grid10.Coords, EltTy.bits .f32 = 32 ∨ (Rect.block (s := S100000x32) S10000x32.size (cc10_transform_4 i) (hinb10_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x16_S64x16_1_0_0_1_n_n : DotDims S64x64 S64x16 S64x16 where
  lhsContracting := [1]
  rhsContracting := [0]
  lhsNonContracting := [0]
  rhsNonContracting := [1]
  lhsBatch := []
  rhsBatch := []
  wf := dot_S64x64_S64x16_S64x16_1_0_0_1_n_n_wf
def dot_S64x16_S16x64_S64x64_1_0_0_1_n_n : DotDims S64x16 S16x64 S64x64 where
  lhsContracting := [1]
  rhsContracting := [0]
  lhsNonContracting := [0]
  rhsNonContracting := [1]
  lhsBatch := []
  rhsBatch := []
  wf := dot_S64x16_S16x64_S64x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v58) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v59) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S10000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v60) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v74) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v61) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v75) S10000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v76) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v77) S10000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v98) S10000x1.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v97) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v99) S10000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v99) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg13) S64x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v100) S10000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v113) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v100) S10000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v114) S10000x1.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v115) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v116) S10000x64.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v116) S10000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg15) S64x32.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v117) S10000x32.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v130) S10000x32.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v117) S10000x32.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v131) S10000x1.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v132) S1x32.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v133) S10000x32.size cc10_transform_4 reads10_4 true false 2 stage10_4 sem10_4
    hrank10 hreads10_4 hinb10_4 nbuf10_4 (Memref.isWhole_whole _) hwx10_4 hstage10_4

abbrev win10 : Fin 5 → Pipeline.Window sig grid10 := fun | 0 => win10_0 | 1 => win10_1 | 2 => win10_2 | 3 => win10_3 | 4 => win10_4 | ⟨_ + 5, h⟩ => absurd h (Nat.not_lt.2 (Nat.le_add_left _ _))
abbrev spec10 : Fin 5 → Pipeline.WinSpec sig grid10.rank := fun w => (win10 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S100000 : Shape := ⟨1, ![100000]⟩
abbrev S32x64 : Shape := ⟨2, ![32, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S16x64 : Shape := ⟨2, ![16, 64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x64 : Shape := ⟨2, ![100000, 64]⟩
abbrev S1600000x64 : Shape := ⟨2, ![1600000, 64]⟩
abbrev S100000x1 : Shape := ⟨2, ![100000, 1]⟩
abbrev S1x64 : Shape := ⟨2, ![1, 64]⟩
abbrev S64x1 : Shape := ⟨2, ![64, 1]⟩
abbrev S1x16 : Shape := ⟨2, ![1, 16]⟩
abbrev S100000x16 : Shape := ⟨2, ![100000, 16]⟩
abbrev S1600000x32 : Shape := ⟨2, ![1600000, 32]⟩
abbrev S1x32 : Shape := ⟨2, ![1, 32]⟩

abbrev nBuf : Space → Nat
  | .hbm => 299
  | .vmem => 0
  | .smem => 0
  | _ => 0

abbrev hbmTy0_0 (i : Nat) : BufTy := match i % 128 with
  | 0 => ⟨S100000x32, .f32⟩
  | 1 => ⟨S2x1600000, .i32⟩
  | 2 => ⟨S100000, .i32⟩
  | 3 => ⟨S32x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x16, .f32⟩
  | 10 => ⟨S16, .f32⟩
  | 11 => ⟨S16x64, .f32⟩
  | 12 => ⟨S64, .f32⟩
  | 13 => ⟨S64x64, .f32⟩
  | 14 => ⟨S64, .f32⟩
  | 15 => ⟨S64x32, .f32⟩
  | 16 => ⟨S32, .f32⟩
  | 17 => ⟨S1x1600000, .i32⟩
  | 18 => ⟨S1600000, .i32⟩
  | 19 => ⟨S1x1600000, .i32⟩
  | 20 => ⟨S1600000, .i32⟩
  | 21 => ⟨S_, .f32⟩
  | 22 => ⟨S1600000, .f32⟩
  | 23 => ⟨S_, .f32⟩
  | 24 => ⟨S100000, .f32⟩
  | 25 => ⟨S1600000x1, .i32⟩
  | 26 => ⟨S100000, .f32⟩
  | 27 => ⟨S_, .f32⟩
  | 28 => ⟨S100000, .f32⟩
  | 29 => ⟨S100000, .f32⟩
  | 30 => ⟨S100000, .f32⟩
  | 31 => ⟨S100000x64, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000, .f32⟩
  | 50 => ⟨S1600000, .f32⟩
  | 51 => ⟨S1600000x1, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x64, .f32⟩
  | 61 => ⟨S1600000x64, .f32⟩
  | 62 => ⟨S1600000x64, .f32⟩
  | 63 => ⟨S_, .f32⟩
  | 64 => ⟨S100000x64, .f32⟩
  | 65 => ⟨S1600000x1, .i32⟩
  | 66 => ⟨S100000x64, .f32⟩
  | 67 => ⟨S100000, .f32⟩
  | 68 => ⟨S100000x1, .f32⟩
  | 69 => ⟨S100000x64, .f32⟩
  | 70 => ⟨S100000x64, .f32⟩
  | 71 => ⟨S100000x64, .f32⟩
  | 72 => ⟨S1x64, .f32⟩
  | 73 => ⟨S100000x64, .f32⟩
  | 74 => ⟨S100000x64, .f32⟩
  | 75 => ⟨S_, .f32⟩
  | 76 => ⟨S100000x64, .f32⟩
  | 77 => ⟨S100000x64, .f32⟩
  | 78 => ⟨S100000x64, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000, .f32⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S1600000, .f32⟩
  | 97 => ⟨S1600000, .f32⟩
  | 98 => ⟨S1600000x1, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x64, .f32⟩
  | 108 => ⟨S1600000x64, .f32⟩
  | 109 => ⟨S1600000x64, .f32⟩
  | 110 => ⟨S_, .f32⟩
  | 111 => ⟨S100000x64, .f32⟩
  | 112 => ⟨S1600000x1, .i32⟩
  | 113 => ⟨S100000x64, .f32⟩
  | 114 => ⟨S100000, .f32⟩
  | 115 => ⟨S100000x1, .f32⟩
  | 116 => ⟨S100000x64, .f32⟩
  | 117 => ⟨S100000x64, .f32⟩
  | 118 => ⟨S100000x64, .f32⟩
  | 119 => ⟨S1x64, .f32⟩
  | 120 => ⟨S100000x64, .f32⟩
  | 121 => ⟨S100000x64, .f32⟩
  | 122 => ⟨S_, .f32⟩
  | 123 => ⟨S100000x64, .f32⟩
  | 124 => ⟨S100000x64, .f32⟩
  | 125 => ⟨S100000x64, .f32⟩
  | 126 => ⟨S_, .i32⟩
  | 127 => ⟨S1600000, .i32⟩
  | _ => ⟨S100000x32, .f32⟩

abbrev hbmTy0_1 (i : Nat) : BufTy := match i % 128 with
  | 0 => ⟨S1600000, .i1⟩
  | 1 => ⟨S_, .i32⟩
  | 2 => ⟨S1600000, .i32⟩
  | 3 => ⟨S1600000, .i32⟩
  | 4 => ⟨S1600000, .i32⟩
  | 5 => ⟨S1600000x1, .i32⟩
  | 6 => ⟨S1600000, .f32⟩
  | 7 => ⟨S_, .i32⟩
  | 8 => ⟨S1600000, .i32⟩
  | 9 => ⟨S1600000, .i1⟩
  | 10 => ⟨S_, .i32⟩
  | 11 => ⟨S1600000, .i32⟩
  | 12 => ⟨S1600000, .i32⟩
  | 13 => ⟨S1600000, .i32⟩
  | 14 => ⟨S1600000x1, .i32⟩
  | 15 => ⟨S1600000, .f32⟩
  | 16 => ⟨S1600000, .f32⟩
  | 17 => ⟨S1600000x1, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x64, .f32⟩
  | 27 => ⟨S1600000x64, .f32⟩
  | 28 => ⟨S1600000x64, .f32⟩
  | 29 => ⟨S_, .f32⟩
  | 30 => ⟨S100000x64, .f32⟩
  | 31 => ⟨S1600000x1, .i32⟩
  | 32 => ⟨S100000x64, .f32⟩
  | 33 => ⟨S100000, .f32⟩
  | 34 => ⟨S100000x1, .f32⟩
  | 35 => ⟨S100000x64, .f32⟩
  | 36 => ⟨S100000x64, .f32⟩
  | 37 => ⟨S100000x64, .f32⟩
  | 38 => ⟨S1x64, .f32⟩
  | 39 => ⟨S100000x64, .f32⟩
  | 40 => ⟨S100000x64, .f32⟩
  | 41 => ⟨S_, .f32⟩
  | 42 => ⟨S100000x64, .f32⟩
  | 43 => ⟨S100000x64, .f32⟩
  | 44 => ⟨S_, .f32⟩
  | 45 => ⟨S64x64, .f32⟩
  | 46 => ⟨S100000x1, .i32⟩
  | 47 => ⟨S64x64, .f32⟩
  | 48 => ⟨S_, .f32⟩
  | 49 => ⟨S100000, .f32⟩
  | 50 => ⟨S_, .f32⟩
  | 51 => ⟨S64, .f32⟩
  | 52 => ⟨S100000x1, .i32⟩
  | 53 => ⟨S64, .f32⟩
  | 54 => ⟨S_, .f32⟩
  | 55 => ⟨S64, .f32⟩
  | 56 => ⟨S64, .f32⟩
  | 57 => ⟨S64x1, .f32⟩
  | 58 => ⟨S64x64, .f32⟩
  | 59 => ⟨S64x64, .f32⟩
  | 60 => ⟨S64x16, .f32⟩
  | 61 => ⟨S1x16, .f32⟩
  | 62 => ⟨S64x16, .f32⟩
  | 63 => ⟨S64x16, .f32⟩
  | 64 => ⟨S_, .i32⟩
  | 65 => ⟨S100000, .i32⟩
  | 66 => ⟨S100000, .i1⟩
  | 67 => ⟨S_, .i32⟩
  | 68 => ⟨S100000, .i32⟩
  | 69 => ⟨S100000, .i32⟩
  | 70 => ⟨S100000, .i32⟩
  | 71 => ⟨S100000x1, .i32⟩
  | 72 => ⟨S100000x16, .f32⟩
  | 73 => ⟨S100000x64, .f32⟩
  | 74 => ⟨S1x64, .f32⟩
  | 75 => ⟨S100000x64, .f32⟩
  | 76 => ⟨S100000x64, .f32⟩
  | 77 => ⟨S_, .f32⟩
  | 78 => ⟨S100000x64, .f32⟩
  | 79 => ⟨S100000x64, .f32⟩
  | 80 => ⟨S100000x64, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000, .f32⟩
  | 99 => ⟨S1600000, .f32⟩
  | 100 => ⟨S1600000x1, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000x64, .f32⟩
  | 110 => ⟨S1600000x64, .f32⟩
  | 111 => ⟨S1600000x64, .f32⟩
  | 112 => ⟨S_, .f32⟩
  | 113 => ⟨S100000x64, .f32⟩
  | 114 => ⟨S1600000x1, .i32⟩
  | 115 => ⟨S100000x64, .f32⟩
  | 116 => ⟨S100000, .f32⟩
  | 117 => ⟨S100000x1, .f32⟩
  | 118 => ⟨S100000x64, .f32⟩
  | 119 => ⟨S100000x64, .f32⟩
  | 120 => ⟨S100000x64, .f32⟩
  | 121 => ⟨S1x64, .f32⟩
  | 122 => ⟨S100000x64, .f32⟩
  | 123 => ⟨S100000x64, .f32⟩
  | 124 => ⟨S_, .f32⟩
  | 125 => ⟨S100000x64, .f32⟩
  | 126 => ⟨S100000x64, .f32⟩
  | 127 => ⟨S100000x32, .f32⟩
  | _ => ⟨S100000x32, .f32⟩

abbrev hbmTy0_2 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000, .f32⟩
  | 9 => ⟨S_, .i32⟩
  | 10 => ⟨S1600000, .i32⟩
  | 11 => ⟨S1600000, .i1⟩
  | 12 => ⟨S_, .i32⟩
  | 13 => ⟨S1600000, .i32⟩
  | 14 => ⟨S1600000, .i32⟩
  | 15 => ⟨S1600000, .i32⟩
  | 16 => ⟨S1600000x1, .i32⟩
  | 17 => ⟨S1600000, .f32⟩
  | 18 => ⟨S1600000, .f32⟩
  | 19 => ⟨S1600000x1, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000x32, .f32⟩
  | 29 => ⟨S1600000x32, .f32⟩
  | 30 => ⟨S1600000x32, .f32⟩
  | 31 => ⟨S_, .f32⟩
  | 32 => ⟨S100000x32, .f32⟩
  | 33 => ⟨S1600000x1, .i32⟩
  | 34 => ⟨S100000x32, .f32⟩
  | 35 => ⟨S100000, .f32⟩
  | 36 => ⟨S100000x1, .f32⟩
  | 37 => ⟨S100000x32, .f32⟩
  | 38 => ⟨S100000x32, .f32⟩
  | 39 => ⟨S100000x32, .f32⟩
  | 40 => ⟨S1x32, .f32⟩
  | 41 => ⟨S100000x32, .f32⟩
  | 42 => ⟨S100000x32, .f32⟩
  | _ => ⟨S100000x32, .f32⟩

abbrev hbmTy (i : Nat) : BufTy := match i / 128 with
  | 0 => hbmTy0_0 i
  | 1 => hbmTy0_1 i
  | 2 => hbmTy0_2 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c : Ref sig .tc := ⟨.hbm, 32, rfl⟩
abbrev main_v12 : Ref sig .tc := ⟨.hbm, 33, rfl⟩
abbrev main_v13 : Ref sig .tc := ⟨.hbm, 34, rfl⟩
abbrev main_c_2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_3 : Ref sig .tc := ⟨.hbm, 41, rfl⟩
abbrev main_v19 : Ref sig .tc := ⟨.hbm, 42, rfl⟩
abbrev main_v20 : Ref sig .tc := ⟨.hbm, 43, rfl⟩
abbrev main_c_4 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_5 : Ref sig .tc := ⟨.hbm, 52, rfl⟩
abbrev main_v28 : Ref sig .tc := ⟨.hbm, 53, rfl⟩
abbrev main_v29 : Ref sig .tc := ⟨.hbm, 54, rfl⟩
abbrev main_c_6 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_7 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_call0_cst : Ref sig .tc := ⟨.hbm, 75, rfl⟩
abbrev main_call0_v0 : Ref sig .tc := ⟨.hbm, 76, rfl⟩
abbrev main_v48 : Ref sig .tc := ⟨.hbm, 77, rfl⟩
abbrev main_v49 : Ref sig .tc := ⟨.hbm, 78, rfl⟩
abbrev main_c_8 : Ref sig .tc := ⟨.hbm, 79, rfl⟩
abbrev main_v50 : Ref sig .tc := ⟨.hbm, 80, rfl⟩
abbrev main_v51 : Ref sig .tc := ⟨.hbm, 81, rfl⟩
abbrev main_c_9 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_c_10 : Ref sig .tc := ⟨.hbm, 88, rfl⟩
abbrev main_v57 : Ref sig .tc := ⟨.hbm, 89, rfl⟩
abbrev main_v58 : Ref sig .tc := ⟨.hbm, 90, rfl⟩
abbrev main_c_11 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_c_12 : Ref sig .tc := ⟨.hbm, 99, rfl⟩
abbrev main_v66 : Ref sig .tc := ⟨.hbm, 100, rfl⟩
abbrev main_v67 : Ref sig .tc := ⟨.hbm, 101, rfl⟩
abbrev main_c_13 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_14 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_call1_cst : Ref sig .tc := ⟨.hbm, 122, rfl⟩
abbrev main_call1_v0 : Ref sig .tc := ⟨.hbm, 123, rfl⟩
abbrev main_v86 : Ref sig .tc := ⟨.hbm, 124, rfl⟩
abbrev main_v87 : Ref sig .tc := ⟨.hbm, 125, rfl⟩
abbrev main_c_15 : Ref sig .tc := ⟨.hbm, 126, rfl⟩
abbrev main_v88 : Ref sig .tc := ⟨.hbm, 127, rfl⟩
abbrev main_v89 : Ref sig .tc := ⟨.hbm, 128, rfl⟩
abbrev main_c_16 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_c_17 : Ref sig .tc := ⟨.hbm, 135, rfl⟩
abbrev main_v95 : Ref sig .tc := ⟨.hbm, 136, rfl⟩
abbrev main_v96 : Ref sig .tc := ⟨.hbm, 137, rfl⟩
abbrev main_c_18 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_c_19 : Ref sig .tc := ⟨.hbm, 146, rfl⟩
abbrev main_v104 : Ref sig .tc := ⟨.hbm, 147, rfl⟩
abbrev main_v105 : Ref sig .tc := ⟨.hbm, 148, rfl⟩
abbrev main_c_20 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_cst_21 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_call2_cst : Ref sig .tc := ⟨.hbm, 169, rfl⟩
abbrev main_call2_v0 : Ref sig .tc := ⟨.hbm, 170, rfl⟩
abbrev main_v124 : Ref sig .tc := ⟨.hbm, 171, rfl⟩
abbrev main_cst_22 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_cst_23 : Ref sig .tc := ⟨.hbm, 176, rfl⟩
abbrev main_v128 : Ref sig .tc := ⟨.hbm, 177, rfl⟩
abbrev main_cst_24 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_cst_25 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_c_26 : Ref sig .tc := ⟨.hbm, 192, rfl⟩
abbrev main_v141 : Ref sig .tc := ⟨.hbm, 193, rfl⟩
abbrev main_v142 : Ref sig .tc := ⟨.hbm, 194, rfl⟩
abbrev main_c_27 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_call3_cst : Ref sig .tc := ⟨.hbm, 205, rfl⟩
abbrev main_call3_v0 : Ref sig .tc := ⟨.hbm, 206, rfl⟩
abbrev main_v152 : Ref sig .tc := ⟨.hbm, 207, rfl⟩
abbrev main_v153 : Ref sig .tc := ⟨.hbm, 208, rfl⟩
abbrev main_c_28 : Ref sig .tc := ⟨.hbm, 209, rfl⟩
abbrev main_v154 : Ref sig .tc := ⟨.hbm, 210, rfl⟩
abbrev main_v155 : Ref sig .tc := ⟨.hbm, 211, rfl⟩
abbrev main_c_29 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_c_30 : Ref sig .tc := ⟨.hbm, 218, rfl⟩
abbrev main_v161 : Ref sig .tc := ⟨.hbm, 219, rfl⟩
abbrev main_v162 : Ref sig .tc := ⟨.hbm, 220, rfl⟩
abbrev main_c_31 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_c_32 : Ref sig .tc := ⟨.hbm, 229, rfl⟩
abbrev main_v170 : Ref sig .tc := ⟨.hbm, 230, rfl⟩
abbrev main_v171 : Ref sig .tc := ⟨.hbm, 231, rfl⟩
abbrev main_c_33 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_cst_34 : Ref sig .tc := ⟨.hbm, 240, rfl⟩
abbrev main_v179 : Ref sig .tc := ⟨.hbm, 241, rfl⟩
abbrev main_v180 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_call4_cst : Ref sig .tc := ⟨.hbm, 252, rfl⟩
abbrev main_call4_v0 : Ref sig .tc := ⟨.hbm, 253, rfl⟩
abbrev main_v190 : Ref sig .tc := ⟨.hbm, 254, rfl⟩
abbrev main_v191 : Ref sig .tc := ⟨.hbm, 255, rfl⟩
abbrev main_c_35 : Ref sig .tc := ⟨.hbm, 256, rfl⟩
abbrev main_v192 : Ref sig .tc := ⟨.hbm, 257, rfl⟩
abbrev main_v193 : Ref sig .tc := ⟨.hbm, 258, rfl⟩
abbrev main_c_36 : Ref sig .tc := ⟨.hbm, 259, rfl⟩
abbrev main_v194 : Ref sig .tc := ⟨.hbm, 260, rfl⟩
abbrev main_v195 : Ref sig .tc := ⟨.hbm, 261, rfl⟩
abbrev main_v196 : Ref sig .tc := ⟨.hbm, 262, rfl⟩
abbrev main_v197 : Ref sig .tc := ⟨.hbm, 263, rfl⟩
abbrev main_v198 : Ref sig .tc := ⟨.hbm, 264, rfl⟩
abbrev main_c_37 : Ref sig .tc := ⟨.hbm, 265, rfl⟩
abbrev main_v199 : Ref sig .tc := ⟨.hbm, 266, rfl⟩
abbrev main_v200 : Ref sig .tc := ⟨.hbm, 267, rfl⟩
abbrev main_c_38 : Ref sig .tc := ⟨.hbm, 268, rfl⟩
abbrev main_v201 : Ref sig .tc := ⟨.hbm, 269, rfl⟩
abbrev main_v202 : Ref sig .tc := ⟨.hbm, 270, rfl⟩
abbrev main_v203 : Ref sig .tc := ⟨.hbm, 271, rfl⟩
abbrev main_v204 : Ref sig .tc := ⟨.hbm, 272, rfl⟩
abbrev main_v205 : Ref sig .tc := ⟨.hbm, 273, rfl⟩
abbrev main_v206 : Ref sig .tc := ⟨.hbm, 274, rfl⟩
abbrev main_v207 : Ref sig .tc := ⟨.hbm, 275, rfl⟩
abbrev main_c_39 : Ref sig .tc := ⟨.hbm, 276, rfl⟩
abbrev main_v208 : Ref sig .tc := ⟨.hbm, 277, rfl⟩
abbrev main_v209 : Ref sig .tc := ⟨.hbm, 278, rfl⟩
abbrev main_c_40 : Ref sig .tc := ⟨.hbm, 279, rfl⟩
abbrev main_v210 : Ref sig .tc := ⟨.hbm, 280, rfl⟩
abbrev main_v211 : Ref sig .tc := ⟨.hbm, 281, rfl⟩
abbrev main_v212 : Ref sig .tc := ⟨.hbm, 282, rfl⟩
abbrev main_v213 : Ref sig .tc := ⟨.hbm, 283, rfl⟩
abbrev main_v214 : Ref sig .tc := ⟨.hbm, 284, rfl⟩
abbrev main_v215 : Ref sig .tc := ⟨.hbm, 285, rfl⟩
abbrev main_v216 : Ref sig .tc := ⟨.hbm, 286, rfl⟩
abbrev main_cst_41 : Ref sig .tc := ⟨.hbm, 287, rfl⟩
abbrev main_v217 : Ref sig .tc := ⟨.hbm, 288, rfl⟩
abbrev main_v218 : Ref sig .tc := ⟨.hbm, 289, rfl⟩
abbrev main_v219 : Ref sig .tc := ⟨.hbm, 290, rfl⟩
abbrev main_v220 : Ref sig .tc := ⟨.hbm, 291, rfl⟩
abbrev main_v221 : Ref sig .tc := ⟨.hbm, 292, rfl⟩
abbrev main_v222 : Ref sig .tc := ⟨.hbm, 293, rfl⟩
abbrev main_v223 : Ref sig .tc := ⟨.hbm, 294, rfl⟩
abbrev main_v224 : Ref sig .tc := ⟨.hbm, 295, rfl⟩
abbrev main_v225 : Ref sig .tc := ⟨.hbm, 296, rfl⟩
abbrev main_v226 : Ref sig .tc := ⟨.hbm, 297, rfl⟩
abbrev main_v227 : Ref sig .tc := ⟨.hbm, 298, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1600000x1_S1600000_n_0_0_1_wf : ScatterDims.WF S100000 S1600000x1 S1600000 [] [0] [0] 1
  dot_S100000x32_S32x64_S100000x64_1_0_0_1_n_n_wf : DotDims.WF S100000x32 S32x64 S100000x64 [1] [0] [0] [1] [] []
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x16_S64x16_1_0_0_1_n_n_wf : DotDims.WF S64x64 S64x16 S64x16 [1] [0] [0] [1] [] []
  gather_S64x16_S100000x1_S100000x16_1_0_n_n_0_1_116_wf : GatherDims.WF S64x16 S100000x1 S100000x16 [1] [0] [] [0] [] 1 ![1, 16]
  dot_S100000x16_S16x64_S100000x64_1_0_0_1_n_n_wf : DotDims.WF S100000x16 S16x64 S100000x64 [1] [0] [0] [1] [] []
  dot_S100000x64_S64x32_S100000x32_1_0_0_1_n_n_wf : DotDims.WF S100000x64 S64x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x16_S64x16_1_0_0_1_n_n : DotDims S64x64 S64x16 S64x16 where
  lhsContracting := [1]
  rhsContracting := [0]
  lhsNonContracting := [0]
  rhsNonContracting := [1]
  lhsBatch := []
  rhsBatch := []
  wf := dot_S64x64_S64x16_S64x16_1_0_0_1_n_n_wf
def gather_S64x16_S100000x1_S100000x16_1_0_n_n_0_1_116 : GatherDims S64x16 S100000x1 S100000x16 where
  offsetDims := [1]
  collapsedSliceDims := [0]
  operandBatchingDims := []
  startIndicesBatchingDims := []
  startIndexMap := [0]
  indexVectorDim := 1
  sliceSizes := ![1, 16]
  wf := gather_S64x16_S100000x1_S100000x16_1_0_n_n_0_1_116_wf
def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.Carry.lean ====
/-
  A buffer that a segment of @main does not write holds after the segment what it held before it. For every
  buffer that a later segment reads, and every segment boundary between the one where it gets its value and the
  last one where it is read: the contents at the boundary are the contents at the boundary before (`stepJ_b`), hence
  the contents at the boundary where it got its value (`toJ_b`). The arguments get theirs at the launch.
-/
import proofs.«428352_j83459804495950_3_alg».proof.Proof.Gen.KernelIdeal.Frame
import Idealize.ShloMosaic.Lib.StableHlo.Run

set_option maxRecDepth 16384

noncomputable section

namespace Cert.Carry

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

theorem step2_v1 (c : Dev nD) : W2 m ρ c (Proc.devRef .tc main_v1) = W1 m ρ c (Proc.devRef .tc main_v1) :=
  W2_of_ne m ρ c main_v1 (by decide)
theorem to2_v1 (c : Dev nD) : W2 m ρ c (Proc.devRef .tc main_v1) = W1 m ρ c (Proc.devRef .tc main_v1) :=
  step2_v1 m ρ c
theorem step3_v1 (c : Dev nD) : W3 m ρ c (Proc.devRef .tc main_v1) = W2 m ρ c (Proc.devRef .tc main_v1) := by
  show StableHlo.after hostOps1 (W2 m ρ c) (Proc.devRef .tc main_v1) = _
  after_results
theorem to3_v1 (c : Dev nD) : W3 m ρ c (Proc.devRef .tc main_v1) = W1 m ρ c (Proc.devRef .tc main_v1) :=
  (step3_v1 m ρ c).trans (to2_v1 m ρ c)
theorem step4_v1 (c : Dev nD) : W4 m ρ c (Proc.devRef .tc main_v1) = W3 m ρ c (Proc.devRef .tc main_v1) :=
  W4_of_ne m ρ c main_v1 (by decide)
theorem to4_v1 (c : Dev nD) : W4 m ρ c (Proc.devRef .tc main_v1) = W1 m ρ c (Proc.devRef .tc main_v1) :=
  (step4_v1 m ρ c).trans (to3_v1 m ρ c)
theorem step5_v1 (c : Dev nD) : W5 m ρ c (Proc.devRef .tc main_v1) = W4 m ρ c (Proc.devRef .tc main_v1) :=
  W5_of_ne m ρ c main_v1 (by decide)
theorem to5_v1 (c : Dev nD) : W5 m ρ c (Proc.devRef .tc main_v1) = W1 m ρ c (Proc.devRef .tc main_v1) :=
  (step5_v1 m ρ c).trans (to4_v1 m ρ c)
theorem step6_v1 (c : Dev nD) : W6 m ρ c (Proc.devRef .tc main_v1) = W5 m ρ c (Proc.devRef .tc main_v1) := by
  show StableHlo.after hostOps3 (W5 m ρ c) (Proc.devRef .tc main_v1) = _
  after_results
theorem to6_v1 (c : Dev nD) : W6 m ρ c (Proc.devRef .tc main_v1) = W1 m ρ c (Proc.devRef .tc main_v1) :=
  (step6_v1 m ρ c).trans (to5_v1 m ρ c)
theorem step7_v1 (c : Dev nD) : W7 m ρ c (Proc.devRef .tc main_v1) = W6 m ρ c (Proc.devRef .tc main_v1) :=
  W7_of_ne m ρ c main_v1 (by decide)
theorem to7_v1 (c : Dev nD) : W7 m ρ c (Proc.devRef .tc main_v1) = W1 m ρ c (Proc.devRef .tc main_v1) :=
  (step7_v1 m ρ c).trans (to6_v1 m ρ c)
theorem step8_v1 (c : Dev nD) : W8 m ρ c (Proc.devRef .tc main_v1) = W7 m ρ c (Proc.devRef .tc main_v1) :=
  W8_of_ne m ρ c main_v1 (by decide)
theorem to8_v1 (c : Dev nD) : W8 m ρ c (Proc.devRef .tc main_v1) = W1 m ρ c (Proc.devRef .tc main_v1) :=
  (step8_v1 m ρ c).trans (to7_v1 m ρ c)
theorem step9_v1 (c : Dev nD) : W9 m ρ c (Proc.devRef .tc main_v1) = W8 m ρ c (Proc.devRef .tc main_v1) := by
  show StableHlo.after hostOps5 (W8 m ρ c) (Proc.devRef .tc main_v1) = _
  after_results
theorem to9_v1 (c : Dev nD) : W9 m ρ c (Proc.devRef .tc main_v1) = W1 m ρ c (Proc.devRef .tc main_v1) :=
  (step9_v1 m ρ c).trans (to8_v1 m ρ c)
theorem step10_v1 (c : Dev nD) : W10 m ρ c (Proc.devRef .tc main_v1) = W9 m ρ c (Proc.devRef .tc main_v1) :=
  W10_of_ne m ρ c main_v1 (by decide)
theorem to10_v1 (c : Dev nD) : W10 m ρ c (Proc.devRef .tc main_v1) = W1 m ρ c (Proc.devRef .tc main_v1) :=
  (step10_v1 m ρ c).trans (to9_v1 m ρ c)
theorem step11_v1 (c : Dev nD) : W11 m ρ c (Proc.devRef .tc main_v1) = W10 m ρ c (Proc.devRef .tc main_v1) := by
  show StableHlo.after hostOps6 (W10 m ρ c) (Proc.devRef .tc main_v1) = _
  after_results
theorem to11_v1 (c : Dev nD) : W11 m ρ c (Proc.devRef .tc main_v1) = W1 m ρ c (Proc.devRef .tc main_v1) :=
  (step11_v1 m ρ c).trans (to10_v1 m ρ c)
theorem step12_v1 (c : Dev nD) : W12 m ρ c (Proc.devRef .tc main_v1) = W11 m ρ c (Proc.devRef .tc main_v1) :=
  W12_of_ne m ρ c main_v1 (by decide)
theorem to12_v1 (c : Dev nD) : W12 m ρ c (Proc.devRef .tc main_v1) = W1 m ρ c (Proc.devRef .tc main_v1) :=
  (step12_v1 m ρ c).trans (to11_v1 m ρ c)
theorem step13_v1 (c : Dev nD) : W13 m ρ c (Proc.devRef .tc main_v1) = W12 m ρ c (Proc.devRef .tc main_v1) :=
  W13_of_ne m ρ c main_v1 (by decide)
theorem to13_v1 (c : Dev nD) : W13 m ρ c (Proc.devRef .tc main_v1) = W1 m ρ c (Proc.devRef .tc main_v1) :=
  (step13_v1 m ρ c).trans (to12_v1 m ρ c)
theorem step14_v1 (c : Dev nD) : W14 m ρ c (Proc.devRef .tc main_v1) = W13 m ρ c (Proc.devRef .tc main_v1) := by
  show StableHlo.after hostOps8 (W13 m ρ c) (Proc.devRef .tc main_v1) = _
  after_results
theorem to14_v1 (c : Dev nD) : W14 m ρ c (Proc.devRef .tc main_v1) = W1 m ρ c (Proc.devRef .tc main_v1) :=
  (step14_v1 m ρ c).trans (to13_v1 m ρ c)
theorem step15_v1 (c : Dev nD) : W15 m ρ c (Proc.devRef .tc main_v1) = W14 m ρ c (Proc.devRef .tc main_v1) :=
  W15_of_ne m ρ c main_v1 (by decide)
theorem to15_v1 (c : Dev nD) : W15 m ρ c (Proc.devRef .tc main_v1) = W1 m ρ c (Proc.devRef .tc main_v1) :=
  (step15_v1 m ρ c).trans (to14_v1 m ρ c)
theorem step16_v1 (c : Dev nD) : W16 m ρ c (Proc.devRef .tc main_v1) = W15 m ρ c (Proc.devRef .tc main_v1) :=
  W16_of_ne m ρ c main_v1 (by decide)
theorem to16_v1 (c : Dev nD) : W16 m ρ c (Proc.devRef .tc main_v1) = W1 m ρ c (Proc.devRef .tc main_v1) :=
  (step16_v1 m ρ c).trans (to15_v1 m ρ c)

theorem step2_v3 (c : Dev nD) : W2 m ρ c (Proc.devRef .tc main_v3) = W1 m ρ c (Proc.devRef .tc main_v3) :=
  W2_of_ne m ρ c main_v3 (by decide)
theorem to2_v3 (c : Dev nD) : W2 m ρ c (Proc.devRef .tc main_v3) = W1 m ρ c (Proc.devRef .tc main_v3) :=
  step2_v3 m ρ c
theorem step3_v3 (c : Dev nD) : W3 m ρ c (Proc.devRef .tc main_v3) = W2 m ρ c (Proc.devRef .tc main_v3) := by
  show StableHlo.after hostOps1 (W2 m ρ c) (Proc.devRef .tc main_v3) = _
  after_results
theorem to3_v3 (c : Dev nD) : W3 m ρ c (Proc.devRef .tc main_v3) = W1 m ρ c (Proc.devRef .tc main_v3) :=
  (step3_v3 m ρ c).trans (to2_v3 m ρ c)
theorem step4_v3 (c : Dev nD) : W4 m ρ c (Proc.devRef .tc main_v3) = W3 m ρ c (Proc.devRef .tc main_v3) :=
  W4_of_ne m ρ c main_v3 (by decide)
theorem to4_v3 (c : Dev nD) : W4 m ρ c (Proc.devRef .tc main_v3) = W1 m ρ c (Proc.devRef .tc main_v3) :=
  (step4_v3 m ρ c).trans (to3_v3 m ρ c)
theorem step5_v3 (c : Dev nD) : W5 m ρ c (Proc.devRef .tc main_v3) = W4 m ρ c (Proc.devRef .tc main_v3) :=
  W5_of_ne m ρ c main_v3 (by decide)
theorem to5_v3 (c : Dev nD) : W5 m ρ c (Proc.devRef .tc main_v3) = W1 m ρ c (Proc.devRef .tc main_v3) :=
  (step5_v3 m ρ c).trans (to4_v3 m ρ c)
theorem step6_v3 (c : Dev nD) : W6 m ρ c (Proc.devRef .tc main_v3) = W5 m ρ c (Proc.devRef .tc main_v3) := by
  show StableHlo.after hostOps3 (W5 m ρ c) (Proc.devRef .tc main_v3) = _
  after_results
theorem to6_v3 (c : Dev nD) : W6 m ρ c (Proc.devRef .tc main_v3) = W1 m ρ c (Proc.devRef .tc main_v3) :=
  (step6_v3 m ρ c).trans (to5_v3 m ρ c)
theorem step7_v3 (c : Dev nD) : W7 m ρ c (Proc.devRef .tc main_v3) = W6 m ρ c (Proc.devRef .tc main_v3) :=
  W7_of_ne m ρ c main_v3 (by decide)
theorem to7_v3 (c : Dev nD) : W7 m ρ c (Proc.devRef .tc main_v3) = W1 m ρ c (Proc.devRef .tc main_v3) :=
  (step7_v3 m ρ c).trans (to6_v3 m ρ c)
theorem step8_v3 (c : Dev nD) : W8 m ρ c (Proc.devRef .tc main_v3) = W7 m ρ c (Proc.devRef .tc main_v3) :=
  W8_of_ne m ρ c main_v3 (by decide)
theorem to8_v3 (c : Dev nD) : W8 m ρ c (Proc.devRef .tc main_v3) = W1 m ρ c (Proc.devRef .tc main_v3) :=
  (step8_v3 m ρ c).trans (to7_v3 m ρ c)
theorem step9_v3 (c : Dev nD) : W9 m ρ c (Proc.devRef .tc main_v3) = W8 m ρ c (Proc.devRef .tc main_v3) := by
  show StableHlo.after hostOps5 (W8 m ρ c) (Proc.devRef .tc main_v3) = _
  after_results
theorem to9_v3 (c : Dev nD) : W9 m ρ c (Proc.devRef .tc main_v3) = W1 m ρ c (Proc.devRef .tc main_v3) :=
  (step9_v3 m ρ c).trans (to8_v3 m ρ c)
theorem step10_v3 (c : Dev nD) : W10 m ρ c (Proc.devRef .tc main_v3) = W9 m ρ c (Proc.devRef .tc main_v3) :=
  W10_of_ne m ρ c main_v3 (by decide)
theorem to10_v3 (c : Dev nD) : W10 m ρ c (Proc.devRef .tc main_v3) = W1 m ρ c (Proc.devRef .tc main_v3) :=
  (step10_v3 m ρ c).trans (to9_v3 m ρ c)
theorem step11_v3 (c : Dev nD) : W11 m ρ c (Proc.devRef .tc main_v3) = W10 m ρ c (Proc.devRef .tc main_v3) := by
  show StableHlo.after hostOps6 (W10 m ρ c) (Proc.devRef .tc main_v3) = _
  after_results
theorem to11_v3 (c : Dev nD) : W11 m ρ c (Proc.devRef .tc main_v3) = W1 m ρ c (Proc.devRef .tc main_v3) :=
  (step11_v3 m ρ c).trans (to10_v3 m ρ c)
theorem step12_v3 (c : Dev nD) : W12 m ρ c (Proc.devRef .tc main_v3) = W11 m ρ c (Proc.devRef .tc main_v3) :=
  W12_of_ne m ρ c main_v3 (by decide)
theorem to12_v3 (c : Dev nD) : W12 m ρ c (Proc.devRef .tc main_v3) = W1 m ρ c (Proc.devRef .tc main_v3) :=
  (step12_v3 m ρ c).trans (to11_v3 m ρ c)
theorem step13_v3 (c : Dev nD) : W13 m ρ c (Proc.devRef .tc main_v3) = W12 m ρ c (Proc.devRef .tc main_v3) :=
  W13_of_ne m ρ c main_v3 (by decide)
theorem to13_v3 (c : Dev nD) : W13 m ρ c (Proc.devRef .tc main_v3) = W1 m ρ c (Proc.devRef .tc main_v3) :=
  (step13_v3 m ρ c).trans (to12_v3 m ρ c)
theorem step14_v3 (c : Dev nD) : W14 m ρ c (Proc.devRef .tc main_v3) = W13 m ρ c (Proc.devRef .tc main_v3) := by
  show StableHlo.after hostOps8 (W13 m ρ c) (Proc.devRef .tc main_v3) = _
  after_results
theorem to14_v3 (c : Dev nD) : W14 m ρ c (Proc.devRef .tc main_v3) = W1 m ρ c (Proc.devRef .tc main_v3) :=
  (step14_v3 m ρ c).trans (to13_v3 m ρ c)
theorem step15_v3 (c : Dev nD) : W15 m ρ c (Proc.devRef .tc main_v3) = W14 m ρ c (Proc.devRef .tc main_v3) :=
  W15_of_ne m ρ c main_v3 (by decide)
theorem to15_v3 (c : Dev nD) : W15 m ρ c (Proc.devRef .tc main_v3) = W1 m ρ c (Proc.devRef .tc main_v3) :=
  (step15_v3 m ρ c).trans (to14_v3 m ρ c)
theorem step16_v3 (c : Dev nD) : W16 m ρ c (Proc.devRef .tc main_v3) = W15 m ρ c (Proc.devRef .tc main_v3) :=
  W16_of_ne m ρ c main_v3 (by decide)
theorem to16_v3 (c : Dev nD) : W16 m ρ c (Proc.devRef .tc main_v3) = W1 m ρ c (Proc.devRef .tc main_v3) :=
  (step16_v3 m ρ c).trans (to15_v3 m ρ c)

theorem step2_v11 (c : Dev nD) : W2 m ρ c (Proc.devRef .tc main_v11) = W1 m ρ c (Proc.devRef .tc main_v11) :=
  W2_of_ne m ρ c main_v11 (by decide)
theorem to2_v11 (c : Dev nD) : W2 m ρ c (Proc.devRef .tc main_v11) = W1 m ρ c (Proc.devRef .tc main_v11) :=
  step2_v11 m ρ c
theorem step3_v11 (c : Dev nD) : W3 m ρ c (Proc.devRef .tc main_v11) = W2 m ρ c (Proc.devRef .tc main_v11) := by
  show StableHlo.after hostOps1 (W2 m ρ c) (Proc.devRef .tc main_v11) = _
  after_results
theorem to3_v11 (c : Dev nD) : W3 m ρ c (Proc.devRef .tc main_v11) = W1 m ρ c (Proc.devRef .tc main_v11) :=
  (step3_v11 m ρ c).trans (to2_v11 m ρ c)
theorem step4_v11 (c : Dev nD) : W4 m ρ c (Proc.devRef .tc main_v11) = W3 m ρ c (Proc.devRef .tc main_v11) :=
  W4_of_ne m ρ c main_v11 (by decide)
theorem to4_v11 (c : Dev nD) : W4 m ρ c (Proc.devRef .tc main_v11) = W1 m ρ c (Proc.devRef .tc main_v11) :=
  (step4_v11 m ρ c).trans (to3_v11 m ρ c)
theorem step5_v11 (c : Dev nD) : W5 m ρ c (Proc.devRef .tc main_v11) = W4 m ρ c (Proc.devRef .tc main_v11) :=
  W5_of_ne m ρ c main_v11 (by decide)
theorem to5_v11 (c : Dev nD) : W5 m ρ c (Proc.devRef .tc main_v11) = W1 m ρ c (Proc.devRef .tc main_v11) :=
  (step5_v11 m ρ c).trans (to4_v11 m ρ c)
theorem step6_v11 (c : Dev nD) : W6 m ρ c (Proc.devRef .tc main_v11) = W5 m ρ c (Proc.devRef .tc main_v11) := by
  show StableHlo.after hostOps3 (W5 m ρ c) (Proc.devRef .tc main_v11) = _
  after_results
theorem to6_v11 (c : Dev nD) : W6 m ρ c (Proc.devRef .tc main_v11) = W1 m ρ c (Proc.devRef .tc main_v11) :=
  (step6_v11 m ρ c).trans (to5_v11 m ρ c)
theorem step7_v11 (c : Dev nD) : W7 m ρ c (Proc.devRef .tc main_v11) = W6 m ρ c (Proc.devRef .tc main_v11) :=
  W7_of_ne m ρ c main_v11 (by decide)
theorem to7_v11 (c : Dev nD) : W7 m ρ c (Proc.devRef .tc main_v11) = W1 m ρ c (Proc.devRef .tc main_v11) :=
  (step7_v11 m ρ c).trans (to6_v11 m ρ c)
theorem step8_v11 (c : Dev nD) : W8 m ρ c (Proc.devRef .tc main_v11) = W7 m ρ c (Proc.devRef .tc main_v11) :=
  W8_of_ne m ρ c main_v11 (by decide)
theorem to8_v11 (c : Dev nD) : W8 m ρ c (Proc.devRef .tc main_v11) = W1 m ρ c (Proc.devRef .tc main_v11) :=
  (step8_v11 m ρ c).trans (to7_v11 m ρ c)
theorem step9_v11 (c : Dev nD) : W9 m ρ c (Proc.devRef .tc main_v11) = W8 m ρ c (Proc.devRef .tc main_v11) := by
  show StableHlo.after hostOps5 (W8 m ρ c) (Proc.devRef .tc main_v11) = _
  after_results
theorem to9_v11 (c : Dev nD) : W9 m ρ c (Proc.devRef .tc main_v11) = W1 m ρ c (Proc.devRef .tc main_v11) :=
  (step9_v11 m ρ c).trans (to8_v11 m ρ c)
theorem step10_v11 (c : Dev nD) : W10 m ρ c (Proc.devRef .tc main_v11) = W9 m ρ c (Proc.devRef .tc main_v11) :=
  W10_of_ne m ρ c main_v11 (by decide)
theorem to10_v11 (c : Dev nD) : W10 m ρ c (Proc.devRef .tc main_v11) = W1 m ρ c (Proc.devRef .tc main_v11) :=
  (step10_v11 m ρ c).trans (to9_v11 m ρ c)
theorem step11_v11 (c : Dev nD) : W11 m ρ c (Proc.devRef .tc main_v11) = W10 m ρ c (Proc.devRef .tc main_v11) := by
  show StableHlo.after hostOps6 (W10 m ρ c) (Proc.devRef .tc main_v11) = _
  after_results
theorem to11_v11 (c : Dev nD) : W11 m ρ c (Proc.devRef .tc main_v11) = W1 m ρ c (Proc.devRef .tc main_v11) :=
  (step11_v11 m ρ c).trans (to10_v11 m ρ c)
theorem step12_v11 (c : Dev nD) : W12 m ρ c (Proc.devRef .tc main_v11) = W11 m ρ c (Proc.devRef .tc main_v11) :=
  W12_of_ne m ρ c main_v11 (by decide)
theorem to12_v11 (c : Dev nD) : W12 m ρ c (Proc.devRef .tc main_v11) = W1 m ρ c (Proc.devRef .tc main_v11) :=
  (step12_v11 m ρ c).trans (to11_v11 m ρ c)
theorem step13_v11 (c : Dev nD) : W13 m ρ c (Proc.devRef .tc main_v11) = W12 m ρ c (Proc.devRef .tc main_v11) :=
  W13_of_ne m ρ c main_v11 (by decide)
theorem to13_v11 (c : Dev nD) : W13 m ρ c (Proc.devRef .tc main_v11) = W1 m ρ c (Proc.devRef .tc main_v11) :=
  (step13_v11 m ρ c).trans (to12_v11 m ρ c)
theorem step14_v11 (c : Dev nD) : W14 m ρ c (Proc.devRef .tc main_v11) = W13 m ρ c (Proc.devRef .tc main_v11) := by
  show StableHlo.after hostOps8 (W13 m ρ c) (Proc.devRef .tc main_v11) = _
  after_results
theorem to14_v11 (c : Dev nD) : W14 m ρ c (Proc.devRef .tc main_v11) = W1 m ρ c (Proc.devRef .tc main_v11) :=
  (step14_v11 m ρ c).trans (to13_v11 m ρ c)
theorem step15_v11 (c : Dev nD) : W15 m ρ c (Proc.devRef .tc main_v11) = W14 m ρ c (Proc.devRef .tc main_v11) :=
  W15_of_ne m ρ c main_v11 (by decide)
theorem to15_v11 (c : Dev nD) : W15 m ρ c (Proc.devRef .tc main_v11) = W1 m ρ c (Proc.devRef .tc main_v11) :=
  (step15_v11 m ρ c).trans (to14_v11 m ρ c)
theorem step16_v11 (c : Dev nD) : W16 m ρ c (Proc.devRef .tc main_v11) = W15 m ρ c (Proc.devRef .tc main_v11) :=
  W16_of_ne m ρ c main_v11 (by decide)
theorem to16_v11 (c : Dev nD) : W16 m ρ c (Proc.devRef .tc main_v11) = W1 m ρ c (Proc.devRef .tc main_v11) :=
  (step16_v11 m ρ c).trans (to15_v11 m ρ c)

theorem step2_v26 (c : Dev nD) : W2 m ρ c (Proc.devRef .tc main_v26) = W1 m ρ c (Proc.devRef .tc main_v26) :=
  W2_of_ne m ρ c main_v26 (by decide)
theorem to2_v26 (c : Dev nD) : W2 m ρ c (Proc.devRef .tc main_v26) = W1 m ρ c (Proc.devRef .tc main_v26) :=
  step2_v26 m ρ c
theorem step3_v26 (c : Dev nD) : W3 m ρ c (Proc.devRef .tc main_v26) = W2 m ρ c (Proc.devRef .tc main_v26) := by
  show StableHlo.after hostOps1 (W2 m ρ c) (Proc.devRef .tc main_v26) = _
  after_results
theorem to3_v26 (c : Dev nD) : W3 m ρ c (Proc.devRef .tc main_v26) = W1 m ρ c (Proc.devRef .tc main_v26) :=
  (step3_v26 m ρ c).trans (to2_v26 m ρ c)
theorem step4_v26 (c : Dev nD) : W4 m ρ c (Proc.devRef .tc main_v26) = W3 m ρ c (Proc.devRef .tc main_v26) :=
  W4_of_ne m ρ c main_v26 (by decide)
theorem to4_v26 (c : Dev nD) : W4 m ρ c (Proc.devRef .tc main_v26) = W1 m ρ c (Proc.devRef .tc main_v26) :=
  (step4_v26 m ρ c).trans (to3_v26 m ρ c)
theorem step5_v26 (c : Dev nD) : W5 m ρ c (Proc.devRef .tc main_v26) = W4 m ρ c (Proc.devRef .tc main_v26) :=
  W5_of_ne m ρ c main_v26 (by decide)
theorem to5_v26 (c : Dev nD) : W5 m ρ c (Proc.devRef .tc main_v26) = W1 m ρ c (Proc.devRef .tc main_v26) :=
  (step5_v26 m ρ c).trans (to4_v26 m ρ c)
theorem step6_v26 (c : Dev nD) : W6 m ρ c (Proc.devRef .tc main_v26) = W5 m ρ c (Proc.devRef .tc main_v26) := by
  show StableHlo.after hostOps3 (W5 m ρ c) (Proc.devRef .tc main_v26) = _
  after_results
theorem to6_v26 (c : Dev nD) : W6 m ρ c (Proc.devRef .tc main_v26) = W1 m ρ c (Proc.devRef .tc main_v26) :=
  (step6_v26 m ρ c).trans (to5_v26 m ρ c)
theorem step7_v26 (c : Dev nD) : W7 m ρ c (Proc.devRef .tc main_v26) = W6 m ρ c (Proc.devRef .tc main_v26) :=
  W7_of_ne m ρ c main_v26 (by decide)
theorem to7_v26 (c : Dev nD) : W7 m ρ c (Proc.devRef .tc main_v26) = W1 m ρ c (Proc.devRef .tc main_v26) :=
  (step7_v26 m ρ c).trans (to6_v26 m ρ c)
theorem step8_v26 (c : Dev nD) : W8 m ρ c (Proc.devRef .tc main_v26) = W7 m ρ c (Proc.devRef .tc main_v26) :=
  W8_of_ne m ρ c main_v26 (by decide)
theorem to8_v26 (c : Dev nD) : W8 m ρ c (Proc.devRef .tc main_v26) = W1 m ρ c (Proc.devRef .tc main_v26) :=
  (step8_v26 m ρ c).trans (to7_v26 m ρ c)
theorem step9_v26 (c : Dev nD) : W9 m ρ c (Proc.devRef .tc main_v26) = W8 m ρ c (Proc.devRef .tc main_v26) := by
  show StableHlo.after hostOps5 (W8 m ρ c) (Proc.devRef .tc main_v26) = _
  after_results
theorem to9_v26 (c : Dev nD) : W9 m ρ c (Proc.devRef .tc main_v26) = W1 m ρ c (Proc.devRef .tc main_v26) :=
  (step9_v26 m ρ c).trans (to8_v26 m ρ c)
theorem step10_v26 (c : Dev nD) : W10 m ρ c (Proc.devRef .tc main_v26) = W9 m ρ c (Proc.devRef .tc main_v26) :=
  W10_of_ne m ρ c main_v26 (by decide)
theorem to10_v26 (c : Dev nD) : W10 m ρ c (Proc.devRef .tc main_v26) = W1 m ρ c (Proc.devRef .tc main_v26) :=
  (step10_v26 m ρ c).trans (to9_v26 m ρ c)
theorem step11_v26 (c : Dev nD) : W11 m ρ c (Proc.devRef .tc main_v26) = W10 m ρ c (Proc.devRef .tc main_v26) := by
  show StableHlo.after hostOps6 (W10 m ρ c) (Proc.devRef .tc main_v26) = _
  after_results
theorem to11_v26 (c : Dev nD) : W11 m ρ c (Proc.devRef .tc main_v26) = W1 m ρ c (Proc.devRef .tc main_v26) :=
  (step11_v26 m ρ c).trans (to10_v26 m ρ c)
theorem step12_v26 (c : Dev nD) : W12 m ρ c (Proc.devRef .tc main_v26) = W11 m ρ c (Proc.devRef .tc main_v26) :=
  W12_of_ne m ρ c main_v26 (by decide)
theorem to12_v26 (c : Dev nD) : W12 m ρ c (Proc.devRef .tc main_v26) = W1 m ρ c (Proc.devRef .tc main_v26) :=
  (step12_v26 m ρ c).trans (to11_v26 m ρ c)
theorem step13_v26 (c : Dev nD) : W13 m ρ c (Proc.devRef .tc main_v26) = W12 m ρ c (Proc.devRef .tc main_v26) :=
  W13_of_ne m ρ c main_v26 (by decide)
theorem to13_v26 (c : Dev nD) : W13 m ρ c (Proc.devRef .tc main_v26) = W1 m ρ c (Proc.devRef .tc main_v26) :=
  (step13_v26 m ρ c).trans (to12_v26 m ρ c)
theorem step14_v26 (c : Dev nD) : W14 m ρ c (Proc.devRef .tc main_v26) = W13 m ρ c (Proc.devRef .tc main_v26) := by
  show StableHlo.after hostOps8 (W13 m ρ c) (Proc.devRef .tc main_v26) = _
  after_results
theorem to14_v26 (c : Dev nD) : W14 m ρ c (Proc.devRef .tc main_v26) = W1 m ρ c (Proc.devRef .tc main_v26) :=
  (step14_v26 m ρ c).trans (to13_v26 m ρ c)
theorem step15_v26 (c : Dev nD) : W15 m ρ c (Proc.devRef .tc main_v26) = W14 m ρ c (Proc.devRef .tc main_v26) :=
  W15_of_ne m ρ c main_v26 (by decide)
theorem to15_v26 (c : Dev nD) : W15 m ρ c (Proc.devRef .tc main_v26) = W1 m ρ c (Proc.devRef .tc main_v26) :=
  (step15_v26 m ρ c).trans (to14_v26 m ρ c)
theorem step16_v26 (c : Dev nD) : W16 m ρ c (Proc.devRef .tc main_v26) = W15 m ρ c (Proc.devRef .tc main_v26) :=
  W16_of_ne m ρ c main_v26 (by decide)
theorem to16_v26 (c : Dev nD) : W16 m ρ c (Proc.devRef .tc main_v26) = W1 m ρ c (Proc.devRef .tc main_v26) :=
  (step16_v26 m ρ c).trans (to15_v26 m ρ c)

theorem to0_arg0 (c : Dev nD) : W0 m ρ c (Proc.devRef .tc main_arg0) = m ((c : Thread nD τ).loc main_arg0) := rfl
theorem step1_arg0 (c : Dev nD) : W1 m ρ c (Proc.devRef .tc main_arg0) = W0 m ρ c (Proc.devRef .tc main_arg0) := by
  show StableHlo.after hostOps0 (W0 m ρ c) (Proc.devRef .tc main_arg0) = _
  after_results
theorem to1_arg0 (c : Dev nD) : W1 m ρ c (Proc.devRef .tc main_arg0) = m ((c : Thread nD τ).loc main_arg0) :=
  (step1_arg0 m ρ c).trans (to0_arg0 m ρ c)

theorem to0_arg1 (c : Dev nD) : W0 m ρ c (Proc.devRef .tc main_arg1) = m ((c : Thread nD τ).loc main_arg1) := rfl

theorem to0_arg2 (c : Dev nD) : W0 m ρ c (Proc.devRef .tc main_arg2) = m ((c : Thread nD τ).loc main_arg2) := rfl
theorem step1_arg2 (c : Dev nD) : W1 m ρ c (Proc.devRef .tc main_arg2) = W0 m ρ c (Proc.devRef .tc main_arg2) := by
  show StableHlo.after hostOps0 (W0 m ρ c) (Proc.devRef .tc main_arg2) = _
  after_results
theorem to1_arg2 (c : Dev nD) : W1 m ρ c (Proc.devRef .tc main_arg2) = m ((c : Thread nD τ).loc main_arg2) :=
  (step1_arg2 m ρ c).trans (to0_arg2 m ρ c)
theorem step2_arg2 (c : Dev nD) : W2 m ρ c (Proc.devRef .tc main_arg2) = W1 m ρ c (Proc.devRef .tc main_arg2) :=
  W2_of_ne m ρ c main_arg2 (by decide)
theorem to2_arg2 (c : Dev nD) : W2 m ρ c (Proc.devRef .tc main_arg2) = m ((c : Thread nD τ).loc main_arg2) :=
  (step2_arg2 m ρ c).trans (to1_arg2 m ρ c)
theorem step3_arg2 (c : Dev nD) : W3 m ρ c (Proc.devRef .tc main_arg2) = W2 m ρ c (Proc.devRef .tc main_arg2) := by
  show StableHlo.after hostOps1 (W2 m ρ c) (Proc.devRef .tc main_arg2) = _
  after_results
theorem to3_arg2 (c : Dev nD) : W3 m ρ c (Proc.devRef .tc main_arg2) = m ((c : Thread nD τ).loc main_arg2) :=
  (step3_arg2 m ρ c).trans (to2_arg2 m ρ c)
theorem step4_arg2 (c : Dev nD) : W4 m ρ c (Proc.devRef .tc main_arg2) = W3 m ρ c (Proc.devRef .tc main_arg2) :=
  W4_of_ne m ρ c main_arg2 (by decide)
theorem to4_arg2 (c : Dev nD) : W4 m ρ c (Proc.devRef .tc main_arg2) = m ((c : Thread nD τ).loc main_arg2) :=
  (step4_arg2 m ρ c).trans (to3_arg2 m ρ c)
theorem step5_arg2 (c : Dev nD) : W5 m ρ c (Proc.devRef .tc main_arg2) = W4 m ρ c (Proc.devRef .tc main_arg2) :=
  W5_of_ne m ρ c main_arg2 (by decide)
theorem to5_arg2 (c : Dev nD) : W5 m ρ c (Proc.devRef .tc main_arg2) = m ((c : Thread nD τ).loc main_arg2) :=
  (step5_arg2 m ρ c).trans (to4_arg2 m ρ c)
theorem step6_arg2 (c : Dev nD) : W6 m ρ c (Proc.devRef .tc main_arg2) = W5 m ρ c (Proc.devRef .tc main_arg2) := by
  show StableHlo.after hostOps3 (W5 m ρ c) (Proc.devRef .tc main_arg2) = _
  after_results
theorem to6_arg2 (c : Dev nD) : W6 m ρ c (Proc.devRef .tc main_arg2) = m ((c : Thread nD τ).loc main_arg2) :=
  (step6_arg2 m ρ c).trans (to5_arg2 m ρ c)
theorem step7_arg2 (c : Dev nD) : W7 m ρ c (Proc.devRef .tc main_arg2) = W6 m ρ c (Proc.devRef .tc main_arg2) :=
  W7_of_ne m ρ c main_arg2 (by decide)
theorem to7_arg2 (c : Dev nD) : W7 m ρ c (Proc.devRef .tc main_arg2) = m ((c : Thread nD τ).loc main_arg2) :=
  (step7_arg2 m ρ c).trans (to6_arg2 m ρ c)
theorem step8_arg2 (c : Dev nD) : W8 m ρ c (Proc.devRef .tc main_arg2) = W7 m ρ c (Proc.devRef .tc main_arg2) :=
  W8_of_ne m ρ c main_arg2 (by decide)
theorem to8_arg2 (c : Dev nD) : W8 m ρ c (Proc.devRef .tc main_arg2) = m ((c : Thread nD τ).loc main_arg2) :=
  (step8_arg2 m ρ c).trans (to7_arg2 m ρ c)
theorem step9_arg2 (c : Dev nD) : W9 m ρ c (Proc.devRef .tc main_arg2) = W8 m ρ c (Proc.devRef .tc main_arg2) := by
  show StableHlo.after hostOps5 (W8 m ρ c) (Proc.devRef .tc main_arg2) = _
  after_results
theorem to9_arg2 (c : Dev nD) : W9 m ρ c (Proc.devRef .tc main_arg2) = m ((c : Thread nD τ).loc main_arg2) :=
  (step9_arg2 m ρ c).trans (to8_arg2 m ρ c)
theorem step10_arg2 (c : Dev nD) : W10 m ρ c (Proc.devRef .tc main_arg2) = W9 m ρ c (Proc.devRef .tc main_arg2) :=
  W10_of_ne m ρ c main_arg2 (by decide)
theorem to10_arg2 (c : Dev nD) : W10 m ρ c (Proc.devRef .tc main_arg2) = m ((c : Thread nD τ).loc main_arg2) :=
  (step10_arg2 m ρ c).trans (to9_arg2 m ρ c)

theorem to0_arg3 (c : Dev nD) : W0 m ρ c (Proc.devRef .tc main_arg3) = m ((c : Thread nD τ).loc main_arg3) := rfl
theorem step1_arg3 (c : Dev nD) : W1 m ρ c (Proc.devRef .tc main_arg3) = W0 m ρ c (Proc.devRef .tc main_arg3) := by
  show StableHlo.after hostOps0 (W0 m ρ c) (Proc.devRef .tc main_arg3) = _
  after_results
theorem to1_arg3 (c : Dev nD) : W1 m ρ c (Proc.devRef .tc main_arg3) = m ((c : Thread nD τ).loc main_arg3) :=
  (step1_arg3 m ρ c).trans (to0_arg3 m ρ c)

theorem to0_arg4 (c : Dev nD) : W0 m ρ c (Proc.devRef .tc main_arg4) = m ((c : Thread nD τ).loc main_arg4) := rfl
theorem step1_arg4 (c : Dev nD) : W1 m ρ c (Proc.devRef .tc main_arg4) = W0 m ρ c (Proc.devRef .tc main_arg4) := by
  show StableHlo.after hostOps0 (W0 m ρ c) (Proc.devRef .tc main_arg4) = _
  after_results
theorem to1_arg4 (c : Dev nD) : W1 m ρ c (Proc.devRef .tc main_arg4) = m ((c : Thread nD τ).loc main_arg4) :=
  (step1_arg4 m ρ c).trans (to0_arg4 m ρ c)
theorem step2_arg4 (c : Dev nD) : W2 m ρ c (Proc.devRef .tc main_arg4) = W1 m ρ c (Proc.devRef .tc main_arg4) :=
  W2_of_ne m ρ c main_arg4 (by decide)
theorem to2_arg4 (c : Dev nD) : W2 m ρ c (Proc.devRef .tc main_arg4) = m ((c : Thread nD τ).loc main_arg4) :=
  (step2_arg4 m ρ c).trans (to1_arg4 m ρ c)

theorem to0_arg5 (c : Dev nD) : W0 m ρ c (Proc.devRef .tc main_arg5) = m ((c : Thread nD τ).loc main_arg5) := rfl
theorem step1_arg5 (c : Dev nD) : W1 m ρ c (Proc.devRef .tc main_arg5) = W0 m ρ c (Proc.devRef .tc main_arg5) := by
  show StableHlo.after hostOps0 (W0 m ρ c) (Proc.devRef .tc main_arg5) = _
  after_results
theorem to1_arg5 (c : Dev nD) : W1 m ρ c (Proc.devRef .tc main_arg5) = m ((c : Thread nD τ).loc main_arg5) :=
  (step1_arg5 m ρ c).trans (to0_arg5 m ρ c)
theorem step2_arg5 (c : Dev nD) : W2 m ρ c (Proc.devRef .tc main_arg5) = W1 m ρ c (Proc.devRef .tc main_arg5) :=
  W2_of_ne m ρ c main_arg5 (by decide)
theorem to2_arg5 (c : Dev nD) : W2 m ρ c (Proc.devRef .tc main_arg5) = m ((c : Thread nD τ).loc main_arg5) :=
  (step2_arg5 m ρ c).trans (to1_arg5 m ρ c)
theorem step3_arg5 (c : Dev nD) : W3 m ρ c (Proc.devRef .tc main_arg5) = W2 m ρ c (Proc.devRef .tc main_arg5) := by
  show StableHlo.after hostOps1 (W2 m ρ c) (Proc.devRef .tc main_arg5) = _
  after_results
theorem to3_arg5 (c : Dev nD) : W3 m ρ c (Proc.devRef .tc main_arg5) = m ((c : Thread nD τ).loc main_arg5) :=
  (step3_arg5 m ρ c).trans (to2_arg5 m ρ c)
theorem step4_arg5 (c : Dev nD) : W4 m ρ c (Proc.devRef .tc main_arg5) = W3 m ρ c (Proc.devRef .tc main_arg5) :=
  W4_of_ne m ρ c main_arg5 (by decide)
theorem to4_arg5 (c : Dev nD) : W4 m ρ c (Proc.devRef .tc main_arg5) = m ((c : Thread nD τ).loc main_arg5) :=
  (step4_arg5 m ρ c).trans (to3_arg5 m ρ c)

theorem to0_arg6 (c : Dev nD) : W0 m ρ c (Proc.devRef .tc main_arg6) = m ((c : Thread nD τ).loc main_arg6) := rfl
theorem step1_arg6 (c : Dev nD) : W1 m ρ c (Proc.devRef .tc main_arg6) = W0 m ρ c (Proc.devRef .tc main_arg6) := by
  show StableHlo.after hostOps0 (W0 m ρ c) (Proc.devRef .tc main_arg6) = _
  after_results
theorem to1_arg6 (c : Dev nD) : W1 m ρ c (Proc.devRef .tc main_arg6) = m ((c : Thread nD τ).loc main_arg6) :=
  (step1_arg6 m ρ c).trans (to0_arg6 m ρ c)
theorem step2_arg6 (c : Dev nD) : W2 m ρ c (Proc.devRef .tc main_arg6) = W1 m ρ c (Proc.devRef .tc main_arg6) :=
  W2_of_ne m ρ c main_arg6 (by decide)
theorem to2_arg6 (c : Dev nD) : W2 m ρ c (Proc.devRef .tc main_arg6) = m ((c : Thread nD τ).loc main_arg6) :=
  (step2_arg6 m ρ c).trans (to1_arg6 m ρ c)
theorem step3_arg6 (c : Dev nD) : W3 m ρ c (Proc.devRef .tc main_arg6) = W2 m ρ c (Proc.devRef .tc main_arg6) := by
  show StableHlo.after hostOps1 (W2 m ρ c) (Proc.devRef .tc main_arg6) = _
  after_results
theorem to3_arg6 (c : Dev nD) : W3 m ρ c (Proc.devRef .tc main_arg6) = m ((c : Thread nD τ).loc main_arg6) :=
  (step3_arg6 m ρ c).trans (to2_arg6 m ρ c)
theorem step4_arg6 (c : Dev nD) : W4 m ρ c (Proc.devRef .tc main_arg6) = W3 m ρ c (Proc.devRef .tc main_arg6) :=
  W4_of_ne m ρ c main_arg6 (by decide)
theorem to4_arg6 (c : Dev nD) : W4 m ρ c (Proc.devRef .tc main_arg6) = m ((c : Thread nD τ).loc main_arg6) :=
  (step4_arg6 m ρ c).trans (to3_arg6 m ρ c)
theorem step5_arg6 (c : Dev nD) : W5 m ρ c (Proc.devRef .tc main_arg6) = W4 m ρ c (Proc.devRef .tc main_arg6) :=
  W5_of_ne m ρ c main_arg6 (by decide)
theorem to5_arg6 (c : Dev nD) : W5 m ρ c (Proc.devRef .tc main_arg6) = m ((c : Thread nD τ).loc main_arg6) :=
  (step5_arg6 m ρ c).trans (to4_arg6 m ρ c)

theorem to0_arg7 (c : Dev nD) : W0 m ρ c (Proc.devRef .tc main_arg7) = m ((c : Thread nD τ).loc main_arg7) := rfl
theorem step1_arg7 (c : Dev nD) : W1 m ρ c (Proc.devRef .tc main_arg7) = W0 m ρ c (Proc.devRef .tc main_arg7) := by
  show StableHlo.after hostOps0 (W0 m ρ c) (Proc.devRef .tc main_arg7) = _
  after_results
theorem to1_arg7 (c : Dev nD) : W1 m ρ c (Proc.devRef .tc main_arg7) = m ((c : Thread nD τ).loc main_arg7) :=
  (step1_arg7 m ρ c).trans (to0_arg7 m ρ c)
theorem step2_arg7 (c : Dev nD) : W2 m ρ c (Proc.devRef .tc main_arg7) = W1 m ρ c (Proc.devRef .tc main_arg7) :=
  W2_of_ne m ρ c main_arg7 (by decide)
theorem to2_arg7 (c : Dev nD) : W2 m ρ c (Proc.devRef .tc main_arg7) = m ((c : Thread nD τ).loc main_arg7) :=
  (step2_arg7 m ρ c).trans (to1_arg7 m ρ c)
theorem step3_arg7 (c : Dev nD) : W3 m ρ c (Proc.devRef .tc main_arg7) = W2 m ρ c (Proc.devRef .tc main_arg7) := by
  show StableHlo.after hostOps1 (W2 m ρ c) (Proc.devRef .tc main_arg7) = _
  after_results
theorem to3_arg7 (c : Dev nD) : W3 m ρ c (Proc.devRef .tc main_arg7) = m ((c : Thread nD τ).loc main_arg7) :=
  (step3_arg7 m ρ c).trans (to2_arg7 m ρ c)
theorem step4_arg7 (c : Dev nD) : W4 m ρ c (Proc.devRef .tc main_arg7) = W3 m ρ c (Proc.devRef .tc main_arg7) :=
  W4_of_ne m ρ c main_arg7 (by decide)
theorem to4_arg7 (c : Dev nD) : W4 m ρ c (Proc.devRef .tc main_arg7) = m ((c : Thread nD τ).loc main_arg7) :=
  (step4_arg7 m ρ c).trans (to3_arg7 m ρ c)
theorem step5_arg7 (c : Dev nD) : W5 m ρ c (Proc.devRef .tc main_arg7) = W4 m ρ c (Proc.devRef .tc main_arg7) :=
  W5_of_ne m ρ c main_arg7 (by decide)
theorem to5_arg7 (c : Dev nD) : W5 m ρ c (Proc.devRef .tc main_arg7) = m ((c : Thread nD τ).loc main_arg7) :=
  (step5_arg7 m ρ c).trans (to4_arg7 m ρ c)
theorem step6_arg7 (c : Dev nD) : W6 m ρ c (Proc.devRef .tc main_arg7) = W5 m ρ c (Proc.devRef .tc main_arg7) := by
  show StableHlo.after hostOps3 (W5 m ρ c) (Proc.devRef .tc main_arg7) = _
  after_results
theorem to6_arg7 (c : Dev nD) : W6 m ρ c (Proc.devRef .tc main_arg7) = m ((c : Thread nD τ).loc main_arg7) :=
  (step6_arg7 m ρ c).trans (to5_arg7 m ρ c)
theorem step7_arg7 (c : Dev nD) : W7 m ρ c (Proc.devRef .tc main_arg7) = W6 m ρ c (Proc.devRef .tc main_arg7) :=
  W7_of_ne m ρ c main_arg7 (by decide)
theorem to7_arg7 (c : Dev nD) : W7 m ρ c (Proc.devRef .tc main_arg7) = m ((c : Thread nD τ).loc main_arg7) :=
  (step7_arg7 m ρ c).trans (to6_arg7 m ρ c)

theorem to0_arg8 (c : Dev nD) : W0 m ρ c (Proc.devRef .tc main_arg8) = m ((c : Thread nD τ).loc main_arg8) := rfl
theorem step1_arg8 (c : Dev nD) : W1 m ρ c (Proc.devRef .tc main_arg8) = W0 m ρ c (Proc.devRef .tc main_arg8) := by
  show StableHlo.after hostOps0 (W0 m ρ c) (Proc.devRef .tc main_arg8) = _
  after_results
theorem to1_arg8 (c : Dev nD) : W1 m ρ c (Proc.devRef .tc main_arg8) = m ((c : Thread nD τ).loc main_arg8) :=
  (step1_arg8 m ρ c).trans (to0_arg8 m ρ c)
theorem step2_arg8 (c : Dev nD) : W2 m ρ c (Proc.devRef .tc main_arg8) = W1 m ρ c (Proc.devRef .tc main_arg8) :=
  W2_of_ne m ρ c main_arg8 (by decide)
theorem to2_arg8 (c : Dev nD) : W2 m ρ c (Proc.devRef .tc main_arg8) = m ((c : Thread nD τ).loc main_arg8) :=
  (step2_arg8 m ρ c).trans (to1_arg8 m ρ c)
theorem step3_arg8 (c : Dev nD) : W3 m ρ c (Proc.devRef .tc main_arg8) = W2 m ρ c (Proc.devRef .tc main_arg8) := by
  show StableHlo.after hostOps1 (W2 m ρ c) (Proc.devRef .tc main_arg8) = _
  after_results
theorem to3_arg8 (c : Dev nD) : W3 m ρ c (Proc.devRef .tc main_arg8) = m ((c : Thread nD τ).loc main_arg8) :=
  (step3_arg8 m ρ c).trans (to2_arg8 m ρ c)
theorem step4_arg8 (c : Dev nD) : W4 m ρ c (Proc.devRef .tc main_arg8) = W3 m ρ c (Proc.devRef .tc main_arg8) :=
  W4_of_ne m ρ c main_arg8 (by decide)
theorem to4_arg8 (c : Dev nD) : W4 m ρ c (Proc.devRef .tc main_arg8) = m ((c : Thread nD τ).loc main_arg8) :=
  (step4_arg8 m ρ c).trans (to3_arg8 m ρ c)
theorem step5_arg8 (c : Dev nD) : W5 m ρ c (Proc.devRef .tc main_arg8) = W4 m ρ c (Proc.devRef .tc main_arg8) :=
  W5_of_ne m ρ c main_arg8 (by decide)
theorem to5_arg8 (c : Dev nD) : W5 m ρ c (Proc.devRef .tc main_arg8) = m ((c : Thread nD τ).loc main_arg8) :=
  (step5_arg8 m ρ c).trans (to4_arg8 m ρ c)
theorem step6_arg8 (c : Dev nD) : W6 m ρ c (Proc.devRef .tc main_arg8) = W5 m ρ c (Proc.devRef .tc main_arg8) := by
  show StableHlo.after hostOps3 (W5 m ρ c) (Proc.devRef .tc main_arg8) = _
  after_results
theorem to6_arg8 (c : Dev nD) : W6 m ρ c (Proc.devRef .tc main_arg8) = m ((c : Thread nD τ).loc main_arg8) :=
  (step6_arg8 m ρ c).trans (to5_arg8 m ρ c)
theorem step7_arg8 (c : Dev nD) : W7 m ρ c (Proc.devRef .tc main_arg8) = W6 m ρ c (Proc.devRef .tc main_arg8) :=
  W7_of_ne m ρ c main_arg8 (by decide)
theorem to7_arg8 (c : Dev nD) : W7 m ρ c (Proc.devRef .tc main_arg8) = m ((c : Thread nD τ).loc main_arg8) :=
  (step7_arg8 m ρ c).trans (to6_arg8 m ρ c)
theorem step8_arg8 (c : Dev nD) : W8 m ρ c (Proc.devRef .tc main_arg8) = W7 m ρ c (Proc.devRef .tc main_arg8) :=
  W8_of_ne m ρ c main_arg8 (by decide)
theorem to8_arg8 (c : Dev nD) : W8 m ρ c (Proc.devRef .tc main_arg8) = m ((c : Thread nD τ).loc main_arg8) :=
  (step8_arg8 m ρ c).trans (to7_arg8 m ρ c)

theorem to0_arg9 (c : Dev nD) : W0 m ρ c (Proc.devRef .tc main_arg9) = m ((c : Thread nD τ).loc main_arg9) := rfl
theorem step1_arg9 (c : Dev nD) : W1 m ρ c (Proc.devRef .tc main_arg9) = W0 m ρ c (Proc.devRef .tc main_arg9) := by
  show StableHlo.after hostOps0 (W0 m ρ c) (Proc.devRef .tc main_arg9) = _
  after_results
theorem to1_arg9 (c : Dev nD) : W1 m ρ c (Proc.devRef .tc main_arg9) = m ((c : Thread nD τ).loc main_arg9) :=
  (step1_arg9 m ρ c).trans (to0_arg9 m ρ c)
theorem step2_arg9 (c : Dev nD) : W2 m ρ c (Proc.devRef .tc main_arg9) = W1 m ρ c (Proc.devRef .tc main_arg9) :=
  W2_of_ne m ρ c main_arg9 (by decide)
theorem to2_arg9 (c : Dev nD) : W2 m ρ c (Proc.devRef .tc main_arg9) = m ((c : Thread nD τ).loc main_arg9) :=
  (step2_arg9 m ρ c).trans (to1_arg9 m ρ c)
theorem step3_arg9 (c : Dev nD) : W3 m ρ c (Proc.devRef .tc main_arg9) = W2 m ρ c (Proc.devRef .tc main_arg9) := by
  show StableHlo.after hostOps1 (W2 m ρ c) (Proc.devRef .tc main_arg9) = _
  after_results
theorem to3_arg9 (c : Dev nD) : W3 m ρ c (Proc.devRef .tc main_arg9) = m ((c : Thread nD τ).loc main_arg9) :=
  (step3_arg9 m ρ c).trans (to2_arg9 m ρ c)
theorem step4_arg9 (c : Dev nD) : W4 m ρ c (Proc.devRef .tc main_arg9) = W3 m ρ c (Proc.devRef .tc main_arg9) :=
  W4_of_ne m ρ c main_arg9 (by decide)
theorem to4_arg9 (c : Dev nD) : W4 m ρ c (Proc.devRef .tc main_arg9) = m ((c : Thread nD τ).loc main_arg9) :=
  (step4_arg9 m ρ c).trans (to3_arg9 m ρ c)
theorem step5_arg9 (c : Dev nD) : W5 m ρ c (Proc.devRef .tc main_arg9) = W4 m ρ c (Proc.devRef .tc main_arg9) :=
  W5_of_ne m ρ c main_arg9 (by decide)
theorem to5_arg9 (c : Dev nD) : W5 m ρ c (Proc.devRef .tc main_arg9) = m ((c : Thread nD τ).loc main_arg9) :=
  (step5_arg9 m ρ c).trans (to4_arg9 m ρ c)
theorem step6_arg9 (c : Dev nD) : W6 m ρ c (Proc.devRef .tc main_arg9) = W5 m ρ c (Proc.devRef .tc main_arg9) := by
  show StableHlo.after hostOps3 (W5 m ρ c) (Proc.devRef .tc main_arg9) = _
  after_results
theorem to6_arg9 (c : Dev nD) : W6 m ρ c (Proc.devRef .tc main_arg9) = m ((c : Thread nD τ).loc main_arg9) :=
  (step6_arg9 m ρ c).trans (to5_arg9 m ρ c)
theorem step7_arg9 (c : Dev nD) : W7 m ρ c (Proc.devRef .tc main_arg9) = W6 m ρ c (Proc.devRef .tc main_arg9) :=
  W7_of_ne m ρ c main_arg9 (by decide)
theorem to7_arg9 (c : Dev nD) : W7 m ρ c (Proc.devRef .tc main_arg9) = m ((c : Thread nD τ).loc main_arg9) :=
  (step7_arg9 m ρ c).trans (to6_arg9 m ρ c)
theorem step8_arg9 (c : Dev nD) : W8 m ρ c (Proc.devRef .tc main_arg9) = W7 m ρ c (Proc.devRef .tc main_arg9) :=
  W8_of_ne m ρ c main_arg9 (by decide)
theorem to8_arg9 (c : Dev nD) : W8 m ρ c (Proc.devRef .tc main_arg9) = m ((c : Thread nD τ).loc main_arg9) :=
  (step8_arg9 m ρ c).trans (to7_arg9 m ρ c)
theorem step9_arg9 (c : Dev nD) : W9 m ρ c (Proc.devRef .tc main_arg9) = W8 m ρ c (Proc.devRef .tc main_arg9) := by
  show StableHlo.after hostOps5 (W8 m ρ c) (Proc.devRef .tc main_arg9) = _
  after_results
theorem to9_arg9 (c : Dev nD) : W9 m ρ c (Proc.devRef .tc main_arg9) = m ((c : Thread nD τ).loc main_arg9) :=
  (step9_arg9 m ρ c).trans (to8_arg9 m ρ c)
theorem step10_arg9 (c : Dev nD) : W10 m ρ c (Proc.devRef .tc main_arg9) = W9 m ρ c (Proc.devRef .tc main_arg9) :=
  W10_of_ne m ρ c main_arg9 (by decide)
theorem to10_arg9 (c : Dev nD) : W10 m ρ c (Proc.devRef .tc main_arg9) = m ((c : Thread nD τ).loc main_arg9) :=
  (step10_arg9 m ρ c).trans (to9_arg9 m ρ c)

theorem to0_arg10 (c : Dev nD) : W0 m ρ c (Proc.devRef .tc main_arg10) = m ((c : Thread nD τ).loc main_arg10) := rfl
theorem step1_arg10 (c : Dev nD) : W1 m ρ c (Proc.devRef .tc main_arg10) = W0 m ρ c (Proc.devRef .tc main_arg10) := by
  show StableHlo.after hostOps0 (W0 m ρ c) (Proc.devRef .tc main_arg10) = _
  after_results
theorem to1_arg10 (c : Dev nD) : W1 m ρ c (Proc.devRef .tc main_arg10) = m ((c : Thread nD τ).loc main_arg10) :=
  (step1_arg10 m ρ c).trans (to0_arg10 m ρ c)
theorem step2_arg10 (c : Dev nD) : W2 m ρ c (Proc.devRef .tc main_arg10) = W1 m ρ c (Proc.devRef .tc main_arg10) :=
  W2_of_ne m ρ c main_arg10 (by decide)
theorem to2_arg10 (c : Dev nD) : W2 m ρ c (Proc.devRef .tc main_arg10) = m ((c : Thread nD τ).loc main_arg10) :=
  (step2_arg10 m ρ c).trans (to1_arg10 m ρ c)
theorem step3_arg10 (c : Dev nD) : W3 m ρ c (Proc.devRef .tc main_arg10) = W2 m ρ c (Proc.devRef .tc main_arg10) := by
  show StableHlo.after hostOps1 (W2 m ρ c) (Proc.devRef .tc main_arg10) = _
  after_results
theorem to3_arg10 (c : Dev nD) : W3 m ρ c (Proc.devRef .tc main_arg10) = m ((c : Thread nD τ).loc main_arg10) :=
  (step3_arg10 m ρ c).trans (to2_arg10 m ρ c)
theorem step4_arg10 (c : Dev nD) : W4 m ρ c (Proc.devRef .tc main_arg10) = W3 m ρ c (Proc.devRef .tc main_arg10) :=
  W4_of_ne m ρ c main_arg10 (by decide)
theorem to4_arg10 (c : Dev nD) : W4 m ρ c (Proc.devRef .tc main_arg10) = m ((c : Thread nD τ).loc main_arg10) :=
  (step4_arg10 m ρ c).trans (to3_arg10 m ρ c)
theorem step5_arg10 (c : Dev nD) : W5 m ρ c (Proc.devRef .tc main_arg10) = W4 m ρ c (Proc.devRef .tc main_arg10) :=
  W5_of_ne m ρ c main_arg10 (by decide)
theorem to5_arg10 (c : Dev nD) : W5 m ρ c (Proc.devRef .tc main_arg10) = m ((c : Thread nD τ).loc main_arg10) :=
  (step5_arg10 m ρ c).trans (to4_arg10 m ρ c)
theorem step6_arg10 (c : Dev nD) : W6 m ρ c (Proc.devRef .tc main_arg10) = W5 m ρ c (Proc.devRef .tc main_arg10) := by
  show StableHlo.after hostOps3 (W5 m ρ c) (Proc.devRef .tc main_arg10) = _
  after_results
theorem to6_arg10 (c : Dev nD) : W6 m ρ c (Proc.devRef .tc main_arg10) = m ((c : Thread nD τ).loc main_arg10) :=
  (step6_arg10 m ρ c).trans (to5_arg10 m ρ c)
theorem step7_arg10 (c : Dev nD) : W7 m ρ c (Proc.devRef .tc main_arg10) = W6 m ρ c (Proc.devRef .tc main_arg10) :=
  W7_of_ne m ρ c main_arg10 (by decide)
theorem to7_arg10 (c : Dev nD) : W7 m ρ c (Proc.devRef .tc main_arg10) = m ((c : Thread nD τ).loc main_arg10) :=
  (step7_arg10 m ρ c).trans (to6_arg10 m ρ c)
theorem step8_arg10 (c : Dev nD) : W8 m ρ c (Proc.devRef .tc main_arg10) = W7 m ρ c (Proc.devRef .tc main_arg10) :=
  W8_of_ne m ρ c main_arg10 (by decide)
theorem to8_arg10 (c : Dev nD) : W8 m ρ c (Proc.devRef .tc main_arg10) = m ((c : Thread nD τ).loc main_arg10) :=
  (step8_arg10 m ρ c).trans (to7_arg10 m ρ c)
theorem step9_arg10 (c : Dev nD) : W9 m ρ c (Proc.devRef .tc main_arg10) = W8 m ρ c (Proc.devRef .tc main_arg10) := by
  show StableHlo.after hostOps5 (W8 m ρ c) (Proc.devRef .tc main_arg10) = _
  after_results
theorem to9_arg10 (c : Dev nD) : W9 m ρ c (Proc.devRef .tc main_arg10) = m ((c : Thread nD τ).loc main_arg10) :=
  (step9_arg10 m ρ c).trans (to8_arg10 m ρ c)
theorem step10_arg10 (c : Dev nD) : W10 m ρ c (Proc.devRef .tc main_arg10) = W9 m ρ c (Proc.devRef .tc main_arg10) :=
  W10_of_ne m ρ c main_arg10 (by decide)
theorem to10_arg10 (c : Dev nD) : W10 m ρ c (Proc.devRef .tc main_arg10) = m ((c : Thread nD τ).loc main_arg10) :=
  (step10_arg10 m ρ c).trans (to9_arg10 m ρ c)

theorem to0_arg11 (c : Dev nD) : W0 m ρ c (Proc.devRef .tc main_arg11) = m ((c : Thread nD τ).loc main_arg11) := rfl
theorem step1_arg11 (c : Dev nD) : W1 m ρ c (Proc.devRef .tc main_arg11) = W0 m ρ c (Proc.devRef .tc main_arg11) := by
  show StableHlo.after hostOps0 (W0 m ρ c) (Proc.devRef .tc main_arg11) = _
  after_results
theorem to1_arg11 (c : Dev nD) : W1 m ρ c (Proc.devRef .tc main_arg11) = m ((c : Thread nD τ).loc main_arg11) :=
  (step1_arg11 m ρ c).trans (to0_arg11 m ρ c)
theorem step2_arg11 (c : Dev nD) : W2 m ρ c (Proc.devRef .tc main_arg11) = W1 m ρ c (Proc.devRef .tc main_arg11) :=
  W2_of_ne m ρ c main_arg11 (by decide)
theorem to2_arg11 (c : Dev nD) : W2 m ρ c (Proc.devRef .tc main_arg11) = m ((c : Thread nD τ).loc main_arg11) :=
  (step2_arg11 m ρ c).trans (to1_arg11 m ρ c)
theorem step3_arg11 (c : Dev nD) : W3 m ρ c (Proc.devRef .tc main_arg11) = W2 m ρ c (Proc.devRef .tc main_arg11) := by
  show StableHlo.after hostOps1 (W2 m ρ c) (Proc.devRef .tc main_arg11) = _
  after_results
theorem to3_arg11 (c : Dev nD) : W3 m ρ c (Proc.devRef .tc main_arg11) = m ((c : Thread nD τ).loc main_arg11) :=
  (step3_arg11 m ρ c).trans (to2_arg11 m ρ c)
theorem step4_arg11 (c : Dev nD) : W4 m ρ c (Proc.devRef .tc main_arg11) = W3 m ρ c (Proc.devRef .tc main_arg11) :=
  W4_of_ne m ρ c main_arg11 (by decide)
theorem to4_arg11 (c : Dev nD) : W4 m ρ c (Proc.devRef .tc main_arg11) = m ((c : Thread nD τ).loc main_arg11) :=
  (step4_arg11 m ρ c).trans (to3_arg11 m ρ c)
theorem step5_arg11 (c : Dev nD) : W5 m ρ c (Proc.devRef .tc main_arg11) = W4 m ρ c (Proc.devRef .tc main_arg11) :=
  W5_of_ne m ρ c main_arg11 (by decide)
theorem to5_arg11 (c : Dev nD) : W5 m ρ c (Proc.devRef .tc main_arg11) = m ((c : Thread nD τ).loc main_arg11) :=
  (step5_arg11 m ρ c).trans (to4_arg11 m ρ c)
theorem step6_arg11 (c : Dev nD) : W6 m ρ c (Proc.devRef .tc main_arg11) = W5 m ρ c (Proc.devRef .tc main_arg11) := by
  show StableHlo.after hostOps3 (W5 m ρ c) (Proc.devRef .tc main_arg11) = _
  after_results
theorem to6_arg11 (c : Dev nD) : W6 m ρ c (Proc.devRef .tc main_arg11) = m ((c : Thread nD τ).loc main_arg11) :=
  (step6_arg11 m ρ c).trans (to5_arg11 m ρ c)
theorem step7_arg11 (c : Dev nD) : W7 m ρ c (Proc.devRef .tc main_arg11) = W6 m ρ c (Proc.devRef .tc main_arg11) :=
  W7_of_ne m ρ c main_arg11 (by decide)
theorem to7_arg11 (c : Dev nD) : W7 m ρ c (Proc.devRef .tc main_arg11) = m ((c : Thread nD τ).loc main_arg11) :=
  (step7_arg11 m ρ c).trans (to6_arg11 m ρ c)
theorem step8_arg11 (c : Dev nD) : W8 m ρ c (Proc.devRef .tc main_arg11) = W7 m ρ c (Proc.devRef .tc main_arg11) :=
  W8_of_ne m ρ c main_arg11 (by decide)
theorem to8_arg11 (c : Dev nD) : W8 m ρ c (Proc.devRef .tc main_arg11) = m ((c : Thread nD τ).loc main_arg11) :=
  (step8_arg11 m ρ c).trans (to7_arg11 m ρ c)
theorem step9_arg11 (c : Dev nD) : W9 m ρ c (Proc.devRef .tc main_arg11) = W8 m ρ c (Proc.devRef .tc main_arg11) := by
  show StableHlo.after hostOps5 (W8 m ρ c) (Proc.devRef .tc main_arg11) = _
  after_results
theorem to9_arg11 (c : Dev nD) : W9 m ρ c (Proc.devRef .tc main_arg11) = m ((c : Thread nD τ).loc main_arg11) :=
  (step9_arg11 m ρ c).trans (to8_arg11 m ρ c)
theorem step10_arg11 (c : Dev nD) : W10 m ρ c (Proc.devRef .tc main_arg11) = W9 m ρ c (Proc.devRef .tc main_arg11) :=
  W10_of_ne m ρ c main_arg11 (by decide)
theorem to10_arg11 (c : Dev nD) : W10 m ρ c (Proc.devRef .tc main_arg11) = m ((c : Thread nD τ).loc main_arg11) :=
  (step10_arg11 m ρ c).trans (to9_arg11 m ρ c)

theorem to0_arg12 (c : Dev nD) : W0 m ρ c (Proc.devRef .tc main_arg12) = m ((c : Thread nD τ).loc main_arg12) := rfl
theorem step1_arg12 (c : Dev nD) : W1 m ρ c (Proc.devRef .tc main_arg12) = W0 m ρ c (Proc.devRef .tc main_arg12) := by
  show StableHlo.after hostOps0 (W0 m ρ c) (Proc.devRef .tc main_arg12) = _
  after_results
theorem to1_arg12 (c : Dev nD) : W1 m ρ c (Proc.devRef .tc main_arg12) = m ((c : Thread nD τ).loc main_arg12) :=
  (step1_arg12 m ρ c).trans (to0_arg12 m ρ c)
theorem step2_arg12 (c : Dev nD) : W2 m ρ c (Proc.devRef .tc main_arg12) = W1 m ρ c (Proc.devRef .tc main_arg12) :=
  W2_of_ne m ρ c main_arg12 (by decide)
theorem to2_arg12 (c : Dev nD) : W2 m ρ c (Proc.devRef .tc main_arg12) = m ((c : Thread nD τ).loc main_arg12) :=
  (step2_arg12 m ρ c).trans (to1_arg12 m ρ c)
theorem step3_arg12 (c : Dev nD) : W3 m ρ c (Proc.devRef .tc main_arg12) = W2 m ρ c (Proc.devRef .tc main_arg12) := by
  show StableHlo.after hostOps1 (W2 m ρ c) (Proc.devRef .tc main_arg12) = _
  after_results
theorem to3_arg12 (c : Dev nD) : W3 m ρ c (Proc.devRef .tc main_arg12) = m ((c : Thread nD τ).loc main_arg12) :=
  (step3_arg12 m ρ c).trans (to2_arg12 m ρ c)
theorem step4_arg12 (c : Dev nD) : W4 m ρ c (Proc.devRef .tc main_arg12) = W3 m ρ c (Proc.devRef .tc main_arg12) :=
  W4_of_ne m ρ c main_arg12 (by decide)
theorem to4_arg12 (c : Dev nD) : W4 m ρ c (Proc.devRef .tc main_arg12) = m ((c : Thread nD τ).loc main_arg12) :=
  (step4_arg12 m ρ c).trans (to3_arg12 m ρ c)
theorem step5_arg12 (c : Dev nD) : W5 m ρ c (Proc.devRef .tc main_arg12) = W4 m ρ c (Proc.devRef .tc main_arg12) :=
  W5_of_ne m ρ c main_arg12 (by decide)
theorem to5_arg12 (c : Dev nD) : W5 m ρ c (Proc.devRef .tc main_arg12) = m ((c : Thread nD τ).loc main_arg12) :=
  (step5_arg12 m ρ c).trans (to4_arg12 m ρ c)
theorem step6_arg12 (c : Dev nD) : W6 m ρ c (Proc.devRef .tc main_arg12) = W5 m ρ c (Proc.devRef .tc main_arg12) := by
  show StableHlo.after hostOps3 (W5 m ρ c) (Proc.devRef .tc main_arg12) = _
  after_results
theorem to6_arg12 (c : Dev nD) : W6 m ρ c (Proc.devRef .tc main_arg12) = m ((c : Thread nD τ).loc main_arg12) :=
  (step6_arg12 m ρ c).trans (to5_arg12 m ρ c)
theorem step7_arg12 (c : Dev nD) : W7 m ρ c (Proc.devRef .tc main_arg12) = W6 m ρ c (Proc.devRef .tc main_arg12) :=
  W7_of_ne m ρ c main_arg12 (by decide)
theorem to7_arg12 (c : Dev nD) : W7 m ρ c (Proc.devRef .tc main_arg12) = m ((c : Thread nD τ).loc main_arg12) :=
  (step7_arg12 m ρ c).trans (to6_arg12 m ρ c)
theorem step8_arg12 (c : Dev nD) : W8 m ρ c (Proc.devRef .tc main_arg12) = W7 m ρ c (Proc.devRef .tc main_arg12) :=
  W8_of_ne m ρ c main_arg12 (by decide)
theorem to8_arg12 (c : Dev nD) : W8 m ρ c (Proc.devRef .tc main_arg12) = m ((c : Thread nD τ).loc main_arg12) :=
  (step8_arg12 m ρ c).trans (to7_arg12 m ρ c)
theorem step9_arg12 (c : Dev nD) : W9 m ρ c (Proc.devRef .tc main_arg12) = W8 m ρ c (Proc.devRef .tc main_arg12) := by
  show StableHlo.after hostOps5 (W8 m ρ c) (Proc.devRef .tc main_arg12) = _
  after_results
theorem to9_arg12 (c : Dev nD) : W9 m ρ c (Proc.devRef .tc main_arg12) = m ((c : Thread nD τ).loc main_arg12) :=
  (step9_arg12 m ρ c).trans (to8_arg12 m ρ c)
theorem step10_arg12 (c : Dev nD) : W10 m ρ c (Proc.devRef .tc main_arg12) = W9 m ρ c (Proc.devRef .tc main_arg12) :=
  W10_of_ne m ρ c main_arg12 (by decide)
theorem to10_arg12 (c : Dev nD) : W10 m ρ c (Proc.devRef .tc main_arg12) = m ((c : Thread nD τ).loc main_arg12) :=
  (step10_arg12 m ρ c).trans (to9_arg12 m ρ c)

theorem to0_arg13 (c : Dev nD) : W0 m ρ c (Proc.devRef .tc main_arg13) = m ((c : Thread nD τ).loc main_arg13) := rfl
theorem step1_arg13 (c : Dev nD) : W1 m ρ c (Proc.devRef .tc main_arg13) = W0 m ρ c (Proc.devRef .tc main_arg13) := by
  show StableHlo.after hostOps0 (W0 m ρ c) (Proc.devRef .tc main_arg13) = _
  after_results
theorem to1_arg13 (c : Dev nD) : W1 m ρ c (Proc.devRef .tc main_arg13) = m ((c : Thread nD τ).loc main_arg13) :=
  (step1_arg13 m ρ c).trans (to0_arg13 m ρ c)
theorem step2_arg13 (c : Dev nD) : W2 m ρ c (Proc.devRef .tc main_arg13) = W1 m ρ c (Proc.devRef .tc main_arg13) :=
  W2_of_ne m ρ c main_arg13 (by decide)
theorem to2_arg13 (c : Dev nD) : W2 m ρ c (Proc.devRef .tc main_arg13) = m ((c : Thread nD τ).loc main_arg13) :=
  (step2_arg13 m ρ c).trans (to1_arg13 m ρ c)
theorem step3_arg13 (c : Dev nD) : W3 m ρ c (Proc.devRef .tc main_arg13) = W2 m ρ c (Proc.devRef .tc main_arg13) := by
  show StableHlo.after hostOps1 (W2 m ρ c) (Proc.devRef .tc main_arg13) = _
  after_results
theorem to3_arg13 (c : Dev nD) : W3 m ρ c (Proc.devRef .tc main_arg13) = m ((c : Thread nD τ).loc main_arg13) :=
  (step3_arg13 m ρ c).trans (to2_arg13 m ρ c)
theorem step4_arg13 (c : Dev nD) : W4 m ρ c (Proc.devRef .tc main_arg13) = W3 m ρ c (Proc.devRef .tc main_arg13) :=
  W4_of_ne m ρ c main_arg13 (by decide)
theorem to4_arg13 (c : Dev nD) : W4 m ρ c (Proc.devRef .tc main_arg13) = m ((c : Thread nD τ).loc main_arg13) :=
  (step4_arg13 m ρ c).trans (to3_arg13 m ρ c)
theorem step5_arg13 (c : Dev nD) : W5 m ρ c (Proc.devRef .tc main_arg13) = W4 m ρ c (Proc.devRef .tc main_arg13) :=
  W5_of_ne m ρ c main_arg13 (by decide)
theorem to5_arg13 (c : Dev nD) : W5 m ρ c (Proc.devRef .tc main_arg13) = m ((c : Thread nD τ).loc main_arg13) :=
  (step5_arg13 m ρ c).trans (to4_arg13 m ρ c)
theorem step6_arg13 (c : Dev nD) : W6 m ρ c (Proc.devRef .tc main_arg13) = W5 m ρ c (Proc.devRef .tc main_arg13) := by
  show StableHlo.after hostOps3 (W5 m ρ c) (Proc.devRef .tc main_arg13) = _
  after_results
theorem to6_arg13 (c : Dev nD) : W6 m ρ c (Proc.devRef .tc main_arg13) = m ((c : Thread nD τ).loc main_arg13) :=
  (step6_arg13 m ρ c).trans (to5_arg13 m ρ c)
theorem step7_arg13 (c : Dev nD) : W7 m ρ c (Proc.devRef .tc main_arg13) = W6 m ρ c (Proc.devRef .tc main_arg13) :=
  W7_of_ne m ρ c main_arg13 (by decide)
theorem to7_arg13 (c : Dev nD) : W7 m ρ c (Proc.devRef .tc main_arg13) = m ((c : Thread nD τ).loc main_arg13) :=
  (step7_arg13 m ρ c).trans (to6_arg13 m ρ c)
theorem step8_arg13 (c : Dev nD) : W8 m ρ c (Proc.devRef .tc main_arg13) = W7 m ρ c (Proc.devRef .tc main_arg13) :=
  W8_of_ne m ρ c main_arg13 (by decide)
theorem to8_arg13 (c : Dev nD) : W8 m ρ c (Proc.devRef .tc main_arg13) = m ((c : Thread nD τ).loc main_arg13) :=
  (step8_arg13 m ρ c).trans (to7_arg13 m ρ c)
theorem step9_arg13 (c : Dev nD) : W9 m ρ c (Proc.devRef .tc main_arg13) = W8 m ρ c (Proc.devRef .tc main_arg13) := by
  show StableHlo.after hostOps5 (W8 m ρ c) (Proc.devRef .tc main_arg13) = _
  after_results
theorem to9_arg13 (c : Dev nD) : W9 m ρ c (Proc.devRef .tc main_arg13) = m ((c : Thread nD τ).loc main_arg13) :=
  (step9_arg13 m ρ c).trans (to8_arg13 m ρ c)
theorem step10_arg13 (c : Dev nD) : W10 m ρ c (Proc.devRef .tc main_arg13) = W9 m ρ c (Proc.devRef .tc main_arg13) :=
  W10_of_ne m ρ c main_arg13 (by decide)
theorem to10_arg13 (c : Dev nD) : W10 m ρ c (Proc.devRef .tc main_arg13) = m ((c : Thread nD τ).loc main_arg13) :=
  (step10_arg13 m ρ c).trans (to9_arg13 m ρ c)
theorem step11_arg13 (c : Dev nD) : W11 m ρ c (Proc.devRef .tc main_arg13) = W10 m ρ c (Proc.devRef .tc main_arg13) := by
  show StableHlo.after hostOps6 (W10 m ρ c) (Proc.devRef .tc main_arg13) = _
  after_results
theorem to11_arg13 (c : Dev nD) : W11 m ρ c (Proc.devRef .tc main_arg13) = m ((c : Thread nD τ).loc main_arg13) :=
  (step11_arg13 m ρ c).trans (to10_arg13 m ρ c)
theorem step12_arg13 (c : Dev nD) : W12 m ρ c (Proc.devRef .tc main_arg13) = W11 m ρ c (Proc.devRef .tc main_arg13) :=
  W12_of_ne m ρ c main_arg13 (by decide)
theorem to12_arg13 (c : Dev nD) : W12 m ρ c (Proc.devRef .tc main_arg13) = m ((c : Thread nD τ).loc main_arg13) :=
  (step12_arg13 m ρ c).trans (to11_arg13 m ρ c)

theorem to0_arg14 (c : Dev nD) : W0 m ρ c (Proc.devRef .tc main_arg14) = m ((c : Thread nD τ).loc main_arg14) := rfl
theorem step1_arg14 (c : Dev nD) : W1 m ρ c (Proc.devRef .tc main_arg14) = W0 m ρ c (Proc.devRef .tc main_arg14) := by
  show StableHlo.after hostOps0 (W0 m ρ c) (Proc.devRef .tc main_arg14) = _
  after_results
theorem to1_arg14 (c : Dev nD) : W1 m ρ c (Proc.devRef .tc main_arg14) = m ((c : Thread nD τ).loc main_arg14) :=
  (step1_arg14 m ρ c).trans (to0_arg14 m ρ c)
theorem step2_arg14 (c : Dev nD) : W2 m ρ c (Proc.devRef .tc main_arg14) = W1 m ρ c (Proc.devRef .tc main_arg14) :=
  W2_of_ne m ρ c main_arg14 (by decide)
theorem to2_arg14 (c : Dev nD) : W2 m ρ c (Proc.devRef .tc main_arg14) = m ((c : Thread nD τ).loc main_arg14) :=
  (step2_arg14 m ρ c).trans (to1_arg14 m ρ c)
theorem step3_arg14 (c : Dev nD) : W3 m ρ c (Proc.devRef .tc main_arg14) = W2 m ρ c (Proc.devRef .tc main_arg14) := by
  show StableHlo.after hostOps1 (W2 m ρ c) (Proc.devRef .tc main_arg14) = _
  after_results
theorem to3_arg14 (c : Dev nD) : W3 m ρ c (Proc.devRef .tc main_arg14) = m ((c : Thread nD τ).loc main_arg14) :=
  (step3_arg14 m ρ c).trans (to2_arg14 m ρ c)
theorem step4_arg14 (c : Dev nD) : W4 m ρ c (Proc.devRef .tc main_arg14) = W3 m ρ c (Proc.devRef .tc main_arg14) :=
  W4_of_ne m ρ c main_arg14 (by decide)
theorem to4_arg14 (c : Dev nD) : W4 m ρ c (Proc.devRef .tc main_arg14) = m ((c : Thread nD τ).loc main_arg14) :=
  (step4_arg14 m ρ c).trans (to3_arg14 m ρ c)
theorem step5_arg14 (c : Dev nD) : W5 m ρ c (Proc.devRef .tc main_arg14) = W4 m ρ c (Proc.devRef .tc main_arg14) :=
  W5_of_ne m ρ c main_arg14 (by decide)
theorem to5_arg14 (c : Dev nD) : W5 m ρ c (Proc.devRef .tc main_arg14) = m ((c : Thread nD τ).loc main_arg14) :=
  (step5_arg14 m ρ c).trans (to4_arg14 m ρ c)
theorem step6_arg14 (c : Dev nD) : W6 m ρ c (Proc.devRef .tc main_arg14) = W5 m ρ c (Proc.devRef .tc main_arg14) := by
  show StableHlo.after hostOps3 (W5 m ρ c) (Proc.devRef .tc main_arg14) = _
  after_results
theorem to6_arg14 (c : Dev nD) : W6 m ρ c (Proc.devRef .tc main_arg14) = m ((c : Thread nD τ).loc main_arg14) :=
  (step6_arg14 m ρ c).trans (to5_arg14 m ρ c)
theorem step7_arg14 (c : Dev nD) : W7 m ρ c (Proc.devRef .tc main_arg14) = W6 m ρ c (Proc.devRef .tc main_arg14) :=
  W7_of_ne m ρ c main_arg14 (by decide)
theorem to7_arg14 (c : Dev nD) : W7 m ρ c (Proc.devRef .tc main_arg14) = m ((c : Thread nD τ).loc main_arg14) :=
  (step7_arg14 m ρ c).trans (to6_arg14 m ρ c)
theorem step8_arg14 (c : Dev nD) : W8 m ρ c (Proc.devRef .tc main_arg14) = W7 m ρ c (Proc.devRef .tc main_arg14) :=
  W8_of_ne m ρ c main_arg14 (by decide)
theorem to8_arg14 (c : Dev nD) : W8 m ρ c (Proc.devRef .tc main_arg14) = m ((c : Thread nD τ).loc main_arg14) :=
  (step8_arg14 m ρ c).trans (to7_arg14 m ρ c)
theorem step9_arg14 (c : Dev nD) : W9 m ρ c (Proc.devRef .tc main_arg14) = W8 m ρ c (Proc.devRef .tc main_arg14) := by
  show StableHlo.after hostOps5 (W8 m ρ c) (Proc.devRef .tc main_arg14) = _
  after_results
theorem to9_arg14 (c : Dev nD) : W9 m ρ c (Proc.devRef .tc main_arg14) = m ((c : Thread nD τ).loc main_arg14) :=
  (step9_arg14 m ρ c).trans (to8_arg14 m ρ c)
theorem step10_arg14 (c : Dev nD) : W10 m ρ c (Proc.devRef .tc main_arg14) = W9 m ρ c (Proc.devRef .tc main_arg14) :=
  W10_of_ne m ρ c main_arg14 (by decide)
theorem to10_arg14 (c : Dev nD) : W10 m ρ c (Proc.devRef .tc main_arg14) = m ((c : Thread nD τ).loc main_arg14) :=
  (step10_arg14 m ρ c).trans (to9_arg14 m ρ c)
theorem step11_arg14 (c : Dev nD) : W11 m ρ c (Proc.devRef .tc main_arg14) = W10 m ρ c (Proc.devRef .tc main_arg14) := by
  show StableHlo.after hostOps6 (W10 m ρ c) (Proc.devRef .tc main_arg14) = _
  after_results
theorem to11_arg14 (c : Dev nD) : W11 m ρ c (Proc.devRef .tc main_arg14) = m ((c : Thread nD τ).loc main_arg14) :=
  (step11_arg14 m ρ c).trans (to10_arg14 m ρ c)
theorem step12_arg14 (c : Dev nD) : W12 m ρ c (Proc.devRef .tc main_arg14) = W11 m ρ c (Proc.devRef .tc main_arg14) :=
  W12_of_ne m ρ c main_arg14 (by decide)
theorem to12_arg14 (c : Dev nD) : W12 m ρ c (Proc.devRef .tc main_arg14) = m ((c : Thread nD τ).loc main_arg14) :=
  (step12_arg14 m ρ c).trans (to11_arg14 m ρ c)
theorem step13_arg14 (c : Dev nD) : W13 m ρ c (Proc.devRef .tc main_arg14) = W12 m ρ c (Proc.devRef .tc main_arg14) :=
  W13_of_ne m ρ c main_arg14 (by decide)
theorem to13_arg14 (c : Dev nD) : W13 m ρ c (Proc.devRef .tc main_arg14) = m ((c : Thread nD τ).loc main_arg14) :=
  (step13_arg14 m ρ c).trans (to12_arg14 m ρ c)

theorem to0_arg15 (c : Dev nD) : W0 m ρ c (Proc.devRef .tc main_arg15) = m ((c : Thread nD τ).loc main_arg15) := rfl
theorem step1_arg15 (c : Dev nD) : W1 m ρ c (Proc.devRef .tc main_arg15) = W0 m ρ c (Proc.devRef .tc main_arg15) := by
  show StableHlo.after hostOps0 (W0 m ρ c) (Proc.devRef .tc main_arg15) = _
  after_results
theorem to1_arg15 (c : Dev nD) : W1 m ρ c (Proc.devRef .tc main_arg15) = m ((c : Thread nD τ).loc main_arg15) :=
  (step1_arg15 m ρ c).trans (to0_arg15 m ρ c)
theorem step2_arg15 (c : Dev nD) : W2 m ρ c (Proc.devRef .tc main_arg15) = W1 m ρ c (Proc.devRef .tc main_arg15) :=
  W2_of_ne m ρ c main_arg15 (by decide)
theorem to2_arg15 (c : Dev nD) : W2 m ρ c (Proc.devRef .tc main_arg15) = m ((c : Thread nD τ).loc main_arg15) :=
  (step2_arg15 m ρ c).trans (to1_arg15 m ρ c)
theorem step3_arg15 (c : Dev nD) : W3 m ρ c (Proc.devRef .tc main_arg15) = W2 m ρ c (Proc.devRef .tc main_arg15) := by
  show StableHlo.after hostOps1 (W2 m ρ c) (Proc.devRef .tc main_arg15) = _
  after_results
theorem to3_arg15 (c : Dev nD) : W3 m ρ c (Proc.devRef .tc main_arg15) = m ((c : Thread nD τ).loc main_arg15) :=
  (step3_arg15 m ρ c).trans (to2_arg15 m ρ c)
theorem step4_arg15 (c : Dev nD) : W4 m ρ c (Proc.devRef .tc main_arg15) = W3 m ρ c (Proc.devRef .tc main_arg15) :=
  W4_of_ne m ρ c main_arg15 (by decide)
theorem to4_arg15 (c : Dev nD) : W4 m ρ c (Proc.devRef .tc main_arg15) = m ((c : Thread nD τ).loc main_arg15) :=
  (step4_arg15 m ρ c).trans (to3_arg15 m ρ c)
theorem step5_arg15 (c : Dev nD) : W5 m ρ c (Proc.devRef .tc main_arg15) = W4 m ρ c (Proc.devRef .tc main_arg15) :=
  W5_of_ne m ρ c main_arg15 (by decide)
theorem to5_arg15 (c : Dev nD) : W5 m ρ c (Proc.devRef .tc main_arg15) = m ((c : Thread nD τ).loc main_arg15) :=
  (step5_arg15 m ρ c).trans (to4_arg15 m ρ c)
theorem step6_arg15 (c : Dev nD) : W6 m ρ c (Proc.devRef .tc main_arg15) = W5 m ρ c (Proc.devRef .tc main_arg15) := by
  show StableHlo.after hostOps3 (W5 m ρ c) (Proc.devRef .tc main_arg15) = _
  after_results
theorem to6_arg15 (c : Dev nD) : W6 m ρ c (Proc.devRef .tc main_arg15) = m ((c : Thread nD τ).loc main_arg15) :=
  (step6_arg15 m ρ c).trans (to5_arg15 m ρ c)
theorem step7_arg15 (c : Dev nD) : W7 m ρ c (Proc.devRef .tc main_arg15) = W6 m ρ c (Proc.devRef .tc main_arg15) :=
  W7_of_ne m ρ c main_arg15 (by decide)
theorem to7_arg15 (c : Dev nD) : W7 m ρ c (Proc.devRef .tc main_arg15) = m ((c : Thread nD τ).loc main_arg15) :=
  (step7_arg15 m ρ c).trans (to6_arg15 m ρ c)
theorem step8_arg15 (c : Dev nD) : W8 m ρ c (Proc.devRef .tc main_arg15) = W7 m ρ c (Proc.devRef .tc main_arg15) :=
  W8_of_ne m ρ c main_arg15 (by decide)
theorem to8_arg15 (c : Dev nD) : W8 m ρ c (Proc.devRef .tc main_arg15) = m ((c : Thread nD τ).loc main_arg15) :=
  (step8_arg15 m ρ c).trans (to7_arg15 m ρ c)
theorem step9_arg15 (c : Dev nD) : W9 m ρ c (Proc.devRef .tc main_arg15) = W8 m ρ c (Proc.devRef .tc main_arg15) := by
  show StableHlo.after hostOps5 (W8 m ρ c) (Proc.devRef .tc main_arg15) = _
  after_results
theorem to9_arg15 (c : Dev nD) : W9 m ρ c (Proc.devRef .tc main_arg15) = m ((c : Thread nD τ).loc main_arg15) :=
  (step9_arg15 m ρ c).trans (to8_arg15 m ρ c)
theorem step10_arg15 (c : Dev nD) : W10 m ρ c (Proc.devRef .tc main_arg15) = W9 m ρ c (Proc.devRef .tc main_arg15) :=
  W10_of_ne m ρ c main_arg15 (by decide)
theorem to10_arg15 (c : Dev nD) : W10 m ρ c (Proc.devRef .tc main_arg15) = m ((c : Thread nD τ).loc main_arg15) :=
  (step10_arg15 m ρ c).trans (to9_arg15 m ρ c)
theorem step11_arg15 (c : Dev nD) : W11 m ρ c (Proc.devRef .tc main_arg15) = W10 m ρ c (Proc.devRef .tc main_arg15) := by
  show StableHlo.after hostOps6 (W10 m ρ c) (Proc.devRef .tc main_arg15) = _
  after_results
theorem to11_arg15 (c : Dev nD) : W11 m ρ c (Proc.devRef .tc main_arg15) = m ((c : Thread nD τ).loc main_arg15) :=
  (step11_arg15 m ρ c).trans (to10_arg15 m ρ c)
theorem step12_arg15 (c : Dev nD) : W12 m ρ c (Proc.devRef .tc main_arg15) = W11 m ρ c (Proc.devRef .tc main_arg15) :=
  W12_of_ne m ρ c main_arg15 (by decide)
theorem to12_arg15 (c : Dev nD) : W12 m ρ c (Proc.devRef .tc main_arg15) = m ((c : Thread nD τ).loc main_arg15) :=
  (step12_arg15 m ρ c).trans (to11_arg15 m ρ c)
theorem step13_arg15 (c : Dev nD) : W13 m ρ c (Proc.devRef .tc main_arg15) = W12 m ρ c (Proc.devRef .tc main_arg15) :=
  W13_of_ne m ρ c main_arg15 (by decide)
theorem to13_arg15 (c : Dev nD) : W13 m ρ c (Proc.devRef .tc main_arg15) = m ((c : Thread nD τ).loc main_arg15) :=
  (step13_arg15 m ρ c).trans (to12_arg15 m ρ c)
theorem step14_arg15 (c : Dev nD) : W14 m ρ c (Proc.devRef .tc main_arg15) = W13 m ρ c (Proc.devRef .tc main_arg15) := by
  show StableHlo.after hostOps8 (W13 m ρ c) (Proc.devRef .tc main_arg15) = _
  after_results
theorem to14_arg15 (c : Dev nD) : W14 m ρ c (Proc.devRef .tc main_arg15) = m ((c : Thread nD τ).loc main_arg15) :=
  (step14_arg15 m ρ c).trans (to13_arg15 m ρ c)
theorem step15_arg15 (c : Dev nD) : W15 m ρ c (Proc.devRef .tc main_arg15) = W14 m ρ c (Proc.devRef .tc main_arg15) :=
  W15_of_ne m ρ c main_arg15 (by decide)
theorem to15_arg15 (c : Dev nD) : W15 m ρ c (Proc.devRef .tc main_arg15) = m ((c : Thread nD τ).loc main_arg15) :=
  (step15_arg15 m ρ c).trans (to14_arg15 m ρ c)

theorem to0_arg16 (c : Dev nD) : W0 m ρ c (Proc.devRef .tc main_arg16) = m ((c : Thread nD τ).loc main_arg16) := rfl
theorem step1_arg16 (c : Dev nD) : W1 m ρ c (Proc.devRef .tc main_arg16) = W0 m ρ c (Proc.devRef .tc main_arg16) := by
  show StableHlo.after hostOps0 (W0 m ρ c) (Proc.devRef .tc main_arg16) = _
  after_results
theorem to1_arg16 (c : Dev nD) : W1 m ρ c (Proc.devRef .tc main_arg16) = m ((c : Thread nD τ).loc main_arg16) :=
  (step1_arg16 m ρ c).trans (to0_arg16 m ρ c)
theorem step2_arg16 (c : Dev nD) : W2 m ρ c (Proc.devRef .tc main_arg16) = W1 m ρ c (Proc.devRef .tc main_arg16) :=
  W2_of_ne m ρ c main_arg16 (by decide)
theorem to2_arg16 (c : Dev nD) : W2 m ρ c (Proc.devRef .tc main_arg16) = m ((c : Thread nD τ).loc main_arg16) :=
  (step2_arg16 m ρ c).trans (to1_arg16 m ρ c)
theorem step3_arg16 (c : Dev nD) : W3 m ρ c (Proc.devRef .tc main_arg16) = W2 m ρ c (Proc.devRef .tc main_arg16) := by
  show StableHlo.after hostOps1 (W2 m ρ c) (Proc.devRef .tc main_arg16) = _
  after_results
theorem to3_arg16 (c : Dev nD) : W3 m ρ c (Proc.devRef .tc main_arg16) = m ((c : Thread nD τ).loc main_arg16) :=
  (step3_arg16 m ρ c).trans (to2_arg16 m ρ c)
theorem step4_arg16 (c : Dev nD) : W4 m ρ c (Proc.devRef .tc main_arg16) = W3 m ρ c (Proc.devRef .tc main_arg16) :=
  W4_of_ne m ρ c main_arg16 (by decide)
theorem to4_arg16 (c : Dev nD) : W4 m ρ c (Proc.devRef .tc main_arg16) = m ((c : Thread nD τ).loc main_arg16) :=
  (step4_arg16 m ρ c).trans (to3_arg16 m ρ c)
theorem step5_arg16 (c : Dev nD) : W5 m ρ c (Proc.devRef .tc main_arg16) = W4 m ρ c (Proc.devRef .tc main_arg16) :=
  W5_of_ne m ρ c main_arg16 (by decide)
theorem to5_arg16 (c : Dev nD) : W5 m ρ c (Proc.devRef .tc main_arg16) = m ((c : Thread nD τ).loc main_arg16) :=
  (step5_arg16 m ρ c).trans (to4_arg16 m ρ c)
theorem step6_arg16 (c : Dev nD) : W6 m ρ c (Proc.devRef .tc main_arg16) = W5 m ρ c (Proc.devRef .tc main_arg16) := by
  show StableHlo.after hostOps3 (W5 m ρ c) (Proc.devRef .tc main_arg16) = _
  after_results
theorem to6_arg16 (c : Dev nD) : W6 m ρ c (Proc.devRef .tc main_arg16) = m ((c : Thread nD τ).loc main_arg16) :=
  (step6_arg16 m ρ c).trans (to5_arg16 m ρ c)
theorem step7_arg16 (c : Dev nD) : W7 m ρ c (Proc.devRef .tc main_arg16) = W6 m ρ c (Proc.devRef .tc main_arg16) :=
  W7_of_ne m ρ c main_arg16 (by decide)
theorem to7_arg16 (c : Dev nD) : W7 m ρ c (Proc.devRef .tc main_arg16) = m ((c : Thread nD τ).loc main_arg16) :=
  (step7_arg16 m ρ c).trans (to6_arg16 m ρ c)
theorem step8_arg16 (c : Dev nD) : W8 m ρ c (Proc.devRef .tc main_arg16) = W7 m ρ c (Proc.devRef .tc main_arg16) :=
  W8_of_ne m ρ c main_arg16 (by decide)
theorem to8_arg16 (c : Dev nD) : W8 m ρ c (Proc.devRef .tc main_arg16) = m ((c : Thread nD τ).loc main_arg16) :=
  (step8_arg16 m ρ c).trans (to7_arg16 m ρ c)
theorem step9_arg16 (c : Dev nD) : W9 m ρ c (Proc.devRef .tc main_arg16) = W8 m ρ c (Proc.devRef .tc main_arg16) := by
  show StableHlo.after hostOps5 (W8 m ρ c) (Proc.devRef .tc main_arg16) = _
  after_results
theorem to9_arg16 (c : Dev nD) : W9 m ρ c (Proc.devRef .tc main_arg16) = m ((c : Thread nD τ).loc main_arg16) :=
  (step9_arg16 m ρ c).trans (to8_arg16 m ρ c)
theorem step10_arg16 (c : Dev nD) : W10 m ρ c (Proc.devRef .tc main_arg16) = W9 m ρ c (Proc.devRef .tc main_arg16) :=
  W10_of_ne m ρ c main_arg16 (by decide)
theorem to10_arg16 (c : Dev nD) : W10 m ρ c (Proc.devRef .tc main_arg16) = m ((c : Thread nD τ).loc main_arg16) :=
  (step10_arg16 m ρ c).trans (to9_arg16 m ρ c)
theorem step11_arg16 (c : Dev nD) : W11 m ρ c (Proc.devRef .tc main_arg16) = W10 m ρ c (Proc.devRef .tc main_arg16) := by
  show StableHlo.after hostOps6 (W10 m ρ c) (Proc.devRef .tc main_arg16) = _
  after_results
theorem to11_arg16 (c : Dev nD) : W11 m ρ c (Proc.devRef .tc main_arg16) = m ((c : Thread nD τ).loc main_arg16) :=
  (step11_arg16 m ρ c).trans (to10_arg16 m ρ c)
theorem step12_arg16 (c : Dev nD) : W12 m ρ c (Proc.devRef .tc main_arg16) = W11 m ρ c (Proc.devRef .tc main_arg16) :=
  W12_of_ne m ρ c main_arg16 (by decide)
theorem to12_arg16 (c : Dev nD) : W12 m ρ c (Proc.devRef .tc main_arg16) = m ((c : Thread nD τ).loc main_arg16) :=
  (step12_arg16 m ρ c).trans (to11_arg16 m ρ c)
theorem step13_arg16 (c : Dev nD) : W13 m ρ c (Proc.devRef .tc main_arg16) = W12 m ρ c (Proc.devRef .tc main_arg16) :=
  W13_of_ne m ρ c main_arg16 (by decide)
theorem to13_arg16 (c : Dev nD) : W13 m ρ c (Proc.devRef .tc main_arg16) = m ((c : Thread nD τ).loc main_arg16) :=
  (step13_arg16 m ρ c).trans (to12_arg16 m ρ c)
theorem step14_arg16 (c : Dev nD) : W14 m ρ c (Proc.devRef .tc main_arg16) = W13 m ρ c (Proc.devRef .tc main_arg16) := by
  show StableHlo.after hostOps8 (W13 m ρ c) (Proc.devRef .tc main_arg16) = _
  after_results
theorem to14_arg16 (c : Dev nD) : W14 m ρ c (Proc.devRef .tc main_arg16) = m ((c : Thread nD τ).loc main_arg16) :=
  (step14_arg16 m ρ c).trans (to13_arg16 m ρ c)
theorem step15_arg16 (c : Dev nD) : W15 m ρ c (Proc.devRef .tc main_arg16) = W14 m ρ c (Proc.devRef .tc main_arg16) :=
  W15_of_ne m ρ c main_arg16 (by decide)
theorem to15_arg16 (c : Dev nD) : W15 m ρ c (Proc.devRef .tc main_arg16) = m ((c : Thread nD τ).loc main_arg16) :=
  (step15_arg16 m ρ c).trans (to14_arg16 m ρ c)
theorem step16_arg16 (c : Dev nD) : W16 m ρ c (Proc.devRef .tc main_arg16) = W15 m ρ c (Proc.devRef .tc main_arg16) :=
  W16_of_ne m ρ c main_arg16 (by decide)
theorem to16_arg16 (c : Dev nD) : W16 m ρ c (Proc.devRef .tc main_arg16) = m ((c : Thread nD τ).loc main_arg16) :=
  (step16_arg16 m ρ c).trans (to15_arg16 m ρ c)

theorem step3_v27 (c : Dev nD) : W3 m ρ c (Proc.devRef .tc main_v27) = W2 m ρ c (Proc.devRef .tc main_v27) := by
  show StableHlo.after hostOps1 (W2 m ρ c) (Proc.devRef .tc main_v27) = _
  after_results
theorem to3_v27 (c : Dev nD) : W3 m ρ c (Proc.devRef .tc main_v27) = W2 m ρ c (Proc.devRef .tc main_v27) :=
  step3_v27 m ρ c

theorem step6_v44 (c : Dev nD) : W6 m ρ c (Proc.devRef .tc main_v44) = W5 m ρ c (Proc.devRef .tc main_v44) := by
  show StableHlo.after hostOps3 (W5 m ρ c) (Proc.devRef .tc main_v44) = _
  after_results
theorem to6_v44 (c : Dev nD) : W6 m ρ c (Proc.devRef .tc main_v44) = W5 m ρ c (Proc.devRef .tc main_v44) :=
  step6_v44 m ρ c

theorem step9_v61 (c : Dev nD) : W9 m ρ c (Proc.devRef .tc main_v61) = W8 m ρ c (Proc.devRef .tc main_v61) := by
  show StableHlo.after hostOps5 (W8 m ρ c) (Proc.devRef .tc main_v61) = _
  after_results
theorem to9_v61 (c : Dev nD) : W9 m ρ c (Proc.devRef .tc main_v61) = W8 m ρ c (Proc.devRef .tc main_v61) :=
  step9_v61 m ρ c

theorem step14_v100 (c : Dev nD) : W14 m ρ c (Proc.devRef .tc main_v100) = W13 m ρ c (Proc.devRef .tc main_v100) := by
  show StableHlo.after hostOps8 (W13 m ρ c) (Proc.devRef .tc main_v100) = _
  after_results
theorem to14_v100 (c : Dev nD) : W14 m ρ c (Proc.devRef .tc main_v100) = W13 m ρ c (Proc.devRef .tc main_v100) :=
  step14_v100 m ρ c

theorem step17_v117 (c : Dev nD) : W17 m ρ c (Proc.devRef .tc main_v117) = W16 m ρ c (Proc.devRef .tc main_v117) := by
  show StableHlo.after hostOps10 (W16 m ρ c) (Proc.devRef .tc main_v117) = _
  after_results
theorem to17_v117 (c : Dev nD) : W17 m ρ c (Proc.devRef .tc main_v117) = W16 m ρ c (Proc.devRef .tc main_v117) :=
  step17_v117 m ρ c

theorem step12_v93 (c : Dev nD) : W12 m ρ c (Proc.devRef .tc main_v93) = W11 m ρ c (Proc.devRef .tc main_v93) :=
  W12_of_ne m ρ c main_v93 (by decide)
theorem to12_v93 (c : Dev nD) : W12 m ρ c (Proc.devRef .tc main_v93) = W11 m ρ c (Proc.devRef .tc main_v93) :=
  step12_v93 m ρ c
theorem step13_v93 (c : Dev nD) : W13 m ρ c (Proc.devRef .tc main_v93) = W12 m ρ c (Proc.devRef .tc main_v93) :=
  W13_of_ne m ρ c main_v93 (by decide)
theorem to13_v93 (c : Dev nD) : W13 m ρ c (Proc.devRef .tc main_v93) = W11 m ρ c (Proc.devRef .tc main_v93) :=
  (step13_v93 m ρ c).trans (to12_v93 m ρ c)
theorem step14_v93 (c : Dev nD) : W14 m ρ c (Proc.devRef .tc main_v93) = W13 m ρ c (Proc.devRef .tc main_v93) := by
  show StableHlo.after hostOps8 (W13 m ρ c) (Proc.devRef .tc main_v93) = _
  after_results
theorem to14_v93 (c : Dev nD) : W14 m ρ c (Proc.devRef .tc main_v93) = W11 m ρ c (Proc.devRef .tc main_v93) :=
  (step14_v93 m ρ c).trans (to13_v93 m ρ c)
theorem step15_v93 (c : Dev nD) : W15 m ρ c (Proc.devRef .tc main_v93) = W14 m ρ c (Proc.devRef .tc main_v93) :=
  W15_of_ne m ρ c main_v93 (by decide)
theorem to15_v93 (c : Dev nD) : W15 m ρ c (Proc.devRef .tc main_v93) = W11 m ρ c (Proc.devRef .tc main_v93) :=
  (step15_v93 m ρ c).trans (to14_v93 m ρ c)
theorem step16_v93 (c : Dev nD) : W16 m ρ c (Proc.devRef .tc main_v93) = W15 m ρ c (Proc.devRef .tc main_v93) :=
  W16_of_ne m ρ c main_v93 (by decide)
theorem to16_v93 (c : Dev nD) : W16 m ρ c (Proc.devRef .tc main_v93) = W11 m ρ c (Proc.devRef .tc main_v93) :=
  (step16_v93 m ρ c).trans (to15_v93 m ρ c)
theorem step17_v93 (c : Dev nD) : W17 m ρ c (Proc.devRef .tc main_v93) = W16 m ρ c (Proc.devRef .tc main_v93) := by
  show StableHlo.after hostOps10 (W16 m ρ c) (Proc.devRef .tc main_v93) = _
  after_results
theorem to17_v93 (c : Dev nD) : W17 m ρ c (Proc.devRef .tc main_v93) = W11 m ρ c (Proc.devRef .tc main_v93) :=
  (step17_v93 m ρ c).trans (to16_v93 m ρ c)
theorem step18_v93 (c : Dev nD) : W18 m ρ c (Proc.devRef .tc main_v93) = W17 m ρ c (Proc.devRef .tc main_v93) :=
  W18_of_ne m ρ c main_v93 (by decide)
theorem to18_v93 (c : Dev nD) : W18 m ρ c (Proc.devRef .tc main_v93) = W11 m ρ c (Proc.devRef .tc main_v93) :=
  (step18_v93 m ρ c).trans (to17_v93 m ρ c)

end Cert.Carry

end
-- ==== Proof.Spec.lean ====
/-
  The graph autoencoder as ONE composition of functions of the argument arrays.

  Every graph convolution is  out = A(X·W) + (X·W)·s + b  with A the edge aggregation
  (gather the rows at the edges' sources, scale each edge by its coefficient, add up at the edges'
  targets), s the squared inverse root degree of a node and b the bias.  The two programs compute the
  edge side (degrees, coefficients, aggregation, mean pool, latent projection) with the same host
  operations; these are carried here as whole-array functions that are never opened.  What differs
  between the programs — the product X·W, the combine  A + (X·W)·s + b  (with or without the clamp at
  zero) and the broadcast of the latent table back to the nodes — is stated index by index.
-/
import proofs.«428352_j83459804495950_3_alg».proof.KernelIdeal
import Idealize.ShloMosaic.PureOps.Ideal
import Idealize.ShloMosaic.Lib.ValueIdx

noncomputable section

namespace Cert.Spec

open Idealize.ShloMosaic Idealize.ShloMosaic.ValueIdx Cert.KernelIdeal
open scoped BigOperators

variable {F : FTy → Type} [FloatOps F] [Cert.KernelIdeal.Facts₀]
open Cert.KernelIdeal.Facts₀

/-! ## The edge side: whole-array host operations, shared by the two programs -/

/-- Row 0 of the edge list: the sources. -/
def srcOf (e : IVec S2x1600000 32) : IVec S1600000 32 :=
  shapeCast S1600000 (extractStridedSlice S1x1600000 ![0, 0] e slices_S2x1600000_S1x1600000_0_0) shapeCasts_S1x1600000_S1600000

/-- Row 1 of the edge list: the targets. -/
def dstOf (e : IVec S2x1600000 32) : IVec S1600000 32 :=
  shapeCast S1600000 (extractStridedSlice S1x1600000 ![1, 0] e slices_S2x1600000_S1x1600000_1_0) shapeCasts_S1x1600000_S1600000

/-- A node index as jnp reads it: a negative one counts from the end; laid out as a column of start indices. -/
def wrapIdx (i : IVec S1600000 32) : IVec S1600000x1 32 :=
  broadcastInDim S1600000x1 ![0] bcast_S1600000_S1600000x1_0
    (select (cmpi .slt i (broadcastInDim S1600000 ![] bcast_S_S1600000 (constantI S_ 32 0#32)))
      (addi i (broadcastInDim S1600000 ![] bcast_S_S1600000 (constantI S_ 32 100000#32))) i)

/-- The inverse root of the in-degree plus one. -/
def dinvOf (dst : IVec S1600000 32) : FVec F S100000 .f32 :=
  Host.rsqrt (addf
    (Host.scatterAdd scatter_S100000_S1600000x1_S1600000_n_0_0_1
      (broadcastInDim S100000 ![] bcast_S_S100000 (constant S_ .f32 0x00000000#32))
      (broadcastInDim S1600000x1 ![0] bcast_S1600000_S1600000x1_0 dst)
      (broadcastInDim S1600000 ![] bcast_S_S1600000 (constant S_ .f32 0x3F800000#32)))
    (broadcastInDim S100000 ![] bcast_S_S100000 (constant S_ .f32 0x3F800000#32)))

/-- The weight of a node's own row: the inverse root degree squared. -/
def selfOf (dinv : FVec F S100000 .f32) : FVec F S100000 .f32 := mulf dinv dinv

/-- The coefficient of an edge: the inverse root degrees of its two ends multiplied. -/
def coefOf (src dst : IVec S1600000 32) (dinv : FVec F S100000 .f32) : FVec F S1600000 .f32 :=
  mulf (Host.gather gather_S100000_S1600000x1_S1600000_n_0_n_n_0_1_1 dinv (wrapIdx src))
    (Host.gather gather_S100000_S1600000x1_S1600000_n_0_n_n_0_1_1 dinv (wrapIdx dst))

/-- The edge aggregation of 64-wide rows: rows gathered at the sources, scaled by the coefficients, summed at the targets. -/
def agg64 (src dst : IVec S1600000 32) (coef : FVec F S1600000 .f32) (xw : FVec F S100000x64 .f32) : FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (mulf (Host.gather gather_S100000x64_S1600000x1_S1600000x64_1_0_n_n_0_1_164 xw (wrapIdx src))
      (broadcastInDim S1600000x64 ![0, 1] bcast_S1600000x1_S1600000x64_0_1
        (broadcastInDim S1600000x1 ![0] bcast_S1600000_S1600000x1_0 coef)))

/-- The same of 32-wide rows. -/
def agg32 (src dst : IVec S1600000 32) (coef : FVec F S1600000 .f32) (xw : FVec F S100000x32 .f32) : FVec F S100000x32 .f32 :=
  Host.scatterAdd scatter_S100000x32_S1600000x1_S1600000x32_1_0_0_1
    (broadcastInDim S100000x32 ![] bcast_S_S100000x32 (constant S_ .f32 0x00000000#32))
    (broadcastInDim S1600000x1 ![0] bcast_S1600000_S1600000x1_0 dst)
    (mulf (Host.gather gather_S100000x32_S1600000x1_S1600000x32_1_0_n_n_0_1_132 xw (wrapIdx src))
      (broadcastInDim S1600000x32 ![0, 1] bcast_S1600000x1_S1600000x32_0_1
        (broadcastInDim S1600000x1 ![0] bcast_S1600000_S1600000x1_0 coef)))

/-- The mean pool over the graphs: the rows summed per graph id, divided by the count of the graph's nodes (at least one). -/
def poolOf (batch : IVec S100000 32) (h : FVec F S100000x64 .f32) : FVec F S64x64 .f32 :=
  Host.divf
    (Host.scatterAdd scatter_S64x64_S100000x1_S100000x64_1_0_0_1
      (broadcastInDim S64x64 ![] bcast_S_S64x64 (constant S_ .f32 0x00000000#32))
      (broadcastInDim S100000x1 ![0] bcast_S100000_S100000x1_0 batch) h)
    (broadcastInDim S64x64 ![0, 1] bcast_S64x1_S64x64_0_1
      (broadcastInDim S64x1 ![0] bcast_S64_S64x1_0
        (maximumf
          (Host.scatterAdd scatter_S64_S100000x1_S100000_n_0_0_1
            (broadcastInDim S64 ![] bcast_S_S64 (constant S_ .f32 0x00000000#32))
            (broadcastInDim S100000x1 ![0] bcast_S100000_S100000x1_0 batch)
            (broadcastInDim S100000 ![] bcast_S_S100000 (constant S_ .f32 0x3F800000#32)))
          (broadcastInDim S64 ![] bcast_S_S64 (constant S_ .f32 0x3F800000#32)))))

/-- The latent code of every graph: the pooled rows projected, plus the bias. -/
def latentOf (g : FVec F S64x64 .f32) (wp : FVec F S64x16 .f32) (bp : FVec F S16 .f32) : FVec F S64x16 .f32 :=
  addf (Host.dotGeneral dot_S64x64_S64x16_S64x16_1_0_0_1_n_n none g wp)
    (broadcastInDim S64x16 ![0, 1] bcast_S1x16_S64x16_0_1 (broadcastInDim S1x16 ![1] bcast_S16_S1x16_1 bp))

/-! ## What the pallas_calls compute, index by index (extended reals) -/

/-- A float literal zero as the programs spell it. -/
abbrev zeroLit : Ideal .f32 := Ideal.ofBits .f32 0x00000000#32

/-- Rows of 32 features times a 32 × 64 weight matrix. -/
def mm32to64 (x : FVec Ideal S100000x32 .f32) (w : FVec Ideal S32x64 .f32) : FVec Ideal S100000x64 .f32 :=
  fun i => ∑ k : Fin 32, x (ix2 (n0 := 100000) (n1 := 32) (i 0) k) * w (ix2 (n0 := 32) (n1 := 64) k (i 1))

/-- Rows of 64 features times a 64 × 64 weight matrix. -/
def mm64to64 (x : FVec Ideal S100000x64 .f32) (w : FVec Ideal S64x64 .f32) : FVec Ideal S100000x64 .f32 :=
  fun i => ∑ k : Fin 64, x (ix2 (n0 := 100000) (n1 := 64) (i 0) k) * w (ix2 (n0 := 64) (n1 := 64) k (i 1))

/-- Rows of 64 features times a 64 × 32 weight matrix. -/
def mm64to32 (x : FVec Ideal S100000x64 .f32) (w : FVec Ideal S64x32 .f32) : FVec Ideal S100000x32 .f32 :=
  fun i => ∑ k : Fin 64, x (ix2 (n0 := 100000) (n1 := 64) (i 0) k) * w (ix2 (n0 := 64) (n1 := 32) k (i 1))

/-- The combine of a 64-wide convolution, clamped at zero: aggregated row + own row × own weight + bias.
    The own weights come as a column, the bias as a row. -/
def comb64 (seg xw : FVec Ideal S100000x64 .f32) (sc : FVec Ideal S100000x1 .f32) (b : FVec Ideal S1x64 .f32) :
    FVec Ideal S100000x64 .f32 :=
  fun i => FloatOps.maximumf
    (seg i + xw i * sc (ix2 (n0 := 100000) (n1 := 1) (i 0) 0) + b (ix2 (n0 := 1) (n1 := 64) 0 (i 1))) zeroLit

/-- The combine of the last, 32-wide convolution: the same without the clamp. -/
def comb32 (seg xw : FVec Ideal S100000x32 .f32) (sc : FVec Ideal S100000x1 .f32) (b : FVec Ideal S1x32 .f32) :
    FVec Ideal S100000x32 .f32 :=
  fun i => seg i + xw i * sc (ix2 (n0 := 100000) (n1 := 1) (i 0) 0) + b (ix2 (n0 := 1) (n1 := 32) 0 (i 1))

/-- One entry of a node's one-hot row over the 64 graphs: 1 at the node's graph id, 0 elsewhere. -/
def oneHot (id : BitVec 32) (g : Fin 64) : EReal := if id = BitVec.ofNat 32 g.val then 1 else 0

/-- The latent table broadcast back to the nodes as a one-hot product, clamped at zero. -/
def spread (ids : IVec S100000x1 32) (tbl : FVec Ideal S64x64 .f32) : FVec Ideal S100000x64 .f32 :=
  fun i => FloatOps.maximumf
    (∑ g : Fin 64, oneHot (ids (ix2 (n0 := 100000) (n1 := 1) (i 0) 0)) g * tbl (ix2 (n0 := 64) (n1 := 64) g (i 1))) zeroLit

/-! ## The kernel program's results as one composition -/

/-- The own weights as the column the combine reads. -/
def selfCol (dinv : FVec Ideal S100000 .f32) : FVec Ideal S100000x1 .f32 :=
  shapeCast S100000x1 (selfOf dinv) shapeCasts_S100000_S100000x1

/-- A 64-wide convolution clamped at zero, from the product already formed. -/
def conv64 (src dst : IVec S1600000 32) (dinv : FVec Ideal S100000 .f32) (xw : FVec Ideal S100000x64 .f32)
    (b : FVec Ideal S64 .f32) : FVec Ideal S100000x64 .f32 :=
  comb64 (agg64 src dst (coefOf src dst dinv) xw) xw (selfCol dinv) (shapeCast S1x64 b shapeCasts_S64_S1x64)

/-- The last, 32-wide convolution. -/
def conv32 (src dst : IVec S1600000 32) (dinv : FVec Ideal S100000 .f32) (xw : FVec Ideal S100000x32 .f32)
    (b : FVec Ideal S32 .f32) : FVec Ideal S100000x32 .f32 :=
  comb32 (agg32 src dst (coefOf src dst dinv) xw) xw (selfCol dinv) (shapeCast S1x32 b shapeCasts_S32_S1x32)

/-- The encoder: three convolutions. -/
def encode (e : IVec S2x1600000 32) (x : FVec Ideal S100000x32 .f32)
    (w0 : FVec Ideal S32x64 .f32) (b0 : FVec Ideal S64 .f32) (w1 : FVec Ideal S64x64 .f32) (b1 : FVec Ideal S64 .f32)
    (w2 : FVec Ideal S64x64 .f32) (b2 : FVec Ideal S64 .f32) : FVec Ideal S100000x64 .f32 :=
  let src := srcOf e; let dst := dstOf e; let dinv := dinvOf (F := Ideal) dst
  let h1 := conv64 src dst dinv (mm32to64 x w0) b0
  let h2 := conv64 src dst dinv (mm64to64 h1 w1) b1
  conv64 src dst dinv (mm64to64 h2 w2) b2

/-- The latent table the decoder starts from: the latent codes projected back to 64 features, plus the bias. -/
def tableOf (z : FVec Ideal S64x16 .f32) (wd : FVec Ideal S16x64 .f32) (bd : FVec Ideal S64 .f32) : FVec Ideal S64x64 .f32 :=
  addf (Host.dotGeneral dot_S64x16_S16x64_S64x64_1_0_0_1_n_n none z wd)
    (broadcastInDim S64x64 ![0, 1] bcast_S1x64_S64x64_0_1 (broadcastInDim S1x64 ![1] bcast_S64_S1x64_1 bd))

/-- The decoder: the table spread to the nodes, then two convolutions. -/
def decode (e : IVec S2x1600000 32) (batch : IVec S100000 32) (tbl : FVec Ideal S64x64 .f32)
    (w0 : FVec Ideal S64x64 .f32) (b0 : FVec Ideal S64 .f32) (w1 : FVec Ideal S64x32 .f32) (b1 : FVec Ideal S32 .f32) :
    FVec Ideal S100000x32 .f32 :=
  let src := srcOf e; let dst := dstOf e; let dinv := dinvOf (F := Ideal) dst
  let d0 := spread (shapeCast S100000x1 batch shapeCasts_S100000_S100000x1) tbl
  let d1 := conv64 src dst dinv (mm64to64 d0 w0) b0
  conv32 src dst dinv (mm64to32 d1 w1) b1

end Cert.Spec

end
-- ==== Proof.Stretches.lean ====
/-
  What each stretch of host operations of the kernel program's @main leaves in the buffers later segments read, as
  Spec's whole-array functions of the contents the stretch starts from: the operations' results composed.
-/
import proofs.«428352_j83459804495950_3_alg».proof.Proof.Gen.KernelIdeal.Frame
import proofs.«428352_j83459804495950_3_alg».proof.Proof.Spec
import Idealize.ShloMosaic.Lib.StableHlo.Run

set_option maxRecDepth 16384

noncomputable section

namespace Cert.Stretches

open Cert.KernelIdeal Cert.KernelIdeal.Gen Idealize.ShloMosaic Idealize.ShloMosaic.TcCoe Idealize.SL.Sem Idealize.ShloMosaic.StableHlo

variable (V : Valuation τ sig (Elt Ideal))

theorem src0 : StableHlo.after hostOps0 V (Proc.devRef .tc main_v1)
    = Cert.Spec.srcOf (V (Proc.devRef .tc main_arg1)) := by
  after_results_simp
  rfl
theorem dst0 : StableHlo.after hostOps0 V (Proc.devRef .tc main_v3)
    = Cert.Spec.dstOf (V (Proc.devRef .tc main_arg1)) := by
  after_results_simp
  rfl
theorem self0 : StableHlo.after hostOps0 V (Proc.devRef .tc main_v11)
    = Cert.Spec.selfOf (F := Ideal) (Cert.Spec.dinvOf (Cert.Spec.dstOf (V (Proc.devRef .tc main_arg1)))) := by
  after_results_simp
  rfl
theorem coef0 : StableHlo.after hostOps0 V (Proc.devRef .tc main_v26)
    = Cert.Spec.coefOf (F := Ideal) (Cert.Spec.srcOf (V (Proc.devRef .tc main_arg1))) (Cert.Spec.dstOf (V (Proc.devRef .tc main_arg1))) (Cert.Spec.dinvOf (Cert.Spec.dstOf (V (Proc.devRef .tc main_arg1)))) := by
  after_results_simp
  rfl

theorem agg1 : StableHlo.after hostOps1 V (Proc.devRef .tc main_v40)
    = Cert.Spec.agg64 (F := Ideal) (V (Proc.devRef .tc main_v1)) (V (Proc.devRef .tc main_v3)) (V (Proc.devRef .tc main_v26)) (V (Proc.devRef .tc main_v27)) := by
  after_results_simp
  rfl
theorem col1 : StableHlo.after hostOps1 V (Proc.devRef .tc main_v41)
    = shapeCast S100000x1 (V (Proc.devRef .tc main_v11)) shapeCasts_S100000_S100000x1 := by
  after_results_simp
  rfl
theorem row1 : StableHlo.after hostOps1 V (Proc.devRef .tc main_v42)
    = shapeCast S1x64 (V (Proc.devRef .tc main_arg4)) shapeCasts_S64_S1x64 := by
  after_results_simp
  rfl

theorem agg3 : StableHlo.after hostOps3 V (Proc.devRef .tc main_v57)
    = Cert.Spec.agg64 (F := Ideal) (V (Proc.devRef .tc main_v1)) (V (Proc.devRef .tc main_v3)) (V (Proc.devRef .tc main_v26)) (V (Proc.devRef .tc main_v44)) := by
  after_results_simp
  rfl
theorem col3 : StableHlo.after hostOps3 V (Proc.devRef .tc main_v58)
    = shapeCast S100000x1 (V (Proc.devRef .tc main_v11)) shapeCasts_S100000_S100000x1 := by
  after_results_simp
  rfl
theorem row3 : StableHlo.after hostOps3 V (Proc.devRef .tc main_v59)
    = shapeCast S1x64 (V (Proc.devRef .tc main_arg6)) shapeCasts_S64_S1x64 := by
  after_results_simp
  rfl

theorem agg5 : StableHlo.after hostOps5 V (Proc.devRef .tc main_v74)
    = Cert.Spec.agg64 (F := Ideal) (V (Proc.devRef .tc main_v1)) (V (Proc.devRef .tc main_v3)) (V (Proc.devRef .tc main_v26)) (V (Proc.devRef .tc main_v61)) := by
  after_results_simp
  rfl
theorem col5 : StableHlo.after hostOps5 V (Proc.devRef .tc main_v75)
    = shapeCast S100000x1 (V (Proc.devRef .tc main_v11)) shapeCasts_S100000_S100000x1 := by
  after_results_simp
  rfl
theorem row5 : StableHlo.after hostOps5 V (Proc.devRef .tc main_v76)
    = shapeCast S1x64 (V (Proc.devRef .tc main_arg8)) shapeCasts_S64_S1x64 := by
  after_results_simp
  rfl

theorem agg8 : StableHlo.after hostOps8 V (Proc.devRef .tc main_v113)
    = Cert.Spec.agg64 (F := Ideal) (V (Proc.devRef .tc main_v1)) (V (Proc.devRef .tc main_v3)) (V (Proc.devRef .tc main_v26)) (V (Proc.devRef .tc main_v100)) := by
  after_results_simp
  rfl
theorem col8 : StableHlo.after hostOps8 V (Proc.devRef .tc main_v114)
    = shapeCast S100000x1 (V (Proc.devRef .tc main_v11)) shapeCasts_S100000_S100000x1 := by
  after_results_simp
  rfl
theorem row8 : StableHlo.after hostOps8 V (Proc.devRef .tc main_v115)
    = shapeCast S1x64 (V (Proc.devRef .tc main_arg14)) shapeCasts_S64_S1x64 := by
  after_results_simp
  rfl

theorem agg10 : StableHlo.after hostOps10 V (Proc.devRef .tc main_v130)
    = Cert.Spec.agg32 (F := Ideal) (V (Proc.devRef .tc main_v1)) (V (Proc.devRef .tc main_v3)) (V (Proc.devRef .tc main_v26)) (V (Proc.devRef .tc main_v117)) := by
  after_results_simp
  rfl
theorem col10 : StableHlo.after hostOps10 V (Proc.devRef .tc main_v131)
    = shapeCast S100000x1 (V (Proc.devRef .tc main_v11)) shapeCasts_S100000_S100000x1 := by
  after_results_simp
  rfl
theorem row10 : StableHlo.after hostOps10 V (Proc.devRef .tc main_v132)
    = shapeCast S1x32 (V (Proc.devRef .tc main_arg16)) shapeCasts_S32_S1x32 := by
  after_results_simp
  rfl

theorem latent6 : StableHlo.after hostOps6 V (Proc.devRef .tc main_v93)
    = Cert.Spec.latentOf (F := Ideal) (Cert.Spec.poolOf (V (Proc.devRef .tc main_arg2)) (V (Proc.devRef .tc main_v77))) (V (Proc.devRef .tc main_arg9)) (V (Proc.devRef .tc main_arg10)) := by
  after_results_simp
  rfl
theorem table6 : StableHlo.after hostOps6 V (Proc.devRef .tc main_v97)
    = Cert.Spec.tableOf (Cert.Spec.latentOf (F := Ideal) (Cert.Spec.poolOf (V (Proc.devRef .tc main_arg2)) (V (Proc.devRef .tc main_v77))) (V (Proc.devRef .tc main_arg9)) (V (Proc.devRef .tc main_arg10))) (V (Proc.devRef .tc main_arg11)) (V (Proc.devRef .tc main_arg12)) := by
  after_results_simp
  rfl
theorem ids6 : StableHlo.after hostOps6 V (Proc.devRef .tc main_v98)
    = shapeCast S100000x1 (V (Proc.devRef .tc main_arg2)) shapeCasts_S100000_S100000x1 := by
  after_results_simp
  rfl

end Cert.Stretches

end
-- ==== Proof.Region0.lean ====
/-
  The matrix-product pallas_call number 0: ten grid points, each writing 10000 rows of X·W.  Every point's
  block is its rows of ONE whole-array function (Σ_k X[n, k] · W[k, c]: the casts to bf16 are the identity
  on the extended reals and the accumulator starts at zero), and the ten blocks tile the array.
-/
import proofs.«428352_j83459804495950_3_alg».proof.Proof.Gen.KernelIdeal.Frame
import proofs.«428352_j83459804495950_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Region0

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The product's operand indices: rows × contraction, contraction × columns -/

theorem lhs_axis0 (i : S10000x64.Idx) (k : dot_S10000x32_S32x64_S10000x64_1_0_0_1_n_n.contr.Idx) :
    (dot_S10000x32_S32x64_S10000x64_1_0_0_1_n_n.lhsIdx i k 0).val = (i 0).val := by
  unfold DotDims.lhsIdx
  rw [dif_neg (show ¬(0 : Fin S10000x32.rank) ∈ dot_S10000x32_S32x64_S10000x64_1_0_0_1_n_n.lhsBatch by decide), dif_pos (show (0 : Fin S10000x32.rank) ∈ dot_S10000x32_S32x64_S10000x64_1_0_0_1_n_n.lhsNonContracting by decide)]
  rfl
theorem lhs_axis1 (i : S10000x64.Idx) (k : dot_S10000x32_S32x64_S10000x64_1_0_0_1_n_n.contr.Idx) :
    (dot_S10000x32_S32x64_S10000x64_1_0_0_1_n_n.lhsIdx i k 1).val = (k ⟨0, by decide⟩).val :=
  dot_S10000x32_S32x64_S10000x64_1_0_0_1_n_n.lhsIdx_val_of_single rfl i k
theorem rhs_axis0 (i : S10000x64.Idx) (k : dot_S10000x32_S32x64_S10000x64_1_0_0_1_n_n.contr.Idx) :
    (dot_S10000x32_S32x64_S10000x64_1_0_0_1_n_n.rhsIdx i k 0).val = (k ⟨0, by decide⟩).val :=
  dot_S10000x32_S32x64_S10000x64_1_0_0_1_n_n.rhsIdx_val_of_single rfl i k
theorem rhs_axis1 (i : S10000x64.Idx) (k : dot_S10000x32_S32x64_S10000x64_1_0_0_1_n_n.contr.Idx) :
    (dot_S10000x32_S32x64_S10000x64_1_0_0_1_n_n.rhsIdx i k 1).val = (i 1).val := by
  unfold DotDims.rhsIdx
  rw [dif_neg (show ¬(1 : Fin S32x64.rank) ∈ dot_S10000x32_S32x64_S10000x64_1_0_0_1_n_n.rhsBatch by decide), dif_pos (show (1 : Fin S32x64.rank) ∈ dot_S10000x32_S32x64_S10000x64_1_0_0_1_n_n.rhsNonContracting by decide)]
  rfl

/-! ## The body at one element of its block -/

/-- Row p, column q of what the body stores: row p of the left block times column q of the weights; the two
    narrowing casts change nothing on the extended reals and the accumulator starts at zero. -/
theorem pay_apply (x0 : Vec Ideal S10000x32 .f32) (x1 : Vec Ideal S32x64 .f32) (p : Fin 10000) (q : Fin 64) :
    k0_pay1 (F := Ideal) x0 x1 (ix2 p q)
      = ∑ k : Fin 32, x0 (ix2 (n0 := 10000) (n1 := 32) p k) * x1 (ix2 (n0 := 32) (n1 := 64) k q) := by
  unfold k0_pay1
  simp only [matmul]
  rw [Ideal.matmul_constant_zero_apply, ← Equiv.sum_comp (contrEquiv1 dot_S10000x32_S32x64_S10000x64_1_0_0_1_n_n 32 rfl rfl).symm]
  refine Finset.sum_congr rfl fun k _ => ?_
  have hk := contrEquiv1_symm_val dot_S10000x32_S32x64_S10000x64_1_0_0_1_n_n 32 rfl rfl k
  have el : dot_S10000x32_S32x64_S10000x64_1_0_0_1_n_n.lhsIdx (ix2 p q) ((contrEquiv1 dot_S10000x32_S32x64_S10000x64_1_0_0_1_n_n 32 rfl rfl).symm k) = ix2 (n0 := 10000) (n1 := 32) p k := funext fun a => Fin.ext (by
    match a with
    | ⟨0, _⟩ => exact lhs_axis0 _ _
    | ⟨1, _⟩ => exact (lhs_axis1 _ _).trans hk)
  have er : dot_S10000x32_S32x64_S10000x64_1_0_0_1_n_n.rhsIdx (ix2 p q) ((contrEquiv1 dot_S10000x32_S32x64_S10000x64_1_0_0_1_n_n 32 rfl rfl).symm k) = ix2 (n0 := 32) (n1 := 64) k q := funext fun a => Fin.ext (by
    match a with
    | ⟨0, _⟩ => exact (rhs_axis0 _ _).trans hk
    | ⟨1, _⟩ => exact rhs_axis1 _ _)
  rw [el, er]
  rfl

/-! ## From the ten blocks to the array -/

/-- Two zero offsets, however spelt. -/
theorem zeros2 : (![0, 0] : Fin 2 → Nat) = fun _ => 0 := funext fun a => by fin_cases a <;> rfl

/-- The windows' block indices at a grid point, decided over the ten points: the left operand's block and the
    output's are block t of the rows, the weights' is the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

-- the buffer contents the pallas_call is entered with
variable (V : (c : Dev nD) → (b : Ref sig .tc) → Buf (Elt Ideal) ((c : Thread nD τ).loc b))

/-- What grid point t writes back is its block of the product of the two arrays. -/
theorem flushed_eq (c : Dev nD) (t : Fin cfg0.N) :
    (dat0 V c).flushed 2 t
      = ((cfg0.win 2).blk t).view.read (Elt Ideal) (Cert.Spec.mm32to64 (V c main_arg0) (V c main_arg3)) := by
  show (cfg0.win 2).cut (grid0.coords t) ((dat0 V c).after 2 t) = _
  rw [after0_2]
  unfold out0_2
  rw [View.canon_unit_zero zeros2]
  simp only [View.ld_unit_zero (S := S10000x32) zeros2, View.ld_unit_zero (S := S32x64) zeros2]
  obtain ⟨e0, e1, e2, e3, e4, e5⟩ := idx_facts t
  funext j
  have hp : (j 0).val < 10000 := (j 0).isLt
  have hq : (j 1).val < 64 := (j 1).isLt
  have ej : (cfg0.win 2).xinj (grid0.coords t) j = ix2 (⟨(j 0).val, hp⟩ : Fin 10000) (⟨(j 1).val, hq⟩ : Fin 64) := by
    funext a
    match a with
    | ⟨0, _⟩ => rfl
    | ⟨1, _⟩ => rfl
  show k0_pay1 (F := Ideal) (iblk0 V c 0 t) (iblk0 V c 1 t) ((cfg0.win 2).xinj (grid0.coords t) j)
    = Cert.Spec.mm32to64 (V c main_arg0) (V c main_arg3) (((cfg0.win 2).blk t).view.emb j)
  rw [ej, pay_apply]
  unfold Cert.Spec.mm32to64
  refine Finset.sum_congr rfl fun k _ => ?_
  have h0 : ((cfg0.win 0).blk t).view.emb (ix2 (n0 := 10000) (n1 := 32) (⟨(j 0).val, hp⟩ : Fin 10000) k)
      = ix2 (n0 := 100000) (n1 := 32) ((((cfg0.win 2).blk t).view.emb j) 0) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 32 + 1 * k.val = k.val; omega
  have h1 : ((cfg0.win 1).blk t).view.emb (ix2 (n0 := 32) (n1 := 64) k (⟨(j 1).val, hq⟩ : Fin 64))
      = ix2 (n0 := 32) (n1 := 64) k ((((cfg0.win 2).blk t).view.emb j) 1) := by
    funext a; apply Fin.ext
    match a with
    | ⟨0, _⟩ => show win0_1.index t (0 : Fin 2) * 32 + 1 * k.val = k.val; omega
    | ⟨1, _⟩ => show win0_1.index t (1 : Fin 2) * 64 + 1 * (j 1).val = win0_2.index t (1 : Fin 2) * 64 + 1 * (j 1).val; omega
  have a0 : iblk0 V c 0 t (ix2 (n0 := 10000) (n1 := 32) (⟨(j 0).val, hp⟩ : Fin 10000) k)
      = V c main_arg0 (ix2 (n0 := 100000) (n1 := 32) ((((cfg0.win 2).blk t).view.emb j) 0) k) := congrArg (V c main_arg0) h0
  have a1 : iblk0 V c 1 t (ix2 (n0 := 32) (n1 := 64) k (⟨(j 1).val, hq⟩ : Fin 64))
      = V c main_arg3 (ix2 (n0 := 32) (n1 := 64) k ((((cfg0.win 2).blk t).view.emb j) 1)) := congrArg (V c main_arg3) h1
  rw [a0, a1]

/-- An index of the array is in point t's block iff each coordinate is in the block's range on its axis. -/
theorem mem_blk (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v27).slice (win0_2.rect t)).set ↔ _
  rw [View.set_slice_whole, Rect.mem_set_unit]
  exact Iff.rfl

/-- Row r of the array lies in the block of point r / 10000, and every point writes back. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hlt : (i 0).val / 10000 < cfg0.N := by show _ < grid0.N; rw [N_0]; omega
  refine ⟨⟨(i 0).val / 10000, hlt⟩, flush0_2 _, ?_⟩
  obtain ⟨-, -, -, -, e4, e5⟩ := idx_facts ⟨(i 0).val / 10000, hlt⟩
  have e4' : win0_2.index ⟨(i 0).val / 10000, hlt⟩ (0 : Fin 2) = (i 0).val / 10000 := e4
  rw [mem_blk]
  intro a
  match a with
  | ⟨0, _⟩ =>
    show win0_2.index _ (0 : Fin 2) * 10000 ≤ (i 0).val ∧ (i 0).val < win0_2.index _ (0 : Fin 2) * 10000 + 10000
    omega
  | ⟨1, _⟩ =>
    show win0_2.index _ (1 : Fin 2) * 64 ≤ (i 1).val ∧ (i 1).val < win0_2.index _ (1 : Fin 2) * 64 + 64
    omega

/-- After the call the output array holds the product of the two input arrays as the call found them. -/
theorem final (c : Dev nD) :
    (dat0 V c).arrAt 2 cfg0.N = Cert.Spec.mm32to64 (V c main_arg0) (V c main_arg3) :=
  (dat0 V c).arrAt_eq_of_cover 2 (Cert.Spec.mm32to64 (V c main_arg0) (V c main_arg3))
    (fun t _ => flushed_eq V c t) covered

end Cert.Region0

end
-- ==== Proof.Region1.lean ====
/-
  The combine pallas_call number 1: ten grid points, each writing 10000 rows of
  aggregated + product × own weight + bias, clamped at zero.  Every point's block is its rows of ONE whole-array
  function, and the ten blocks tile the array.
-/
import proofs.«428352_j83459804495950_3_alg».proof.Proof.Gen.KernelIdeal.Frame
import proofs.«428352_j83459804495950_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Region1

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

-- The buffer contents the pallas_call is entered with.
variable (V : (c : Dev nD) → (b : Ref sig .tc) → Buf (Elt Ideal) ((c : Thread nD τ).loc b))

/-! ## The body's arithmetic at one element of a block -/

/-- The zero offsets of a whole-buffer access, as the constant function. -/
theorem zero_offsets : (![0, 0] : Fin 2 → Nat) = fun _ => 0 := funext fun a => by fin_cases a <;> rfl

/-- A column `[a, 1]` broadcast along the rows to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One element of what the body stores: the aggregated entry plus the product's entry times the row's own weight
    plus the column's bias, clamped at zero. -/
theorem k1_pay1_apply (x0 x1 : Vec Ideal S10000x64 .f32) (x2 : Vec Ideal S10000x1 .f32) (x3 : Vec Ideal S1x64 .f32)
    (p : Fin 10000) (q : Fin 64) :
    k1_pay1 x0 x1 x2 x3 (ix2 p q)
      = FloatOps.maximumf (x0 (ix2 p q) + x1 (ix2 p q) * x2 (ix2 p (0 : Fin 1)) + x3 (ix2 (0 : Fin 1) q)) Cert.Spec.zeroLit := by
  unfold k1_pay1
  simp only [shapeCast_self]
  rw [maximumf_apply, addf_apply, addf_apply, mulf_apply, broadcast_apply, broadcastTo_a1_ab_apply, broadcastTo_1b_ab_apply]
  rfl

/-! ## Where a block sits in its array -/

/-- The grid has ten points. -/
theorem point_lt (t : Fin cfg1.N) : t.val < 10 := lt_of_lt_of_eq t.isLt N_1

/-- Row `p` of point `t`'s block is row `10000 t + p` of the array. -/
def rowAt (t : Fin cfg1.N) (p : Fin 10000) : Fin 100000 :=
  ⟨t.val * 10000 + p.val, by have := point_lt t; have := p.isLt; omega⟩

/-- The printed index maps, decided over the grid: the three row-blocked inputs and the output are at block row `t`,
    block column 0; the bias row is at block (0, 0) throughout. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The aggregated rows' block at point `t` is rows `10000 t …` of its array. -/
theorem iblk1_0_apply (c : Dev nD) (t : Fin cfg1.N) (p : Fin 10000) (q : Fin 64) :
    iblk1 V c 0 t (ix2 p q) = V c main_v40 (ix2 (rowAt t p) q) := by
  obtain ⟨e0, e1, -⟩ := block_indices t
  show V c main_v40 (((cfg1.win 0).blk t).view.emb (ix2 p q)) = _
  refine congrArg _ (funext fun a => Fin.ext ?_)
  match a with
  | ⟨0, _⟩ => show win1_0.index t (0 : Fin 2) * 10000 + 1 * p.val = t.val * 10000 + p.val; omega
  | ⟨1, _⟩ => show win1_0.index t (1 : Fin 2) * 64 + 1 * q.val = q.val; omega

/-- The product's block at point `t` is the same rows of its array. -/
theorem iblk1_1_apply (c : Dev nD) (t : Fin cfg1.N) (p : Fin 10000) (q : Fin 64) :
    iblk1 V c 1 t (ix2 p q) = V c main_v27 (ix2 (rowAt t p) q) := by
  obtain ⟨-, -, e0, e1, -⟩ := block_indices t
  show V c main_v27 (((cfg1.win 1).blk t).view.emb (ix2 p q)) = _
  refine congrArg _ (funext fun a => Fin.ext ?_)
  match a with
  | ⟨0, _⟩ => show win1_1.index t (0 : Fin 2) * 10000 + 1 * p.val = t.val * 10000 + p.val; omega
  | ⟨1, _⟩ => show win1_1.index t (1 : Fin 2) * 64 + 1 * q.val = q.val; omega

/-- The own weights' block at point `t` is the same rows of the column. -/
theorem iblk1_2_apply (c : Dev nD) (t : Fin cfg1.N) (p : Fin 10000) :
    iblk1 V c 2 t (ix2 p (0 : Fin 1)) = V c main_v41 (ix2 (rowAt t p) (0 : Fin 1)) := by
  obtain ⟨-, -, -, -, e0, e1, -⟩ := block_indices t
  show V c main_v41 (((cfg1.win 2).blk t).view.emb (ix2 p (0 : Fin 1))) = _
  refine congrArg _ (funext fun a => Fin.ext ?_)
  match a with
  | ⟨0, _⟩ => show win1_2.index t (0 : Fin 2) * 10000 + 1 * p.val = t.val * 10000 + p.val; omega
  | ⟨1, _⟩ => show win1_2.index t (1 : Fin 2) * 1 + 1 * 0 = 0; omega

/-- The bias row's block is the whole row at every point. -/
theorem iblk1_3_apply (c : Dev nD) (t : Fin cfg1.N) (q : Fin 64) :
    iblk1 V c 3 t (ix2 (0 : Fin 1) q) = V c main_v42 (ix2 (0 : Fin 1) q) := by
  obtain ⟨-, -, -, -, -, -, e0, e1, -⟩ := block_indices t
  show V c main_v42 (((cfg1.win 3).blk t).view.emb (ix2 (0 : Fin 1) q)) = _
  refine congrArg _ (funext fun a => Fin.ext ?_)
  match a with
  | ⟨0, _⟩ => show win1_3.index t (0 : Fin 2) * 1 + 1 * 0 = 0; omega
  | ⟨1, _⟩ => show win1_3.index t (1 : Fin 2) * 64 + 1 * q.val = q.val; omega

/-- Element `(p, q)` of the output's block at point `t` is element `(10000 t + p, q)` of the output array. -/
theorem out_blk_emb (t : Fin cfg1.N) (p : Fin 10000) (q : Fin 64) :
    ((cfg1.win 4).blk t).view.emb (ix2 p q) = ix2 (rowAt t p) q := by
  obtain ⟨-, -, -, -, -, -, -, -, e0, e1⟩ := block_indices t
  refine funext fun a => Fin.ext ?_
  match a with
  | ⟨0, _⟩ => show win1_4.index t (0 : Fin 2) * 10000 + 1 * p.val = t.val * 10000 + p.val; omega
  | ⟨1, _⟩ => show win1_4.index t (1 : Fin 2) * 64 + 1 * q.val = q.val; omega

/-! ## What a point writes back, and the whole array -/

/-- WHAT POINT `t` WRITES BACK is block `t` of the combine of the four input arrays as the call found them. -/
theorem flushed_eq (c : Dev nD) (t : Fin cfg1.N) :
    (dat1 V c).flushed 4 t = ((cfg1.win 4).blk t).view.read (Elt Ideal)
      (Cert.Spec.comb64 (V c main_v40) (V c main_v27) (V c main_v41) (V c main_v42)) := by
  show (cfg1.win 4).cut (grid1.coords t) ((dat1 V c).after 4 t) = _
  rw [after1_4]
  unfold out1_4
  rw [View.canon_unit_zero zero_offsets]
  simp only [View.ld_unit_zero (S := S10000x64) zero_offsets, View.ld_unit_zero (S := S10000x1) zero_offsets,
    View.ld_unit_zero (S := S1x64) zero_offsets]
  funext j
  obtain ⟨p, q, rfl⟩ : ∃ (p : Fin 10000) (q : Fin 64), j = ix2 p q := ⟨j 0, j 1, eq_ix2 j⟩
  show k1_pay1 (iblk1 V c 0 t) (iblk1 V c 1 t) (iblk1 V c 2 t) (iblk1 V c 3 t) (ix2 p q)
    = Cert.Spec.comb64 (V c main_v40) (V c main_v27) (V c main_v41) (V c main_v42) (((cfg1.win 4).blk t).view.emb (ix2 p q))
  rw [k1_pay1_apply, out_blk_emb, iblk1_0_apply, iblk1_1_apply, iblk1_2_apply, iblk1_3_apply]
  rfl

/-- Every row of the array is in the block of the point its ten-thousand names. -/
theorem covered (i : S100000x64.Idx) :
    ∃ t : Fin cfg1.N, (cfg1.win 4).flush t = true ∧ i ∈ ((cfg1.win 4).blk t).view.set := by
  obtain ⟨r, q, rfl⟩ : ∃ (r : Fin 100000) (q : Fin 64), i = ix2 r q := ⟨i 0, i 1, eq_ix2 i⟩
  have hr : r.val < 100000 := r.isLt
  have ht : r.val / 10000 < cfg1.N := by rw [show cfg1.N = 10 from N_1]; omega
  have hi : ((cfg1.win 4).blk ⟨r.val / 10000, ht⟩).view.emb (ix2 (⟨r.val % 10000, Nat.mod_lt _ (by decide)⟩ : Fin 10000) q)
      = ix2 r q := by
    rw [out_blk_emb]
    refine congrArg (fun r' => ix2 r' q) (Fin.ext ?_)
    show r.val / 10000 * 10000 + r.val % 10000 = r.val
    omega
  exact ⟨⟨r.val / 10000, ht⟩, flush1_4 _, hi ▸ View.emb_mem_set _ _⟩

/-- After the call the output array holds the combine of the four input arrays as the call found them. -/
theorem final (c : Dev nD) :
    (dat1 V c).arrAt 4 cfg1.N = Cert.Spec.comb64 (V c main_v40) (V c main_v27) (V c main_v41) (V c main_v42) :=
  (dat1 V c).arrAt_eq_of_cover 4 _ (fun t _ => flushed_eq V c t) covered

end Cert.Region1

end
-- ==== Proof.Region2.lean ====
/-
  The matrix-product pallas_call number 2: ten grid points, each writing 10000 rows of X·W.  Every point's
  block is its rows of ONE whole-array function (Σ_k X[n, k] · W[k, c]: the casts to bf16 are the identity
  on the extended reals and the accumulator starts at zero), and the ten blocks tile the array.
-/
import proofs.«428352_j83459804495950_3_alg».proof.Proof.Gen.KernelIdeal.Frame
import proofs.«428352_j83459804495950_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Region2

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The product at one entry of a block -/

/-- The offsets of a whole-buffer access are all zero. -/
theorem offsets_zero : (![0, 0] : Fin 2 → Nat) = fun _ => 0 := funext fun a => by fin_cases a <;> rfl

/-- The left operand is read at the output's row … -/
theorem lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- … and the summation index as its column; -/
theorem lhs_col (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- the right operand at the summation index as its row … -/
theorem rhs_row (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- … and the output's column. -/
theorem rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- What the body stores at row p, column q of its block: Σ_k x0[p, k] · x1[k, q].  The casts to bf16 change nothing
    on the extended reals, the reshape is to the same shape, and the accumulator is the zero splat. -/
theorem block_entry (x0 : Vec Ideal S10000x64 .f32) (x1 : Vec Ideal S64x64 .f32) (p : Fin 10000) (q : Fin 64) :
    k2_pay1 x0 x1 (ix2 p q) = ∑ k : Fin 64, x0 (ix2 (n0 := 10000) (n1 := 64) p k) * x1 (ix2 (n0 := 64) (n1 := 64) k q) := by
  unfold k2_pay1
  rw [shapeCast_self]
  show FloatOps.matmul dot_S10000x64_S64x64_S10000x64_1_0_0_1_n_n none
      (truncf FTy.bf16 x0 bitsLt_bf16_f32 : FVec Ideal S10000x64 .bf16) (truncf FTy.bf16 x1 bitsLt_bf16_f32 : FVec Ideal S64x64 .bf16)
      (constant S10000x64 .f32 0x00000000#32) (ix2 p q) = _
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 (n0 := 10000) (n1 := 64) p k := funext fun a => Fin.ext (by
    match a with
    | ⟨0, _⟩ => exact lhs_row _ _
    | ⟨1, _⟩ => exact (lhs_col _ _).trans hk)
  have er : dot_S10000x64_S64x64_S10000x64_1_0_0_1_n_n.rhsIdx (ix2 p q) ((contrEquiv1 dot_S10000x64_S64x64_S10000x64_1_0_0_1_n_n 64 rfl rfl).symm k) = ix2 (n0 := 64) (n1 := 64) k q := funext fun a => Fin.ext (by
    match a with
    | ⟨0, _⟩ => exact (rhs_row _ _).trans hk
    | ⟨1, _⟩ => exact rhs_col _ _)
  rw [el, er, truncf_apply, truncf_apply]

/-- So a block whose operands are rows of X (its row p the array's row n) and all of W holds, at row p and column q,
    the whole-array product at (n, q). -/
theorem block_entry_of_rows (x : FVec Ideal S100000x64 .f32) (w : FVec Ideal S64x64 .f32)
    (x0 : Vec Ideal S10000x64 .f32) (x1 : Vec Ideal S64x64 .f32) (p : Fin 10000) (q : Fin 64) (i : S100000x64.Idx)
    (hx : ∀ k : Fin 64, x0 (ix2 (n0 := 10000) (n1 := 64) p k) = x (ix2 (n0 := 100000) (n1 := 64) (i 0) k))
    (hw : ∀ k : Fin 64, x1 (ix2 (n0 := 64) (n1 := 64) k q) = w (ix2 (n0 := 64) (n1 := 64) k (i 1))) :
    k2_pay1 x0 x1 (ix2 p q) = Cert.Spec.mm64to64 x w i := by
  rw [block_entry]
  exact Finset.sum_congr rfl fun k _ => by rw [hx k, hw k]

/-! ## From the ten blocks to the whole array -/

-- The buffer contents the pallas_call is entered with.
variable (V : (c : Dev nD) → (b : Ref sig .tc) → Buf (Elt Ideal) ((c : Thread nD τ).loc b))

/-- The windows' block indices over the grid: the rows' window and the output's are at block t of the rows and
    block 0 of the columns, the weights' window at block (0, 0). -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the product of the two arrays as the call found them. -/
theorem flushed_eq (c : Dev nD) (t : Fin cfg2.N) :
    (dat2 V c).flushed 2 t = ((cfg2.win 2).blk t).view.read (Elt Ideal) (Cert.Spec.mm64to64 (V c main_v43) (V c main_arg5)) := by
  show (cfg2.win 2).cut (grid2.coords t) ((dat2 V c).after 2 t) = _
  rw [after2_2]
  unfold out2_2
  rw [View.canon_unit_zero offsets_zero]
  simp only [View.ld_unit_zero (S := S10000x64) offsets_zero, View.ld_unit_zero (S := S64x64) offsets_zero]
  obtain ⟨e0, e1, e2, e3, e4, e5⟩ := block_indices t
  funext j
  have hp : (j 0).val < 10000 := (j 0).isLt
  have hq : (j 1).val < 64 := (j 1).isLt
  have ej : (cfg2.win 2).xinj (grid2.coords t) j = ix2 (⟨(j 0).val, hp⟩ : Fin 10000) (⟨(j 1).val, hq⟩ : Fin 64) :=
    funext fun a => by match a with | ⟨0, _⟩ => rfl | ⟨1, _⟩ => rfl
  show k2_pay1 (iblk2 V c 0 t) (iblk2 V c 1 t) ((cfg2.win 2).xinj (grid2.coords t) j)
    = Cert.Spec.mm64to64 (V c main_v43) (V c main_arg5) (((cfg2.win 2).blk t).view.emb j)
  rw [ej]
  refine block_entry_of_rows _ _ _ _ _ _ _ (fun k => ?_) (fun k => ?_)
  · show V c main_v43 (((cfg2.win 0).blk t).view.emb (ix2 (⟨(j 0).val, hp⟩ : Fin 10000) k)) = _
    refine congrArg (V c main_v43) (funext fun a => Fin.ext ?_)
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 64 + 1 * k.val = k.val; omega
  · show V c main_arg5 (((cfg2.win 1).blk t).view.emb (ix2 k (⟨(j 1).val, hq⟩ : Fin 64))) = _
    refine congrArg (V c main_arg5) (funext fun a => Fin.ext ?_)
    match a with
    | ⟨0, _⟩ => show win2_1.index t (0 : Fin 2) * 64 + 1 * k.val = k.val; omega
    | ⟨1, _⟩ => show win2_1.index t (1 : Fin 2) * 64 + 1 * (j 1).val = win2_2.index t (1 : Fin 2) * 64 + 1 * (j 1).val; omega

/-- An index of the array is in point t's block iff each coordinate is in the block's range on its axis. -/
theorem mem_block (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v44).slice (win2_2.rect t)).set ↔ _
  rw [View.set_slice_whole, Rect.mem_set_unit]
  exact Iff.rfl

/-- The ten blocks tile the array: row n lies in the block of point n / 10000, and every point writes back. -/
theorem covered (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := N_2
  obtain ⟨t, ht⟩ : ∃ t : Fin cfg2.N, t.val = (i 0).val / 10000 := ⟨⟨(i 0).val / 10000, by rw [hN]; omega⟩, rfl⟩
  obtain ⟨e0, e1, e2, e3, e4, e5⟩ := block_indices t
  refine ⟨t, flush2_2 t, ?_⟩
  rw [mem_block]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- After the call the output array holds the product of the two input arrays as the call found them. -/
theorem final (c : Dev nD) :
    (dat2 V c).arrAt 2 cfg2.N = Cert.Spec.mm64to64 (V c main_v43) (V c main_arg5) := by
  exact (dat2 V c).arrAt_eq_of_cover 2 (Cert.Spec.mm64to64 (V c main_v43) (V c main_arg5)) (fun t _ => flushed_eq V c t) covered

end Cert.Region2

end
-- ==== Proof.Region3.lean ====
/-
  The combine pallas_call number 3: ten grid points, each writing 10000 rows of
  aggregated + product × own weight + bias, clamped at zero.  Every point's block is its rows of ONE whole-array
  function, and the ten blocks tile the array.
-/
import proofs.«428352_j83459804495950_3_alg».proof.Proof.Gen.KernelIdeal.Frame
import proofs.«428352_j83459804495950_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Region3

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

-- The buffer contents the pallas_call is entered with.
variable (V : (c : Dev nD) → (b : Ref sig .tc) → Buf (Elt Ideal) ((c : Thread nD τ).loc b))

/-! ## The body's arithmetic at one element of a block -/

/-- The zero offsets of a whole-buffer access, as the constant function. -/
theorem zero_offsets : (![0, 0] : Fin 2 → Nat) = fun _ => 0 := funext fun a => by fin_cases a <;> rfl

/-- A column `[a, 1]` broadcast along the rows to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One element of what the body stores: the aggregated entry plus the product's entry times the row's own weight
    plus the column's bias, clamped at zero. -/
theorem k3_pay1_apply (x0 x1 : Vec Ideal S10000x64 .f32) (x2 : Vec Ideal S10000x1 .f32) (x3 : Vec Ideal S1x64 .f32)
    (p : Fin 10000) (q : Fin 64) :
    k3_pay1 x0 x1 x2 x3 (ix2 p q)
      = FloatOps.maximumf (x0 (ix2 p q) + x1 (ix2 p q) * x2 (ix2 p (0 : Fin 1)) + x3 (ix2 (0 : Fin 1) q)) Cert.Spec.zeroLit := by
  unfold k3_pay1
  simp only [shapeCast_self]
  rw [maximumf_apply, addf_apply, addf_apply, mulf_apply, broadcast_apply, broadcastTo_a1_ab_apply, broadcastTo_1b_ab_apply]
  rfl

/-! ## Where a block sits in its array -/

/-- The grid has ten points. -/
theorem point_lt (t : Fin cfg3.N) : t.val < 10 := lt_of_lt_of_eq t.isLt N_3

/-- Row `p` of point `t`'s block is row `10000 t + p` of the array. -/
def rowAt (t : Fin cfg3.N) (p : Fin 10000) : Fin 100000 :=
  ⟨t.val * 10000 + p.val, by have := point_lt t; have := p.isLt; omega⟩

/-- The printed index maps, decided over the grid: the three row-blocked inputs and the output are at block row `t`,
    block column 0; the bias row is at block (0, 0) throughout. -/
theorem block_indices : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The aggregated rows' block at point `t` is rows `10000 t …` of its array. -/
theorem iblk3_0_apply (c : Dev nD) (t : Fin cfg3.N) (p : Fin 10000) (q : Fin 64) :
    iblk3 V c 0 t (ix2 p q) = V c main_v57 (ix2 (rowAt t p) q) := by
  obtain ⟨e0, e1, -⟩ := block_indices t
  show V c main_v57 (((cfg3.win 0).blk t).view.emb (ix2 p q)) = _
  refine congrArg _ (funext fun a => Fin.ext ?_)
  match a with
  | ⟨0, _⟩ => show win3_0.index t (0 : Fin 2) * 10000 + 1 * p.val = t.val * 10000 + p.val; omega
  | ⟨1, _⟩ => show win3_0.index t (1 : Fin 2) * 64 + 1 * q.val = q.val; omega

/-- The product's block at point `t` is the same rows of its array. -/
theorem iblk3_1_apply (c : Dev nD) (t : Fin cfg3.N) (p : Fin 10000) (q : Fin 64) :
    iblk3 V c 1 t (ix2 p q) = V c main_v44 (ix2 (rowAt t p) q) := by
  obtain ⟨-, -, e0, e1, -⟩ := block_indices t
  show V c main_v44 (((cfg3.win 1).blk t).view.emb (ix2 p q)) = _
  refine congrArg _ (funext fun a => Fin.ext ?_)
  match a with
  | ⟨0, _⟩ => show win3_1.index t (0 : Fin 2) * 10000 + 1 * p.val = t.val * 10000 + p.val; omega
  | ⟨1, _⟩ => show win3_1.index t (1 : Fin 2) * 64 + 1 * q.val = q.val; omega

/-- The own weights' block at point `t` is the same rows of the column. -/
theorem iblk3_2_apply (c : Dev nD) (t : Fin cfg3.N) (p : Fin 10000) :
    iblk3 V c 2 t (ix2 p (0 : Fin 1)) = V c main_v58 (ix2 (rowAt t p) (0 : Fin 1)) := by
  obtain ⟨-, -, -, -, e0, e1, -⟩ := block_indices t
  show V c main_v58 (((cfg3.win 2).blk t).view.emb (ix2 p (0 : Fin 1))) = _
  refine congrArg _ (funext fun a => Fin.ext ?_)
  match a with
  | ⟨0, _⟩ => show win3_2.index t (0 : Fin 2) * 10000 + 1 * p.val = t.val * 10000 + p.val; omega
  | ⟨1, _⟩ => show win3_2.index t (1 : Fin 2) * 1 + 1 * 0 = 0; omega

/-- The bias row's block is the whole row at every point. -/
theorem iblk3_3_apply (c : Dev nD) (t : Fin cfg3.N) (q : Fin 64) :
    iblk3 V c 3 t (ix2 (0 : Fin 1) q) = V c main_v59 (ix2 (0 : Fin 1) q) := by
  obtain ⟨-, -, -, -, -, -, e0, e1, -⟩ := block_indices t
  show V c main_v59 (((cfg3.win 3).blk t).view.emb (ix2 (0 : Fin 1) q)) = _
  refine congrArg _ (funext fun a => Fin.ext ?_)
  match a with
  | ⟨0, _⟩ => show win3_3.index t (0 : Fin 2) * 1 + 1 * 0 = 0; omega
  | ⟨1, _⟩ => show win3_3.index t (1 : Fin 2) * 64 + 1 * q.val = q.val; omega

/-- Element `(p, q)` of the output's block at point `t` is element `(10000 t + p, q)` of the output array. -/
theorem out_blk_emb (t : Fin cfg3.N) (p : Fin 10000) (q : Fin 64) :
    ((cfg3.win 4).blk t).view.emb (ix2 p q) = ix2 (rowAt t p) q := by
  obtain ⟨-, -, -, -, -, -, -, -, e0, e1⟩ := block_indices t
  refine funext fun a => Fin.ext ?_
  match a with
  | ⟨0, _⟩ => show win3_4.index t (0 : Fin 2) * 10000 + 1 * p.val = t.val * 10000 + p.val; omega
  | ⟨1, _⟩ => show win3_4.index t (1 : Fin 2) * 64 + 1 * q.val = q.val; omega

/-! ## What a point writes back, and the whole array -/

/-- WHAT POINT `t` WRITES BACK is block `t` of the combine of the four input arrays as the call found them. -/
theorem flushed_eq (c : Dev nD) (t : Fin cfg3.N) :
    (dat3 V c).flushed 4 t = ((cfg3.win 4).blk t).view.read (Elt Ideal)
      (Cert.Spec.comb64 (V c main_v57) (V c main_v44) (V c main_v58) (V c main_v59)) := by
  show (cfg3.win 4).cut (grid3.coords t) ((dat3 V c).after 4 t) = _
  rw [after3_4]
  unfold out3_4
  rw [View.canon_unit_zero zero_offsets]
  simp only [View.ld_unit_zero (S := S10000x64) zero_offsets, View.ld_unit_zero (S := S10000x1) zero_offsets,
    View.ld_unit_zero (S := S1x64) zero_offsets]
  funext j
  obtain ⟨p, q, rfl⟩ : ∃ (p : Fin 10000) (q : Fin 64), j = ix2 p q := ⟨j 0, j 1, eq_ix2 j⟩
  show k3_pay1 (iblk3 V c 0 t) (iblk3 V c 1 t) (iblk3 V c 2 t) (iblk3 V c 3 t) (ix2 p q)
    = Cert.Spec.comb64 (V c main_v57) (V c main_v44) (V c main_v58) (V c main_v59) (((cfg3.win 4).blk t).view.emb (ix2 p q))
  rw [k3_pay1_apply, out_blk_emb, iblk3_0_apply, iblk3_1_apply, iblk3_2_apply, iblk3_3_apply]
  rfl

/-- Every row of the array is in the block of the point its ten-thousand names. -/
theorem covered (i : S100000x64.Idx) :
    ∃ t : Fin cfg3.N, (cfg3.win 4).flush t = true ∧ i ∈ ((cfg3.win 4).blk t).view.set := by
  obtain ⟨r, q, rfl⟩ : ∃ (r : Fin 100000) (q : Fin 64), i = ix2 r q := ⟨i 0, i 1, eq_ix2 i⟩
  have hr : r.val < 100000 := r.isLt
  have ht : r.val / 10000 < cfg3.N := by rw [show cfg3.N = 10 from N_3]; omega
  have hi : ((cfg3.win 4).blk ⟨r.val / 10000, ht⟩).view.emb (ix2 (⟨r.val % 10000, Nat.mod_lt _ (by decide)⟩ : Fin 10000) q)
      = ix2 r q := by
    rw [out_blk_emb]
    refine congrArg (fun r' => ix2 r' q) (Fin.ext ?_)
    show r.val / 10000 * 10000 + r.val % 10000 = r.val
    omega
  exact ⟨⟨r.val / 10000, ht⟩, flush3_4 _, hi ▸ View.emb_mem_set _ _⟩

/-- After the call the output array holds the combine of the four input arrays as the call found them. -/
theorem final (c : Dev nD) :
    (dat3 V c).arrAt 4 cfg3.N = Cert.Spec.comb64 (V c main_v57) (V c main_v44) (V c main_v58) (V c main_v59) :=
  (dat3 V c).arrAt_eq_of_cover 4 _ (fun t _ => flushed_eq V c t) covered

end Cert.Region3

end
-- ==== Proof.Region4.lean ====
/-
  The matrix-product pallas_call number 4: ten grid points, each writing 10000 rows of X·W.  Every point's
  block is its rows of ONE whole-array function (Σ_k X[n, k] · W[k, c]: the casts to bf16 are the identity
  on the extended reals and the accumulator starts at zero), and the ten blocks tile the array.
-/
import proofs.«428352_j83459804495950_3_alg».proof.Proof.Gen.KernelIdeal.Frame
import proofs.«428352_j83459804495950_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Region4

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The product at one entry of a block -/

/-- The offsets of a whole-buffer access are all zero. -/
theorem offsets_zero : (![0, 0] : Fin 2 → Nat) = fun _ => 0 := funext fun a => by fin_cases a <;> rfl

/-- The left operand is read at the output's row … -/
theorem lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- … and the summation index as its column; -/
theorem lhs_col (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- the right operand at the summation index as its row … -/
theorem rhs_row (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- … and the output's column. -/
theorem rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- What the body stores at row p, column q of its block: Σ_k x0[p, k] · x1[k, q].  The casts to bf16 change nothing
    on the extended reals, the reshape is to the same shape, and the accumulator is the zero splat. -/
theorem block_entry (x0 : Vec Ideal S10000x64 .f32) (x1 : Vec Ideal S64x64 .f32) (p : Fin 10000) (q : Fin 64) :
    k4_pay1 x0 x1 (ix2 p q) = ∑ k : Fin 64, x0 (ix2 (n0 := 10000) (n1 := 64) p k) * x1 (ix2 (n0 := 64) (n1 := 64) k q) := by
  unfold k4_pay1
  rw [shapeCast_self]
  show FloatOps.matmul dot_S10000x64_S64x64_S10000x64_1_0_0_1_n_n none
      (truncf FTy.bf16 x0 bitsLt_bf16_f32 : FVec Ideal S10000x64 .bf16) (truncf FTy.bf16 x1 bitsLt_bf16_f32 : FVec Ideal S64x64 .bf16)
      (constant S10000x64 .f32 0x00000000#32) (ix2 p q) = _
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 (n0 := 10000) (n1 := 64) p k := funext fun a => Fin.ext (by
    match a with
    | ⟨0, _⟩ => exact lhs_row _ _
    | ⟨1, _⟩ => exact (lhs_col _ _).trans hk)
  have er : dot_S10000x64_S64x64_S10000x64_1_0_0_1_n_n.rhsIdx (ix2 p q) ((contrEquiv1 dot_S10000x64_S64x64_S10000x64_1_0_0_1_n_n 64 rfl rfl).symm k) = ix2 (n0 := 64) (n1 := 64) k q := funext fun a => Fin.ext (by
    match a with
    | ⟨0, _⟩ => exact (rhs_row _ _).trans hk
    | ⟨1, _⟩ => exact rhs_col _ _)
  rw [el, er, truncf_apply, truncf_apply]

/-- So a block whose operands are rows of X (its row p the array's row n) and all of W holds, at row p and column q,
    the whole-array product at (n, q). -/
theorem block_entry_of_rows (x : FVec Ideal S100000x64 .f32) (w : FVec Ideal S64x64 .f32)
    (x0 : Vec Ideal S10000x64 .f32) (x1 : Vec Ideal S64x64 .f32) (p : Fin 10000) (q : Fin 64) (i : S100000x64.Idx)
    (hx : ∀ k : Fin 64, x0 (ix2 (n0 := 10000) (n1 := 64) p k) = x (ix2 (n0 := 100000) (n1 := 64) (i 0) k))
    (hw : ∀ k : Fin 64, x1 (ix2 (n0 := 64) (n1 := 64) k q) = w (ix2 (n0 := 64) (n1 := 64) k (i 1))) :
    k4_pay1 x0 x1 (ix2 p q) = Cert.Spec.mm64to64 x w i := by
  rw [block_entry]
  exact Finset.sum_congr rfl fun k _ => by rw [hx k, hw k]

/-! ## From the ten blocks to the whole array -/

-- The buffer contents the pallas_call is entered with.
variable (V : (c : Dev nD) → (b : Ref sig .tc) → Buf (Elt Ideal) ((c : Thread nD τ).loc b))

/-- The windows' block indices over the grid: the rows' window and the output's are at block t of the rows and
    block 0 of the columns, the weights' window at block (0, 0). -/
theorem block_indices : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the product of the two arrays as the call found them. -/
theorem flushed_eq (c : Dev nD) (t : Fin cfg4.N) :
    (dat4 V c).flushed 2 t = ((cfg4.win 2).blk t).view.read (Elt Ideal) (Cert.Spec.mm64to64 (V c main_v60) (V c main_arg7)) := by
  show (cfg4.win 2).cut (grid4.coords t) ((dat4 V c).after 2 t) = _
  rw [after4_2]
  unfold out4_2
  rw [View.canon_unit_zero offsets_zero]
  simp only [View.ld_unit_zero (S := S10000x64) offsets_zero, View.ld_unit_zero (S := S64x64) offsets_zero]
  obtain ⟨e0, e1, e2, e3, e4, e5⟩ := block_indices t
  funext j
  have hp : (j 0).val < 10000 := (j 0).isLt
  have hq : (j 1).val < 64 := (j 1).isLt
  have ej : (cfg4.win 2).xinj (grid4.coords t) j = ix2 (⟨(j 0).val, hp⟩ : Fin 10000) (⟨(j 1).val, hq⟩ : Fin 64) :=
    funext fun a => by match a with | ⟨0, _⟩ => rfl | ⟨1, _⟩ => rfl
  show k4_pay1 (iblk4 V c 0 t) (iblk4 V c 1 t) ((cfg4.win 2).xinj (grid4.coords t) j)
    = Cert.Spec.mm64to64 (V c main_v60) (V c main_arg7) (((cfg4.win 2).blk t).view.emb j)
  rw [ej]
  refine block_entry_of_rows _ _ _ _ _ _ _ (fun k => ?_) (fun k => ?_)
  · show V c main_v60 (((cfg4.win 0).blk t).view.emb (ix2 (⟨(j 0).val, hp⟩ : Fin 10000) k)) = _
    refine congrArg (V c main_v60) (funext fun a => Fin.ext ?_)
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 64 + 1 * k.val = k.val; omega
  · show V c main_arg7 (((cfg4.win 1).blk t).view.emb (ix2 k (⟨(j 1).val, hq⟩ : Fin 64))) = _
    refine congrArg (V c main_arg7) (funext fun a => Fin.ext ?_)
    match a with
    | ⟨0, _⟩ => show win4_1.index t (0 : Fin 2) * 64 + 1 * k.val = k.val; omega
    | ⟨1, _⟩ => show win4_1.index t (1 : Fin 2) * 64 + 1 * (j 1).val = win4_2.index t (1 : Fin 2) * 64 + 1 * (j 1).val; omega

/-- An index of the array is in point t's block iff each coordinate is in the block's range on its axis. -/
theorem mem_block (t : Fin cfg4.N) (i : S100000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v61).slice (win4_2.rect t)).set ↔ _
  rw [View.set_slice_whole, Rect.mem_set_unit]
  exact Iff.rfl

/-- The ten blocks tile the array: row n lies in the block of point n / 10000, and every point writes back. -/
theorem covered (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  have hN : cfg4.N = 10 := N_4
  obtain ⟨t, ht⟩ : ∃ t : Fin cfg4.N, t.val = (i 0).val / 10000 := ⟨⟨(i 0).val / 10000, by rw [hN]; omega⟩, rfl⟩
  obtain ⟨e0, e1, e2, e3, e4, e5⟩ := block_indices t
  refine ⟨t, flush4_2 t, ?_⟩
  rw [mem_block]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 64 ≤ (i 1).val ∧ (i 1).val < win4_2.index t (1 : Fin 2) * 64 + 64; omega

/-- After the call the output array holds the product of the two input arrays as the call found them. -/
theorem final (c : Dev nD) :
    (dat4 V c).arrAt 2 cfg4.N = Cert.Spec.mm64to64 (V c main_v60) (V c main_arg7) := by
  exact (dat4 V c).arrAt_eq_of_cover 2 (Cert.Spec.mm64to64 (V c main_v60) (V c main_arg7)) (fun t _ => flushed_eq V c t) covered

end Cert.Region4

end
-- ==== Proof.Region5.lean ====
/-
  The combine pallas_call number 5: ten grid points, each writing 10000 rows of
  aggregated + product × own weight + bias, clamped at zero.  Every point's block is its rows of ONE whole-array
  function, and the ten blocks tile the array.
-/
import proofs.«428352_j83459804495950_3_alg».proof.Proof.Gen.KernelIdeal.Frame
import proofs.«428352_j83459804495950_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Region5

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

-- The buffer contents the pallas_call is entered with.
variable (V : (c : Dev nD) → (b : Ref sig .tc) → Buf (Elt Ideal) ((c : Thread nD τ).loc b))

/-! ## The body's arithmetic at one element of a block -/

/-- The zero offsets of a whole-buffer access, as the constant function. -/
theorem zero_offsets : (![0, 0] : Fin 2 → Nat) = fun _ => 0 := funext fun a => by fin_cases a <;> rfl

/-- A column `[a, 1]` broadcast along the rows to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One element of what the body stores: the aggregated entry plus the product's entry times the row's own weight
    plus the column's bias, clamped at zero. -/
theorem k5_pay1_apply (x0 x1 : Vec Ideal S10000x64 .f32) (x2 : Vec Ideal S10000x1 .f32) (x3 : Vec Ideal S1x64 .f32)
    (p : Fin 10000) (q : Fin 64) :
    k5_pay1 x0 x1 x2 x3 (ix2 p q)
      = FloatOps.maximumf (x0 (ix2 p q) + x1 (ix2 p q) * x2 (ix2 p (0 : Fin 1)) + x3 (ix2 (0 : Fin 1) q)) Cert.Spec.zeroLit := by
  unfold k5_pay1
  simp only [shapeCast_self]
  rw [maximumf_apply, addf_apply, addf_apply, mulf_apply, broadcast_apply, broadcastTo_a1_ab_apply, broadcastTo_1b_ab_apply]
  rfl

/-! ## Where a block sits in its array -/

/-- The grid has ten points. -/
theorem point_lt (t : Fin cfg5.N) : t.val < 10 := lt_of_lt_of_eq t.isLt N_5

/-- Row `p` of point `t`'s block is row `10000 t + p` of the array. -/
def rowAt (t : Fin cfg5.N) (p : Fin 10000) : Fin 100000 :=
  ⟨t.val * 10000 + p.val, by have := point_lt t; have := p.isLt; omega⟩

/-- The printed index maps, decided over the grid: the three row-blocked inputs and the output are at block row `t`,
    block column 0; the bias row is at block (0, 0) throughout. -/
theorem block_indices : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- The aggregated rows' block at point `t` is rows `10000 t …` of its array. -/
theorem iblk5_0_apply (c : Dev nD) (t : Fin cfg5.N) (p : Fin 10000) (q : Fin 64) :
    iblk5 V c 0 t (ix2 p q) = V c main_v74 (ix2 (rowAt t p) q) := by
  obtain ⟨e0, e1, -⟩ := block_indices t
  show V c main_v74 (((cfg5.win 0).blk t).view.emb (ix2 p q)) = _
  refine congrArg _ (funext fun a => Fin.ext ?_)
  match a with
  | ⟨0, _⟩ => show win5_0.index t (0 : Fin 2) * 10000 + 1 * p.val = t.val * 10000 + p.val; omega
  | ⟨1, _⟩ => show win5_0.index t (1 : Fin 2) * 64 + 1 * q.val = q.val; omega

/-- The product's block at point `t` is the same rows of its array. -/
theorem iblk5_1_apply (c : Dev nD) (t : Fin cfg5.N) (p : Fin 10000) (q : Fin 64) :
    iblk5 V c 1 t (ix2 p q) = V c main_v61 (ix2 (rowAt t p) q) := by
  obtain ⟨-, -, e0, e1, -⟩ := block_indices t
  show V c main_v61 (((cfg5.win 1).blk t).view.emb (ix2 p q)) = _
  refine congrArg _ (funext fun a => Fin.ext ?_)
  match a with
  | ⟨0, _⟩ => show win5_1.index t (0 : Fin 2) * 10000 + 1 * p.val = t.val * 10000 + p.val; omega
  | ⟨1, _⟩ => show win5_1.index t (1 : Fin 2) * 64 + 1 * q.val = q.val; omega

/-- The own weights' block at point `t` is the same rows of the column. -/
theorem iblk5_2_apply (c : Dev nD) (t : Fin cfg5.N) (p : Fin 10000) :
    iblk5 V c 2 t (ix2 p (0 : Fin 1)) = V c main_v75 (ix2 (rowAt t p) (0 : Fin 1)) := by
  obtain ⟨-, -, -, -, e0, e1, -⟩ := block_indices t
  show V c main_v75 (((cfg5.win 2).blk t).view.emb (ix2 p (0 : Fin 1))) = _
  refine congrArg _ (funext fun a => Fin.ext ?_)
  match a with
  | ⟨0, _⟩ => show win5_2.index t (0 : Fin 2) * 10000 + 1 * p.val = t.val * 10000 + p.val; omega
  | ⟨1, _⟩ => show win5_2.index t (1 : Fin 2) * 1 + 1 * 0 = 0; omega

/-- The bias row's block is the whole row at every point. -/
theorem iblk5_3_apply (c : Dev nD) (t : Fin cfg5.N) (q : Fin 64) :
    iblk5 V c 3 t (ix2 (0 : Fin 1) q) = V c main_v76 (ix2 (0 : Fin 1) q) := by
  obtain ⟨-, -, -, -, -, -, e0, e1, -⟩ := block_indices t
  show V c main_v76 (((cfg5.win 3).blk t).view.emb (ix2 (0 : Fin 1) q)) = _
  refine congrArg _ (funext fun a => Fin.ext ?_)
  match a with
  | ⟨0, _⟩ => show win5_3.index t (0 : Fin 2) * 1 + 1 * 0 = 0; omega
  | ⟨1, _⟩ => show win5_3.index t (1 : Fin 2) * 64 + 1 * q.val = q.val; omega

/-- Element `(p, q)` of the output's block at point `t` is element `(10000 t + p, q)` of the output array. -/
theorem out_blk_emb (t : Fin cfg5.N) (p : Fin 10000) (q : Fin 64) :
    ((cfg5.win 4).blk t).view.emb (ix2 p q) = ix2 (rowAt t p) q := by
  obtain ⟨-, -, -, -, -, -, -, -, e0, e1⟩ := block_indices t
  refine funext fun a => Fin.ext ?_
  match a with
  | ⟨0, _⟩ => show win5_4.index t (0 : Fin 2) * 10000 + 1 * p.val = t.val * 10000 + p.val; omega
  | ⟨1, _⟩ => show win5_4.index t (1 : Fin 2) * 64 + 1 * q.val = q.val; omega

/-! ## What a point writes back, and the whole array -/

/-- WHAT POINT `t` WRITES BACK is block `t` of the combine of the four input arrays as the call found them. -/
theorem flushed_eq (c : Dev nD) (t : Fin cfg5.N) :
    (dat5 V c).flushed 4 t = ((cfg5.win 4).blk t).view.read (Elt Ideal)
      (Cert.Spec.comb64 (V c main_v74) (V c main_v61) (V c main_v75) (V c main_v76)) := by
  show (cfg5.win 4).cut (grid5.coords t) ((dat5 V c).after 4 t) = _
  rw [after5_4]
  unfold out5_4
  rw [View.canon_unit_zero zero_offsets]
  simp only [View.ld_unit_zero (S := S10000x64) zero_offsets, View.ld_unit_zero (S := S10000x1) zero_offsets,
    View.ld_unit_zero (S := S1x64) zero_offsets]
  funext j
  obtain ⟨p, q, rfl⟩ : ∃ (p : Fin 10000) (q : Fin 64), j = ix2 p q := ⟨j 0, j 1, eq_ix2 j⟩
  show k5_pay1 (iblk5 V c 0 t) (iblk5 V c 1 t) (iblk5 V c 2 t) (iblk5 V c 3 t) (ix2 p q)
    = Cert.Spec.comb64 (V c main_v74) (V c main_v61) (V c main_v75) (V c main_v76) (((cfg5.win 4).blk t).view.emb (ix2 p q))
  rw [k5_pay1_apply, out_blk_emb, iblk5_0_apply, iblk5_1_apply, iblk5_2_apply, iblk5_3_apply]
  rfl

/-- Every row of the array is in the block of the point its ten-thousand names. -/
theorem covered (i : S100000x64.Idx) :
    ∃ t : Fin cfg5.N, (cfg5.win 4).flush t = true ∧ i ∈ ((cfg5.win 4).blk t).view.set := by
  obtain ⟨r, q, rfl⟩ : ∃ (r : Fin 100000) (q : Fin 64), i = ix2 r q := ⟨i 0, i 1, eq_ix2 i⟩
  have hr : r.val < 100000 := r.isLt
  have ht : r.val / 10000 < cfg5.N := by rw [show cfg5.N = 10 from N_5]; omega
  have hi : ((cfg5.win 4).blk ⟨r.val / 10000, ht⟩).view.emb (ix2 (⟨r.val % 10000, Nat.mod_lt _ (by decide)⟩ : Fin 10000) q)
      = ix2 r q := by
    rw [out_blk_emb]
    refine congrArg (fun r' => ix2 r' q) (Fin.ext ?_)
    show r.val / 10000 * 10000 + r.val % 10000 = r.val
    omega
  exact ⟨⟨r.val / 10000, ht⟩, flush5_4 _, hi ▸ View.emb_mem_set _ _⟩

/-- After the call the output array holds the combine of the four input arrays as the call found them. -/
theorem final (c : Dev nD) :
    (dat5 V c).arrAt 4 cfg5.N = Cert.Spec.comb64 (V c main_v74) (V c main_v61) (V c main_v75) (V c main_v76) :=
  (dat5 V c).arrAt_eq_of_cover 4 _ (fun t _ => flushed_eq V c t) covered

end Cert.Region5

end
-- ==== Proof.Region6.lean ====
/-
  The pallas_call that spreads the latent table to the nodes: ten grid points, each writing 10000 rows of the
  one-hot product Σ_g [id n = g] · T[g, c], clamped at zero.  Every point's block is its rows of ONE whole-array
  function, and the ten blocks tile the array.
-/
import proofs.«428352_j83459804495950_3_alg».proof.Proof.Gen.KernelIdeal.Frame
import proofs.«428352_j83459804495950_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Region6

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## One entry of the one-hot row: a comparison bit, widened and converted -/

/-- The bit of "a = b", widened to a word and converted to a float, is the indicator of a = b. -/
theorem indicator_eq (a b : BitVec 32) :
    FloatOps.sitofp (F := Ideal) .f32 ((IntOp.cmpi .eq a b).setWidth 32) = if a = b then 1 else 0 := by
  by_cases h : a = b
  · have e : IntOp.cmpi .eq a b = 1#1 := by simp [IntOp.cmpi, h]
    rw [if_pos h, e]
    show ((((1#1 : BitVec 1).setWidth 32).toInt : ℝ) : EReal) = 1
    rw [show ((1#1 : BitVec 1).setWidth 32).toInt = 1 by decide]
    simp
  · have e : IntOp.cmpi .eq a b = 0#1 := by
      show BitVec.ofBool (a == b) = 0#1
      rw [beq_eq_false_iff_ne.2 h]; rfl
    rw [if_neg h, e]
    show ((((0#1 : BitVec 1).setWidth 32).toInt : ℝ) : EReal) = 0
    rw [show ((0#1 : BitVec 1).setWidth 32).toInt = 0 by decide]
    simp

/-! ## The product's operand indices: rows × contraction, contraction × columns -/

theorem lhs_axis0 (i : S10000x64.Idx) (k : dot_S10000x64_S64x64_S10000x64_1_0_0_1_n_n.contr.Idx) :
    (dot_S10000x64_S64x64_S10000x64_1_0_0_1_n_n.lhsIdx i k 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_axis1 (i : S10000x64.Idx) (k : dot_S10000x64_S64x64_S10000x64_1_0_0_1_n_n.contr.Idx) :
    (dot_S10000x64_S64x64_S10000x64_1_0_0_1_n_n.lhsIdx i k 1).val = (k ⟨0, by decide⟩).val :=
  dot_S10000x64_S64x64_S10000x64_1_0_0_1_n_n.lhsIdx_val_of_single rfl i k
theorem rhs_axis0 (i : S10000x64.Idx) (k : dot_S10000x64_S64x64_S10000x64_1_0_0_1_n_n.contr.Idx) :
    (dot_S10000x64_S64x64_S10000x64_1_0_0_1_n_n.rhsIdx i k 0).val = (k ⟨0, by decide⟩).val :=
  dot_S10000x64_S64x64_S10000x64_1_0_0_1_n_n.rhsIdx_val_of_single rfl i k
theorem rhs_axis1 (i : S10000x64.Idx) (k : dot_S10000x64_S64x64_S10000x64_1_0_0_1_n_n.contr.Idx) :
    (dot_S10000x64_S64x64_S10000x64_1_0_0_1_n_n.rhsIdx i k 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-! ## The body at one element of its block -/

/-- Row p, column q of what the body stores: the one-hot row of id p times column q of the table, clamped at zero. -/
theorem pay_apply (x0 : Vec Ideal S10000x1 .i32) (x1 : Vec Ideal S64x64 .f32) (p : Fin 10000) (q : Fin 64) :
    k6_pay1 (F := Ideal) x0 x1 (ix2 p q)
      = FloatOps.maximumf (∑ g : Fin 64, Cert.Spec.oneHot (x0 (ix2 (n0 := 10000) (n1 := 1) p 0)) g * x1 (ix2 (n0 := 64) (n1 := 64) g q))
          Cert.Spec.zeroLit := by
  unfold k6_pay1
  simp only [shapeCast_self, matmul]
  rw [maximumf_apply, Ideal.matmul_constant_zero_apply, Ideal.maximumf_def,
    ← Equiv.sum_comp (contrEquiv1 dot_S10000x64_S64x64_S10000x64_1_0_0_1_n_n 64 rfl rfl).symm]
  refine congrArg₂ max (Finset.sum_congr rfl fun g _ => ?_) rfl
  have hg := contrEquiv1_symm_val dot_S10000x64_S64x64_S10000x64_1_0_0_1_n_n 64 rfl rfl g
  have el : dot_S10000x64_S64x64_S10000x64_1_0_0_1_n_n.lhsIdx (ix2 p q) ((contrEquiv1 dot_S10000x64_S64x64_S10000x64_1_0_0_1_n_n 64 rfl rfl).symm g) = ix2 (n0 := 10000) (n1 := 64) p g := funext fun a => Fin.ext (by
    match a with
    | ⟨0, _⟩ => exact lhs_axis0 _ _
    | ⟨1, _⟩ => exact (lhs_axis1 _ _).trans hg)
  have er : dot_S10000x64_S64x64_S10000x64_1_0_0_1_n_n.rhsIdx (ix2 p q) ((contrEquiv1 dot_S10000x64_S64x64_S10000x64_1_0_0_1_n_n 64 rfl rfl).symm g) = ix2 (n0 := 64) (n1 := 64) g q := funext fun a => Fin.ext (by
    match a with
    | ⟨0, _⟩ => exact (rhs_axis0 _ _).trans hg
    | ⟨1, _⟩ => exact rhs_axis1 _ _)
  rw [el, er, sitofp_apply, extui_apply]
  show FloatOps.sitofp (F := Ideal) .f32 ((IntOp.cmpi .eq (broadcastTo S10000x64 x0 broadcasts_S10000x1_S10000x64 (ix2 p g))
      (iota .tc S10000x64 32 [1] iota_S10000x64_d1_w32 (ix2 p g))).setWidth 32) * _ = _
  rw [iota_single_apply, broadcastTo_apply x0 broadcasts_S10000x1_S10000x64 (ix2 p g) (ix2 (n0 := 10000) (n1 := 1) p 0) (fun a => by
    match a with
    | ⟨0, _⟩ => show p.val = if (10000 : Nat) = 1 then 0 else p.val; rw [if_neg (by decide)]
    | ⟨1, _⟩ => show 0 = if (1 : Nat) = 1 then 0 else g.val; rw [if_pos rfl]),
    indicator_eq]
  rfl

/-! ## From the ten blocks to the array -/

/-- Two zero offsets, however spelt. -/
theorem zeros2 : (![0, 0] : Fin 2 → Nat) = fun _ => 0 := funext fun a => by fin_cases a <;> rfl

/-- The windows' block indices at a grid point, decided over the ten points: the ids' block and the output's are
    block t of the rows, the table's is the whole table. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/- The buffer contents the pallas_call is entered with. -/
variable (V : (c : Dev nD) → (b : Ref sig .tc) → Buf (Elt Ideal) ((c : Thread nD τ).loc b))

/-- What grid point t writes back is its block of the spread of the table by the ids. -/
theorem flushed_eq (c : Dev nD) (t : Fin cfg6.N) :
    (dat6 V c).flushed 2 t
      = ((cfg6.win 2).blk t).view.read (Elt Ideal) (Cert.Spec.spread (V c main_v98) (V c main_v97)) := by
  show (cfg6.win 2).cut (grid6.coords t) ((dat6 V c).after 2 t) = _
  rw [after6_2]
  unfold out6_2
  rw [View.canon_unit_zero zeros2]
  simp only [View.ld_unit_zero (S := S10000x1) zeros2, View.ld_unit_zero (S := S64x64) zeros2]
  obtain ⟨e0, e1, e2, e3, e4, e5⟩ := idx_facts t
  funext j
  have hp : (j 0).val < 10000 := (j 0).isLt
  have hq : (j 1).val < 64 := (j 1).isLt
  have ej : (cfg6.win 2).xinj (grid6.coords t) j = ix2 (⟨(j 0).val, hp⟩ : Fin 10000) (⟨(j 1).val, hq⟩ : Fin 64) := by
    funext a
    match a with
    | ⟨0, _⟩ => rfl
    | ⟨1, _⟩ => rfl
  show k6_pay1 (F := Ideal) (iblk6 V c 0 t) (iblk6 V c 1 t) ((cfg6.win 2).xinj (grid6.coords t) j)
    = Cert.Spec.spread (V c main_v98) (V c main_v97) (((cfg6.win 2).blk t).view.emb j)
  rw [ej, pay_apply]
  unfold Cert.Spec.spread
  refine congrArg₂ _ (Finset.sum_congr rfl fun g _ => ?_) rfl
  have h0 : ((cfg6.win 0).blk t).view.emb (ix2 (n0 := 10000) (n1 := 1) (⟨(j 0).val, hp⟩ : Fin 10000) 0)
      = ix2 (n0 := 100000) (n1 := 1) ((((cfg6.win 2).blk t).view.emb j) 0) 0 := by
    funext a; apply Fin.ext
    match a with
    | ⟨0, _⟩ => show win6_0.index t (0 : Fin 2) * 10000 + 1 * (j 0).val = win6_2.index t (0 : Fin 2) * 10000 + 1 * (j 0).val; omega
    | ⟨1, _⟩ => show win6_0.index t (1 : Fin 2) * 1 + 1 * 0 = 0; omega
  have h1 : ((cfg6.win 1).blk t).view.emb (ix2 (n0 := 64) (n1 := 64) g (⟨(j 1).val, hq⟩ : Fin 64))
      = ix2 (n0 := 64) (n1 := 64) g ((((cfg6.win 2).blk t).view.emb j) 1) := by
    funext a; apply Fin.ext
    match a with
    | ⟨0, _⟩ => show win6_1.index t (0 : Fin 2) * 64 + 1 * g.val = g.val; omega
    | ⟨1, _⟩ => show win6_1.index t (1 : Fin 2) * 64 + 1 * (j 1).val = win6_2.index t (1 : Fin 2) * 64 + 1 * (j 1).val; omega
  show Cert.Spec.oneHot (V c main_v98 (((cfg6.win 0).blk t).view.emb (ix2 (n0 := 10000) (n1 := 1) (⟨(j 0).val, hp⟩ : Fin 10000) 0))) g
      * V c main_v97 (((cfg6.win 1).blk t).view.emb (ix2 (n0 := 64) (n1 := 64) g (⟨(j 1).val, hq⟩ : Fin 64))) = _
  rw [h0, h1]

/-- An index of the array is in point t's block iff each coordinate is in the block's range on its axis. -/
theorem mem_blk (t : Fin cfg6.N) (i : S100000x64.Idx) :
    i ∈ ((cfg6.win 2).blk t).view.set ↔ ∀ a : Fin 2, win6_2.index t a * S10000x64.size a ≤ (i a).val
      ∧ (i a).val < win6_2.index t a * S10000x64.size a + S10000x64.size a := by
  show i ∈ ((View.whole main_v99).slice (win6_2.rect t)).set ↔ _
  rw [View.set_slice_whole, Rect.mem_set_unit]
  exact Iff.rfl

/-- Row r of the array lies in the block of point r / 10000, and every point writes back. -/
theorem covered (i : S100000x64.Idx) :
    ∃ t : Fin cfg6.N, (cfg6.win 2).flush t = true ∧ i ∈ ((cfg6.win 2).blk t).view.set := by
  have hi0 : (i 0).val < 100000 := (i 0).isLt
  have hi1 : (i 1).val < 64 := (i 1).isLt
  have hlt : (i 0).val / 10000 < cfg6.N := by show _ < grid6.N; rw [N_6]; omega
  refine ⟨⟨(i 0).val / 10000, hlt⟩, flush6_2 _, ?_⟩
  obtain ⟨-, -, -, -, e4, e5⟩ := idx_facts ⟨(i 0).val / 10000, hlt⟩
  have e4' : win6_2.index ⟨(i 0).val / 10000, hlt⟩ (0 : Fin 2) = (i 0).val / 10000 := e4
  rw [mem_blk]
  intro a
  match a with
  | ⟨0, _⟩ =>
    show win6_2.index _ (0 : Fin 2) * 10000 ≤ (i 0).val ∧ (i 0).val < win6_2.index _ (0 : Fin 2) * 10000 + 10000
    omega
  | ⟨1, _⟩ =>
    show win6_2.index _ (1 : Fin 2) * 64 ≤ (i 1).val ∧ (i 1).val < win6_2.index _ (1 : Fin 2) * 64 + 64
    omega

/-- After the call the output array holds the spread of the table by the ids as the call found them. -/
theorem final (c : Dev nD) :
    (dat6 V c).arrAt 2 cfg6.N = Cert.Spec.spread (V c main_v98) (V c main_v97) :=
  (dat6 V c).arrAt_eq_of_cover 2 (Cert.Spec.spread (V c main_v98) (V c main_v97))
    (fun t _ => flushed_eq V c t) covered

end Cert.Region6

end
-- ==== Proof.Region7.lean ====
/-
  The matrix-product pallas_call number 7: ten grid points, each writing 10000 rows of X·W.  Every point's
  block is its rows of ONE whole-array function (Σ_k X[n, k] · W[k, c]: the casts to bf16 are the identity
  on the extended reals and the accumulator starts at zero), and the ten blocks tile the array.
-/
import proofs.«428352_j83459804495950_3_alg».proof.Proof.Gen.KernelIdeal.Frame
import proofs.«428352_j83459804495950_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Region7

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The product at one entry of a block -/

/-- The offsets of a whole-buffer access are all zero. -/
theorem offsets_zero : (![0, 0] : Fin 2 → Nat) = fun _ => 0 := funext fun a => by fin_cases a <;> rfl

/-- The left operand is read at the output's row … -/
theorem lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- … and the summation index as its column; -/
theorem lhs_col (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- the right operand at the summation index as its row … -/
theorem rhs_row (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- … and the output's column. -/
theorem rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- What the body stores at row p, column q of its block: Σ_k x0[p, k] · x1[k, q].  The casts to bf16 change nothing
    on the extended reals, the reshape is to the same shape, and the accumulator is the zero splat. -/
theorem block_entry (x0 : Vec Ideal S10000x64 .f32) (x1 : Vec Ideal S64x64 .f32) (p : Fin 10000) (q : Fin 64) :
    k7_pay1 x0 x1 (ix2 p q) = ∑ k : Fin 64, x0 (ix2 (n0 := 10000) (n1 := 64) p k) * x1 (ix2 (n0 := 64) (n1 := 64) k q) := by
  unfold k7_pay1
  rw [shapeCast_self]
  show FloatOps.matmul dot_S10000x64_S64x64_S10000x64_1_0_0_1_n_n none
      (truncf FTy.bf16 x0 bitsLt_bf16_f32 : FVec Ideal S10000x64 .bf16) (truncf FTy.bf16 x1 bitsLt_bf16_f32 : FVec Ideal S64x64 .bf16)
      (constant S10000x64 .f32 0x00000000#32) (ix2 p q) = _
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 (n0 := 10000) (n1 := 64) p k := funext fun a => Fin.ext (by
    match a with
    | ⟨0, _⟩ => exact lhs_row _ _
    | ⟨1, _⟩ => exact (lhs_col _ _).trans hk)
  have er : dot_S10000x64_S64x64_S10000x64_1_0_0_1_n_n.rhsIdx (ix2 p q) ((contrEquiv1 dot_S10000x64_S64x64_S10000x64_1_0_0_1_n_n 64 rfl rfl).symm k) = ix2 (n0 := 64) (n1 := 64) k q := funext fun a => Fin.ext (by
    match a with
    | ⟨0, _⟩ => exact (rhs_row _ _).trans hk
    | ⟨1, _⟩ => exact rhs_col _ _)
  rw [el, er, truncf_apply, truncf_apply]

/-- So a block whose operands are rows of X (its row p the array's row n) and all of W holds, at row p and column q,
    the whole-array product at (n, q). -/
theorem block_entry_of_rows (x : FVec Ideal S100000x64 .f32) (w : FVec Ideal S64x64 .f32)
    (x0 : Vec Ideal S10000x64 .f32) (x1 : Vec Ideal S64x64 .f32) (p : Fin 10000) (q : Fin 64) (i : S100000x64.Idx)
    (hx : ∀ k : Fin 64, x0 (ix2 (n0 := 10000) (n1 := 64) p k) = x (ix2 (n0 := 100000) (n1 := 64) (i 0) k))
    (hw : ∀ k : Fin 64, x1 (ix2 (n0 := 64) (n1 := 64) k q) = w (ix2 (n0 := 64) (n1 := 64) k (i 1))) :
    k7_pay1 x0 x1 (ix2 p q) = Cert.Spec.mm64to64 x w i := by
  rw [block_entry]
  exact Finset.sum_congr rfl fun k _ => by rw [hx k, hw k]

/-! ## From the ten blocks to the whole array -/

-- The buffer contents the pallas_call is entered with.
variable (V : (c : Dev nD) → (b : Ref sig .tc) → Buf (Elt Ideal) ((c : Thread nD τ).loc b))

/-- The windows' block indices over the grid: the rows' window and the output's are at block t of the rows and
    block 0 of the columns, the weights' window at block (0, 0). -/
theorem block_indices : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- What point t writes back is block t of the product of the two arrays as the call found them. -/
theorem flushed_eq (c : Dev nD) (t : Fin cfg7.N) :
    (dat7 V c).flushed 2 t = ((cfg7.win 2).blk t).view.read (Elt Ideal) (Cert.Spec.mm64to64 (V c main_v99) (V c main_arg13)) := by
  show (cfg7.win 2).cut (grid7.coords t) ((dat7 V c).after 2 t) = _
  rw [after7_2]
  unfold out7_2
  rw [View.canon_unit_zero offsets_zero]
  simp only [View.ld_unit_zero (S := S10000x64) offsets_zero, View.ld_unit_zero (S := S64x64) offsets_zero]
  obtain ⟨e0, e1, e2, e3, e4, e5⟩ := block_indices t
  funext j
  have hp : (j 0).val < 10000 := (j 0).isLt
  have hq : (j 1).val < 64 := (j 1).isLt
  have ej : (cfg7.win 2).xinj (grid7.coords t) j = ix2 (⟨(j 0).val, hp⟩ : Fin 10000) (⟨(j 1).val, hq⟩ : Fin 64) :=
    funext fun a => by match a with | ⟨0, _⟩ => rfl | ⟨1, _⟩ => rfl
  show k7_pay1 (iblk7 V c 0 t) (iblk7 V c 1 t) ((cfg7.win 2).xinj (grid7.coords t) j)
    = Cert.Spec.mm64to64 (V c main_v99) (V c main_arg13) (((cfg7.win 2).blk t).view.emb j)
  rw [ej]
  refine block_entry_of_rows _ _ _ _ _ _ _ (fun k => ?_) (fun k => ?_)
  · show V c main_v99 (((cfg7.win 0).blk t).view.emb (ix2 (⟨(j 0).val, hp⟩ : Fin 10000) k)) = _
    refine congrArg (V c main_v99) (funext fun a => Fin.ext ?_)
    match a with
    | ⟨0, _⟩ => show win7_0.index t (0 : Fin 2) * 10000 + 1 * (j 0).val = win7_2.index t (0 : Fin 2) * 10000 + 1 * (j 0).val; omega
    | ⟨1, _⟩ => show win7_0.index t (1 : Fin 2) * 64 + 1 * k.val = k.val; omega
  · show V c main_arg13 (((cfg7.win 1).blk t).view.emb (ix2 k (⟨(j 1).val, hq⟩ : Fin 64))) = _
    refine congrArg (V c main_arg13) (funext fun a => Fin.ext ?_)
    match a with
    | ⟨0, _⟩ => show win7_1.index t (0 : Fin 2) * 64 + 1 * k.val = k.val; omega
    | ⟨1, _⟩ => show win7_1.index t (1 : Fin 2) * 64 + 1 * (j 1).val = win7_2.index t (1 : Fin 2) * 64 + 1 * (j 1).val; omega

/-- An index of the array is in point t's block iff each coordinate is in the block's range on its axis. -/
theorem mem_block (t : Fin cfg7.N) (i : S100000x64.Idx) :
    i ∈ ((cfg7.win 2).blk t).view.set ↔ ∀ a : Fin 2, win7_2.index t a * S10000x64.size a ≤ (i a).val ∧ (i a).val < win7_2.index t a * S10000x64.size a + S10000x64.size a := by
  show i ∈ ((View.whole main_v100).slice (win7_2.rect t)).set ↔ _
  rw [View.set_slice_whole, Rect.mem_set_unit]
  exact Iff.rfl

/-- The ten blocks tile the array: row n lies in the block of point n / 10000, and every point writes back. -/
theorem covered (i : S100000x64.Idx) :
    ∃ t : Fin cfg7.N, (cfg7.win 2).flush t = true ∧ i ∈ ((cfg7.win 2).blk t).view.set := by
  have hi0 : (i 0).val < 100000 := (i 0).isLt
  have hi1 : (i 1).val < 64 := (i 1).isLt
  have hN : cfg7.N = 10 := N_7
  obtain ⟨t, ht⟩ : ∃ t : Fin cfg7.N, t.val = (i 0).val / 10000 := ⟨⟨(i 0).val / 10000, by rw [hN]; omega⟩, rfl⟩
  obtain ⟨e0, e1, e2, e3, e4, e5⟩ := block_indices t
  refine ⟨t, flush7_2 t, ?_⟩
  rw [mem_block]
  intro a
  match a with
  | ⟨0, _⟩ => show win7_2.index t (0 : Fin 2) * 10000 ≤ (i 0).val ∧ (i 0).val < win7_2.index t (0 : Fin 2) * 10000 + 10000; omega
  | ⟨1, _⟩ => show win7_2.index t (1 : Fin 2) * 64 ≤ (i 1).val ∧ (i 1).val < win7_2.index t (1 : Fin 2) * 64 + 64; omega

/-- After the call the output array holds the product of the two input arrays as the call found them. -/
theorem final (c : Dev nD) :
    (dat7 V c).arrAt 2 cfg7.N = Cert.Spec.mm64to64 (V c main_v99) (V c main_arg13) := by
  exact (dat7 V c).arrAt_eq_of_cover 2 (Cert.Spec.mm64to64 (V c main_v99) (V c main_arg13)) (fun t _ => flushed_eq V c t) covered

end Cert.Region7

end
-- ==== Proof.Region8.lean ====
/-
  The combine pallas_call number 8: ten grid points, each writing 10000 rows of
  aggregated + product × own weight + bias, clamped at zero.  Every point's block is its rows of ONE whole-array
  function, and the ten blocks tile the array.
-/
import proofs.«428352_j83459804495950_3_alg».proof.Proof.Gen.KernelIdeal.Frame
import proofs.«428352_j83459804495950_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Region8

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

-- The buffer contents the pallas_call is entered with.
variable (V : (c : Dev nD) → (b : Ref sig .tc) → Buf (Elt Ideal) ((c : Thread nD τ).loc b))

/-! ## The body's arithmetic at one element of a block -/

/-- The zero offsets of a whole-buffer access, as the constant function. -/
theorem zero_offsets : (![0, 0] : Fin 2 → Nat) = fun _ => 0 := funext fun a => by fin_cases a <;> rfl

/-- A column `[a, 1]` broadcast along the rows to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One element of what the body stores: the aggregated entry plus the product's entry times the row's own weight
    plus the column's bias, clamped at zero. -/
theorem k8_pay1_apply (x0 x1 : Vec Ideal S10000x64 .f32) (x2 : Vec Ideal S10000x1 .f32) (x3 : Vec Ideal S1x64 .f32)
    (p : Fin 10000) (q : Fin 64) :
    k8_pay1 x0 x1 x2 x3 (ix2 p q)
      = FloatOps.maximumf (x0 (ix2 p q) + x1 (ix2 p q) * x2 (ix2 p (0 : Fin 1)) + x3 (ix2 (0 : Fin 1) q)) Cert.Spec.zeroLit := by
  unfold k8_pay1
  simp only [shapeCast_self]
  rw [maximumf_apply, addf_apply, addf_apply, mulf_apply, broadcast_apply, broadcastTo_a1_ab_apply, broadcastTo_1b_ab_apply]
  rfl

/-! ## Where a block sits in its array -/

/-- The grid has ten points. -/
theorem point_lt (t : Fin cfg8.N) : t.val < 10 := lt_of_lt_of_eq t.isLt N_8

/-- Row `p` of point `t`'s block is row `10000 t + p` of the array. -/
def rowAt (t : Fin cfg8.N) (p : Fin 10000) : Fin 100000 :=
  ⟨t.val * 10000 + p.val, by have := point_lt t; have := p.isLt; omega⟩

/-- The printed index maps, decided over the grid: the three row-blocked inputs and the output are at block row `t`,
    block column 0; the bias row is at block (0, 0) throughout. -/
theorem block_indices : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0
    ∧ win8_3.index t (0 : Fin 2) = 0 ∧ win8_3.index t (1 : Fin 2) = 0
    ∧ win8_4.index t (0 : Fin 2) = t.val ∧ win8_4.index t (1 : Fin 2) = 0 :=
  (by decide +kernel : ∀ t : Fin grid8.N, _)

/-- The aggregated rows' block at point `t` is rows `10000 t …` of its array. -/
theorem iblk8_0_apply (c : Dev nD) (t : Fin cfg8.N) (p : Fin 10000) (q : Fin 64) :
    iblk8 V c 0 t (ix2 p q) = V c main_v113 (ix2 (rowAt t p) q) := by
  obtain ⟨e0, e1, -⟩ := block_indices t
  show V c main_v113 (((cfg8.win 0).blk t).view.emb (ix2 p q)) = _
  refine congrArg _ (funext fun a => Fin.ext ?_)
  match a with
  | ⟨0, _⟩ => show win8_0.index t (0 : Fin 2) * 10000 + 1 * p.val = t.val * 10000 + p.val; omega
  | ⟨1, _⟩ => show win8_0.index t (1 : Fin 2) * 64 + 1 * q.val = q.val; omega

/-- The product's block at point `t` is the same rows of its array. -/
theorem iblk8_1_apply (c : Dev nD) (t : Fin cfg8.N) (p : Fin 10000) (q : Fin 64) :
    iblk8 V c 1 t (ix2 p q) = V c main_v100 (ix2 (rowAt t p) q) := by
  obtain ⟨-, -, e0, e1, -⟩ := block_indices t
  show V c main_v100 (((cfg8.win 1).blk t).view.emb (ix2 p q)) = _
  refine congrArg _ (funext fun a => Fin.ext ?_)
  match a with
  | ⟨0, _⟩ => show win8_1.index t (0 : Fin 2) * 10000 + 1 * p.val = t.val * 10000 + p.val; omega
  | ⟨1, _⟩ => show win8_1.index t (1 : Fin 2) * 64 + 1 * q.val = q.val; omega

/-- The own weights' block at point `t` is the same rows of the column. -/
theorem iblk8_2_apply (c : Dev nD) (t : Fin cfg8.N) (p : Fin 10000) :
    iblk8 V c 2 t (ix2 p (0 : Fin 1)) = V c main_v114 (ix2 (rowAt t p) (0 : Fin 1)) := by
  obtain ⟨-, -, -, -, e0, e1, -⟩ := block_indices t
  show V c main_v114 (((cfg8.win 2).blk t).view.emb (ix2 p (0 : Fin 1))) = _
  refine congrArg _ (funext fun a => Fin.ext ?_)
  match a with
  | ⟨0, _⟩ => show win8_2.index t (0 : Fin 2) * 10000 + 1 * p.val = t.val * 10000 + p.val; omega
  | ⟨1, _⟩ => show win8_2.index t (1 : Fin 2) * 1 + 1 * 0 = 0; omega

/-- The bias row's block is the whole row at every point. -/
theorem iblk8_3_apply (c : Dev nD) (t : Fin cfg8.N) (q : Fin 64) :
    iblk8 V c 3 t (ix2 (0 : Fin 1) q) = V c main_v115 (ix2 (0 : Fin 1) q) := by
  obtain ⟨-, -, -, -, -, -, e0, e1, -⟩ := block_indices t
  show V c main_v115 (((cfg8.win 3).blk t).view.emb (ix2 (0 : Fin 1) q)) = _
  refine congrArg _ (funext fun a => Fin.ext ?_)
  match a with
  | ⟨0, _⟩ => show win8_3.index t (0 : Fin 2) * 1 + 1 * 0 = 0; omega
  | ⟨1, _⟩ => show win8_3.index t (1 : Fin 2) * 64 + 1 * q.val = q.val; omega

/-- Element `(p, q)` of the output's block at point `t` is element `(10000 t + p, q)` of the output array. -/
theorem out_blk_emb (t : Fin cfg8.N) (p : Fin 10000) (q : Fin 64) :
    ((cfg8.win 4).blk t).view.emb (ix2 p q) = ix2 (rowAt t p) q := by
  obtain ⟨-, -, -, -, -, -, -, -, e0, e1⟩ := block_indices t
  refine funext fun a => Fin.ext ?_
  match a with
  | ⟨0, _⟩ => show win8_4.index t (0 : Fin 2) * 10000 + 1 * p.val = t.val * 10000 + p.val; omega
  | ⟨1, _⟩ => show win8_4.index t (1 : Fin 2) * 64 + 1 * q.val = q.val; omega

/-! ## What a point writes back, and the whole array -/

/-- WHAT POINT `t` WRITES BACK is block `t` of the combine of the four input arrays as the call found them. -/
theorem flushed_eq (c : Dev nD) (t : Fin cfg8.N) :
    (dat8 V c).flushed 4 t = ((cfg8.win 4).blk t).view.read (Elt Ideal)
      (Cert.Spec.comb64 (V c main_v113) (V c main_v100) (V c main_v114) (V c main_v115)) := by
  show (cfg8.win 4).cut (grid8.coords t) ((dat8 V c).after 4 t) = _
  rw [after8_4]
  unfold out8_4
  rw [View.canon_unit_zero zero_offsets]
  simp only [View.ld_unit_zero (S := S10000x64) zero_offsets, View.ld_unit_zero (S := S10000x1) zero_offsets,
    View.ld_unit_zero (S := S1x64) zero_offsets]
  funext j
  obtain ⟨p, q, rfl⟩ : ∃ (p : Fin 10000) (q : Fin 64), j = ix2 p q := ⟨j 0, j 1, eq_ix2 j⟩
  show k8_pay1 (iblk8 V c 0 t) (iblk8 V c 1 t) (iblk8 V c 2 t) (iblk8 V c 3 t) (ix2 p q)
    = Cert.Spec.comb64 (V c main_v113) (V c main_v100) (V c main_v114) (V c main_v115) (((cfg8.win 4).blk t).view.emb (ix2 p q))
  rw [k8_pay1_apply, out_blk_emb, iblk8_0_apply, iblk8_1_apply, iblk8_2_apply, iblk8_3_apply]
  rfl

/-- Every row of the array is in the block of the point its ten-thousand names. -/
theorem covered (i : S100000x64.Idx) :
    ∃ t : Fin cfg8.N, (cfg8.win 4).flush t = true ∧ i ∈ ((cfg8.win 4).blk t).view.set := by
  obtain ⟨r, q, rfl⟩ : ∃ (r : Fin 100000) (q : Fin 64), i = ix2 r q := ⟨i 0, i 1, eq_ix2 i⟩
  have hr : r.val < 100000 := r.isLt
  have ht : r.val / 10000 < cfg8.N := by rw [show cfg8.N = 10 from N_8]; omega
  have hi : ((cfg8.win 4).blk ⟨r.val / 10000, ht⟩).view.emb (ix2 (⟨r.val % 10000, Nat.mod_lt _ (by decide)⟩ : Fin 10000) q)
      = ix2 r q := by
    rw [out_blk_emb]
    refine congrArg (fun r' => ix2 r' q) (Fin.ext ?_)
    show r.val / 10000 * 10000 + r.val % 10000 = r.val
    omega
  exact ⟨⟨r.val / 10000, ht⟩, flush8_4 _, hi ▸ View.emb_mem_set _ _⟩

/-- After the call the output array holds the combine of the four input arrays as the call found them. -/
theorem final (c : Dev nD) :
    (dat8 V c).arrAt 4 cfg8.N = Cert.Spec.comb64 (V c main_v113) (V c main_v100) (V c main_v114) (V c main_v115) :=
  (dat8 V c).arrAt_eq_of_cover 4 _ (fun t _ => flushed_eq V c t) covered

end Cert.Region8

end
-- ==== Proof.Region9.lean ====
/-
  The matrix-product pallas_call number 9: ten grid points, each writing 10000 rows of X·W.  Every point's
  block is its rows of ONE whole-array function (Σ_k X[n, k] · W[k, c]: the casts to bf16 are the identity
  on the extended reals and the accumulator starts at zero), and the ten blocks tile the array.
-/
import proofs.«428352_j83459804495950_3_alg».proof.Proof.Gen.KernelIdeal.Frame
import proofs.«428352_j83459804495950_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Region9

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The product's operand indices: rows × contraction, contraction × columns -/

/-- The left operand is read at the output's row … -/
theorem lhs_axis0 (i : S10000x32.Idx) (k : dot_S10000x64_S64x32_S10000x32_1_0_0_1_n_n.contr.Idx) :
    (dot_S10000x64_S64x32_S10000x32_1_0_0_1_n_n.lhsIdx i k 0).val = (i 0).val := by
  unfold DotDims.lhsIdx
  rw [dif_neg (show ¬(0 : Fin S10000x64.rank) ∈ dot_S10000x64_S64x32_S10000x32_1_0_0_1_n_n.lhsBatch from List.not_mem_nil),
    dif_pos (show (0 : Fin S10000x64.rank) ∈ dot_S10000x64_S64x32_S10000x32_1_0_0_1_n_n.lhsNonContracting from List.mem_singleton.mpr rfl)]
  rfl
/-- … and at the contracted feature; -/
theorem lhs_axis1 (i : S10000x32.Idx) (k : dot_S10000x64_S64x32_S10000x32_1_0_0_1_n_n.contr.Idx) :
    (dot_S10000x64_S64x32_S10000x32_1_0_0_1_n_n.lhsIdx i k 1).val = (k ⟨0, Nat.one_pos⟩).val :=
  dot_S10000x64_S64x32_S10000x32_1_0_0_1_n_n.lhsIdx_val_of_single rfl i k
/-- the right operand at the contracted feature … -/
theorem rhs_axis0 (i : S10000x32.Idx) (k : dot_S10000x64_S64x32_S10000x32_1_0_0_1_n_n.contr.Idx) :
    (dot_S10000x64_S64x32_S10000x32_1_0_0_1_n_n.rhsIdx i k 0).val = (k ⟨0, Nat.one_pos⟩).val :=
  dot_S10000x64_S64x32_S10000x32_1_0_0_1_n_n.rhsIdx_val_of_single rfl i k
/-- … and at the output's column. -/
theorem rhs_axis1 (i : S10000x32.Idx) (k : dot_S10000x64_S64x32_S10000x32_1_0_0_1_n_n.contr.Idx) :
    (dot_S10000x64_S64x32_S10000x32_1_0_0_1_n_n.rhsIdx i k 1).val = (i 1).val := by
  unfold DotDims.rhsIdx
  rw [dif_neg (show ¬(1 : Fin S64x32.rank) ∈ dot_S10000x64_S64x32_S10000x32_1_0_0_1_n_n.rhsBatch from List.not_mem_nil),
    dif_pos (show (1 : Fin S64x32.rank) ∈ dot_S10000x64_S64x32_S10000x32_1_0_0_1_n_n.rhsNonContracting from List.mem_singleton.mpr rfl)]
  rfl

/-! ## The body at one element of its block -/

/-- Row p, column q of what the body stores: row p of the left block times column q of the right one.  The
    narrowing casts read their operand unchanged and the accumulator is zero, so nothing but the sum is left. -/
theorem pay_apply (x0 : Vec Ideal S10000x64 .f32) (x1 : Vec Ideal S64x32 .f32) (p : Fin 10000) (q : Fin 32) :
    k9_pay1 (F := Ideal) x0 x1 (ix2 p q)
      = ∑ k : Fin 64, x0 (ix2 (n0 := 10000) (n1 := 64) p k) * x1 (ix2 (n0 := 64) (n1 := 32) k q) := by
  unfold k9_pay1
  simp only [shapeCast_self, matmul]
  rw [Ideal.matmul_constant_zero_apply,
    ← Equiv.sum_comp (contrEquiv1 dot_S10000x64_S64x32_S10000x32_1_0_0_1_n_n 64 rfl rfl).symm]
  refine Finset.sum_congr rfl fun k _ => ?_
  have hk := contrEquiv1_symm_val dot_S10000x64_S64x32_S10000x32_1_0_0_1_n_n 64 rfl rfl k
  have el : dot_S10000x64_S64x32_S10000x32_1_0_0_1_n_n.lhsIdx (ix2 p q) ((contrEquiv1 dot_S10000x64_S64x32_S10000x32_1_0_0_1_n_n 64 rfl rfl).symm k)
      = ix2 (n0 := 10000) (n1 := 64) p k := funext fun a => Fin.ext (by
    match a with
    | ⟨0, _⟩ => exact lhs_axis0 _ _
    | ⟨1, _⟩ => exact (lhs_axis1 _ _).trans hk)
  have er : dot_S10000x64_S64x32_S10000x32_1_0_0_1_n_n.rhsIdx (ix2 p q) ((contrEquiv1 dot_S10000x64_S64x32_S10000x32_1_0_0_1_n_n 64 rfl rfl).symm k)
      = ix2 (n0 := 64) (n1 := 32) k q := funext fun a => Fin.ext (by
    match a with
    | ⟨0, _⟩ => exact (rhs_axis0 _ _).trans hk
    | ⟨1, _⟩ => exact rhs_axis1 _ _)
  rw [el, er, truncf_apply, truncf_apply]

/-! ## From the ten blocks to the array -/

/-- Two zero offsets, however spelt. -/
theorem zeros2 : (![0, 0] : Fin 2 → Nat) = fun _ => 0 := funext fun a => by fin_cases a <;> rfl

/-- The windows' block indices at a grid point, decided over the ten points: the left operand's block and the
    output's are block t of the rows, the right operand's is the whole matrix. -/
theorem idx_facts : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 :=
  (by decide +kernel : ∀ t : Fin grid9.N, _)

-- the buffer contents the pallas_call is entered with
variable (V : (c : Dev nD) → (b : Ref sig .tc) → Buf (Elt Ideal) ((c : Thread nD τ).loc b))

/-- What grid point t writes back is its block of the product of the two arrays. -/
theorem flushed_eq (c : Dev nD) (t : Fin cfg9.N) :
    (dat9 V c).flushed 2 t
      = ((cfg9.win 2).blk t).view.read (Elt Ideal) (Cert.Spec.mm64to32 (V c main_v116) (V c main_arg15)) := by
  show (cfg9.win 2).cut (grid9.coords t) ((dat9 V c).after 2 t) = _
  rw [after9_2]
  unfold out9_2
  rw [View.canon_unit_zero zeros2]
  simp only [View.ld_unit_zero (S := S10000x64) zeros2, View.ld_unit_zero (S := S64x32) zeros2]
  obtain ⟨e0, e1, e2, e3, e4, e5⟩ := idx_facts t
  funext j
  have hp : (j 0).val < 10000 := (j 0).isLt
  have hq : (j 1).val < 32 := (j 1).isLt
  -- the block is whole: its element j is the payload at j's two coordinates
  have hx : (win9 2).xinj (grid9.coords t) j = ix2 (⟨(j 0).val, hp⟩ : Fin 10000) (⟨(j 1).val, hq⟩ : Fin 32) := by
    funext a
    match a with
    | ⟨0, _⟩ => rfl
    | ⟨1, _⟩ => rfl
  have hL : ∀ P : FVec Ideal S10000x32 .f32, (win9 2).cut (grid9.coords t) P j
      = P (ix2 (⟨(j 0).val, hp⟩ : Fin 10000) (⟨(j 1).val, hq⟩ : Fin 32)) := fun P => congrArg P hx
  -- and the block of an array at j is the array at j's place in it
  have hR : ∀ A : FVec Ideal S100000x32 .f32, ((cfg9.win 2).blk t).view.read (Elt Ideal) A j
      = A (((cfg9.win 2).blk t).view.emb j) := fun A => rfl
  refine (hL _).trans (Eq.trans ?_ (hR _).symm)
  rw [pay_apply]
  unfold Cert.Spec.mm64to32
  refine Finset.sum_congr rfl fun k _ => ?_
  -- entry (row, k) of the left block is entry (block row offset + row, k) of the left array
  have h0 : ((cfg9.win 0).blk t).view.emb (ix2 (n0 := 10000) (n1 := 64) (⟨(j 0).val, hp⟩ : Fin 10000) k)
      = ix2 (n0 := 100000) (n1 := 64) ((((cfg9.win 2).blk t).view.emb j) 0) k := by
    funext a; apply Fin.ext
    match a with
    | ⟨0, _⟩ => show win9_0.index t (0 : Fin 2) * 10000 + 1 * (j 0).val = win9_2.index t (0 : Fin 2) * 10000 + 1 * (j 0).val; omega
    | ⟨1, _⟩ => show win9_0.index t (1 : Fin 2) * 64 + 1 * k.val = k.val; omega
  -- entry (k, column) of the right block is the same entry of the right array
  have h1 : ((cfg9.win 1).blk t).view.emb (ix2 (n0 := 64) (n1 := 32) k (⟨(j 1).val, hq⟩ : Fin 32))
      = ix2 (n0 := 64) (n1 := 32) k ((((cfg9.win 2).blk t).view.emb j) 1) := by
    funext a; apply Fin.ext
    match a with
    | ⟨0, _⟩ => show win9_1.index t (0 : Fin 2) * 64 + 1 * k.val = k.val; omega
    | ⟨1, _⟩ => show win9_1.index t (1 : Fin 2) * 32 + 1 * (j 1).val = win9_2.index t (1 : Fin 2) * 32 + 1 * (j 1).val; omega
  -- the two blocks read their arrays at those places
  refine congrArg₂ _ ?_ ?_
  · exact congrArg (V c main_v116) h0
  · exact congrArg (V c main_arg15) h1

/-- An index of the array is in point t's block iff each coordinate is in the block's range on its axis. -/
theorem mem_blk (t : Fin cfg9.N) (i : S100000x32.Idx) :
    i ∈ ((cfg9.win 2).blk t).view.set ↔ ∀ a : Fin 2, win9_2.index t a * S10000x32.size a ≤ (i a).val
      ∧ (i a).val < win9_2.index t a * S10000x32.size a + S10000x32.size a := by
  show i ∈ ((View.whole main_v117).slice (win9_2.rect t)).set ↔ _
  rw [View.set_slice_whole, Rect.mem_set_unit]
  exact Iff.rfl

/-- Row r of the array lies in the block of point r / 10000, and every point writes back. -/
theorem covered (i : S100000x32.Idx) :
    ∃ t : Fin cfg9.N, (cfg9.win 2).flush t = true ∧ i ∈ ((cfg9.win 2).blk t).view.set := by
  have hi0 : (i 0).val < 100000 := (i 0).isLt
  have hi1 : (i 1).val < 32 := (i 1).isLt
  have hlt : (i 0).val / 10000 < cfg9.N := by show _ < grid9.N; rw [N_9]; omega
  refine ⟨⟨(i 0).val / 10000, hlt⟩, flush9_2 _, ?_⟩
  obtain ⟨-, -, -, -, e4, e5⟩ := idx_facts ⟨(i 0).val / 10000, hlt⟩
  have e4' : win9_2.index ⟨(i 0).val / 10000, hlt⟩ (0 : Fin 2) = (i 0).val / 10000 := e4
  rw [mem_blk]
  intro a
  match a with
  | ⟨0, _⟩ =>
    show win9_2.index _ (0 : Fin 2) * 10000 ≤ (i 0).val ∧ (i 0).val < win9_2.index _ (0 : Fin 2) * 10000 + 10000
    omega
  | ⟨1, _⟩ =>
    show win9_2.index _ (1 : Fin 2) * 32 ≤ (i 1).val ∧ (i 1).val < win9_2.index _ (1 : Fin 2) * 32 + 32
    omega

/-- After the call the output array holds the product of the two input arrays as the call found them. -/
theorem final (c : Dev nD) :
    (dat9 V c).arrAt 2 cfg9.N = Cert.Spec.mm64to32 (V c main_v116) (V c main_arg15) :=
  (dat9 V c).arrAt_eq_of_cover 2 (Cert.Spec.mm64to32 (V c main_v116) (V c main_arg15))
    (fun t _ => flushed_eq V c t) covered

end Cert.Region9

end
-- ==== Proof.Region10.lean ====
/-
  The combine pallas_call number 10: ten grid points, each writing 10000 rows of
  aggregated + product × own weight + bias.  Every point's block is its rows of ONE whole-array
  function, and the ten blocks tile the array.
-/
import proofs.«428352_j83459804495950_3_alg».proof.Proof.Gen.KernelIdeal.Frame
import proofs.«428352_j83459804495950_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Region10

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

-- the buffer contents the pallas_call is entered with
variable (V : (c : Dev nD) → (b : Ref sig .tc) → Buf (Elt Ideal) ((c : Thread nD τ).loc b))

/-! ## The body's arithmetic at one element of a block -/

/-- The zero offsets of a whole-buffer access, as the constant function. -/
theorem zero_offsets : (![0, 0] : Fin 2 → Nat) = fun _ => 0 := funext fun a => by fin_cases a <;> rfl

/-- A column `[a, 1]` broadcast along the rows to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One element of what the body stores: the aggregated entry plus the product's entry times the row's own weight
    plus the column's bias. -/
theorem k10_pay1_apply (x0 x1 : Vec Ideal S10000x32 .f32) (x2 : Vec Ideal S10000x1 .f32) (x3 : Vec Ideal S1x32 .f32)
    (p : Fin 10000) (q : Fin 32) :
    k10_pay1 x0 x1 x2 x3 (ix2 p q)
      = x0 (ix2 p q) + x1 (ix2 p q) * x2 (ix2 p (0 : Fin 1)) + x3 (ix2 (0 : Fin 1) q) := by
  unfold k10_pay1
  simp only [shapeCast_self]
  rw [addf_apply, addf_apply, mulf_apply, broadcastTo_a1_ab_apply, broadcastTo_1b_ab_apply]

/-! ## Where a block sits in its array -/

/-- The grid has ten points. -/
theorem point_lt (t : Fin cfg10.N) : t.val < 10 := lt_of_lt_of_eq t.isLt N_10

/-- Row `p` of point `t`'s block is row `10000 t + p` of the array. -/
def rowAt (t : Fin cfg10.N) (p : Fin 10000) : Fin 100000 :=
  ⟨t.val * 10000 + p.val, by have := point_lt t; have := p.isLt; omega⟩

/-- The printed index maps, decided over the grid: the three row-blocked inputs and the output are at block row `t`,
    block column 0; the bias row is at block (0, 0) throughout. -/
theorem block_indices : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = t.val ∧ win10_2.index t (1 : Fin 2) = 0
    ∧ win10_3.index t (0 : Fin 2) = 0 ∧ win10_3.index t (1 : Fin 2) = 0
    ∧ win10_4.index t (0 : Fin 2) = t.val ∧ win10_4.index t (1 : Fin 2) = 0 :=
  (by decide +kernel : ∀ t : Fin grid10.N, _)

/-- The aggregated rows' block at point `t` is rows `10000 t …` of its array. -/
theorem iblk10_0_apply (c : Dev nD) (t : Fin cfg10.N) (p : Fin 10000) (q : Fin 32) :
    iblk10 V c 0 t (ix2 p q) = V c main_v130 (ix2 (rowAt t p) q) := by
  obtain ⟨e0, e1, -⟩ := block_indices t
  show V c main_v130 (((cfg10.win 0).blk t).view.emb (ix2 p q)) = _
  refine congrArg _ (funext fun a => Fin.ext ?_)
  match a with
  | ⟨0, _⟩ => show win10_0.index t (0 : Fin 2) * 10000 + 1 * p.val = t.val * 10000 + p.val; omega
  | ⟨1, _⟩ => show win10_0.index t (1 : Fin 2) * 32 + 1 * q.val = q.val; omega

/-- The product's block at point `t` is the same rows of its array. -/
theorem iblk10_1_apply (c : Dev nD) (t : Fin cfg10.N) (p : Fin 10000) (q : Fin 32) :
    iblk10 V c 1 t (ix2 p q) = V c main_v117 (ix2 (rowAt t p) q) := by
  obtain ⟨-, -, e0, e1, -⟩ := block_indices t
  show V c main_v117 (((cfg10.win 1).blk t).view.emb (ix2 p q)) = _
  refine congrArg _ (funext fun a => Fin.ext ?_)
  match a with
  | ⟨0, _⟩ => show win10_1.index t (0 : Fin 2) * 10000 + 1 * p.val = t.val * 10000 + p.val; omega
  | ⟨1, _⟩ => show win10_1.index t (1 : Fin 2) * 32 + 1 * q.val = q.val; omega

/-- The own weights' block at point `t` is the same rows of the column. -/
theorem iblk10_2_apply (c : Dev nD) (t : Fin cfg10.N) (p : Fin 10000) :
    iblk10 V c 2 t (ix2 p (0 : Fin 1)) = V c main_v131 (ix2 (rowAt t p) (0 : Fin 1)) := by
  obtain ⟨-, -, -, -, e0, e1, -⟩ := block_indices t
  show V c main_v131 (((cfg10.win 2).blk t).view.emb (ix2 p (0 : Fin 1))) = _
  refine congrArg _ (funext fun a => Fin.ext ?_)
  match a with
  | ⟨0, _⟩ => show win10_2.index t (0 : Fin 2) * 10000 + 1 * p.val = t.val * 10000 + p.val; omega
  | ⟨1, _⟩ => show win10_2.index t (1 : Fin 2) * 1 + 1 * 0 = 0; omega

/-- The bias row's block is the whole row at every point. -/
theorem iblk10_3_apply (c : Dev nD) (t : Fin cfg10.N) (q : Fin 32) :
    iblk10 V c 3 t (ix2 (0 : Fin 1) q) = V c main_v132 (ix2 (0 : Fin 1) q) := by
  obtain ⟨-, -, -, -, -, -, e0, e1, -⟩ := block_indices t
  show V c main_v132 (((cfg10.win 3).blk t).view.emb (ix2 (0 : Fin 1) q)) = _
  refine congrArg _ (funext fun a => Fin.ext ?_)
  match a with
  | ⟨0, _⟩ => show win10_3.index t (0 : Fin 2) * 1 + 1 * 0 = 0; omega
  | ⟨1, _⟩ => show win10_3.index t (1 : Fin 2) * 32 + 1 * q.val = q.val; omega

/-- Element `(p, q)` of the output's block at point `t` is element `(10000 t + p, q)` of the output array. -/
theorem out_blk_emb (t : Fin cfg10.N) (p : Fin 10000) (q : Fin 32) :
    ((cfg10.win 4).blk t).view.emb (ix2 p q) = ix2 (rowAt t p) q := by
  obtain ⟨-, -, -, -, -, -, -, -, e0, e1⟩ := block_indices t
  refine funext fun a => Fin.ext ?_
  match a with
  | ⟨0, _⟩ => show win10_4.index t (0 : Fin 2) * 10000 + 1 * p.val = t.val * 10000 + p.val; omega
  | ⟨1, _⟩ => show win10_4.index t (1 : Fin 2) * 32 + 1 * q.val = q.val; omega

/-! ## What a point writes back, and the whole array -/

/-- WHAT POINT `t` WRITES BACK is block `t` of the combine of the four input arrays as the call found them. -/
theorem flushed_eq (c : Dev nD) (t : Fin cfg10.N) :
    (dat10 V c).flushed 4 t = ((cfg10.win 4).blk t).view.read (Elt Ideal)
      (Cert.Spec.comb32 (V c main_v130) (V c main_v117) (V c main_v131) (V c main_v132)) := by
  show (cfg10.win 4).cut (grid10.coords t) ((dat10 V c).after 4 t) = _
  rw [after10_4]
  unfold out10_4
  rw [View.canon_unit_zero zero_offsets]
  simp only [View.ld_unit_zero (S := S10000x32) zero_offsets, View.ld_unit_zero (S := S10000x1) zero_offsets,
    View.ld_unit_zero (S := S1x32) zero_offsets]
  funext j
  obtain ⟨p, q, rfl⟩ : ∃ (p : Fin 10000) (q : Fin 32), j = ix2 p q := ⟨j 0, j 1, eq_ix2 j⟩
  show k10_pay1 (iblk10 V c 0 t) (iblk10 V c 1 t) (iblk10 V c 2 t) (iblk10 V c 3 t) (ix2 p q)
    = Cert.Spec.comb32 (V c main_v130) (V c main_v117) (V c main_v131) (V c main_v132) (((cfg10.win 4).blk t).view.emb (ix2 p q))
  rw [k10_pay1_apply, out_blk_emb, iblk10_0_apply, iblk10_1_apply, iblk10_2_apply, iblk10_3_apply]
  rfl

/-- Every row of the array is in the block of the point its ten-thousand names. -/
theorem covered (i : S100000x32.Idx) :
    ∃ t : Fin cfg10.N, (cfg10.win 4).flush t = true ∧ i ∈ ((cfg10.win 4).blk t).view.set := by
  obtain ⟨r, q, rfl⟩ : ∃ (r : Fin 100000) (q : Fin 32), i = ix2 r q := ⟨i 0, i 1, eq_ix2 i⟩
  have hr : r.val < 100000 := r.isLt
  have ht : r.val / 10000 < cfg10.N := by rw [show cfg10.N = 10 from N_10]; omega
  have hi : ((cfg10.win 4).blk ⟨r.val / 10000, ht⟩).view.emb (ix2 (⟨r.val % 10000, Nat.mod_lt _ (by decide)⟩ : Fin 10000) q)
      = ix2 r q := by
    rw [out_blk_emb]
    refine congrArg (fun r' => ix2 r' q) (Fin.ext ?_)
    show r.val / 10000 * 10000 + r.val % 10000 = r.val
    omega
  exact ⟨⟨r.val / 10000, ht⟩, flush10_4 _, hi ▸ View.emb_mem_set _ _⟩

/-- After the call the output array holds the combine of the four input arrays as the call found them. -/
theorem final (c : Dev nD) :
    (dat10 V c).arrAt 4 cfg10.N = Cert.Spec.comb32 (V c main_v130) (V c main_v117) (V c main_v131) (V c main_v132) :=
  (dat10 V c).arrAt_eq_of_cover 4 _ (fun t _ => flushed_eq V c t) covered

end Cert.Region10

end
-- ==== Proof.KernelValue.lean ====
/-
  The kernel program's two results as Spec's composition of the argument arrays.

  @main is a fold through eighteen segments: stretches of host operations and pallas_calls. At each boundary the
  buffers later segments read hold a known function of the arguments: the edge quantities (sources, targets, own
  weights, coefficients) from the first stretch on; after each matrix-product call the product of the current
  features; after each aggregation stretch the aggregated product, the own-weight column and the bias row; after
  each combine call the next features; after the pool stretch the latent codes and the latent table; after the
  spread call the decoder's first features.
-/
import proofs.«428352_j83459804495950_3_alg».proof.Proof.Carry
import proofs.«428352_j83459804495950_3_alg».proof.Proof.Stretches
import proofs.«428352_j83459804495950_3_alg».proof.Proof.Region0
import proofs.«428352_j83459804495950_3_alg».proof.Proof.Region1
import proofs.«428352_j83459804495950_3_alg».proof.Proof.Region2
import proofs.«428352_j83459804495950_3_alg».proof.Proof.Region3
import proofs.«428352_j83459804495950_3_alg».proof.Proof.Region4
import proofs.«428352_j83459804495950_3_alg».proof.Proof.Region5
import proofs.«428352_j83459804495950_3_alg».proof.Proof.Region6
import proofs.«428352_j83459804495950_3_alg».proof.Proof.Region7
import proofs.«428352_j83459804495950_3_alg».proof.Proof.Region8
import proofs.«428352_j83459804495950_3_alg».proof.Proof.Region9
import proofs.«428352_j83459804495950_3_alg».proof.Proof.Region10

set_option maxRecDepth 16384

noncomputable section

namespace Cert.KernelValue

open Cert.KernelIdeal Cert.KernelIdeal.Gen Idealize.ShloMosaic Idealize.ShloMosaic.TcCoe Idealize.SL.Sem
open Cert.Spec

theorem congr3 {α β γ δ : Sort _} (f : α → β → γ → δ) {a a' : α} {b b' : β} {c c' : γ}
    (ha : a = a') (hb : b = b') (hc : c = c') : f a b c = f a' b' c' := by subst ha hb hc; rfl
theorem congr4 {α β γ δ ε : Sort _} (f : α → β → γ → δ → ε) {a a' : α} {b b' : β} {c c' : γ} {d d' : δ}
    (ha : a = a') (hb : b = b') (hc : c = c') (hd : d = d') : f a b c d = f a' b' c' d' := by subst ha hb hc hd; rfl

variable (m : (ℓ : Loc nD τ sig) → Buf (Elt Ideal) ℓ) (ρ : Dev nD → PrngReg)

/-! ## The values along the way, as functions of the argument arrays -/

abbrev src (c : Dev nD) : IVec S1600000 32 := srcOf (m ((c : Thread nD τ).loc main_arg1))
abbrev dst (c : Dev nD) : IVec S1600000 32 := dstOf (m ((c : Thread nD τ).loc main_arg1))
abbrev dinv (c : Dev nD) : FVec Ideal S100000 .f32 := dinvOf (F := Ideal) (dst m c)
abbrev coef (c : Dev nD) : FVec Ideal S1600000 .f32 := coefOf (F := Ideal) (src m c) (dst m c) (dinv m c)
abbrev col (c : Dev nD) : FVec Ideal S100000x1 .f32 := selfCol (dinv m c)
abbrev xw1 (c : Dev nD) : FVec Ideal S100000x64 .f32 := mm32to64 (m ((c : Thread nD τ).loc main_arg0)) (m ((c : Thread nD τ).loc main_arg3))
abbrev h1 (c : Dev nD) : FVec Ideal S100000x64 .f32 := conv64 (src m c) (dst m c) (dinv m c) (xw1 m c) (m ((c : Thread nD τ).loc main_arg4))
abbrev xw2 (c : Dev nD) : FVec Ideal S100000x64 .f32 := mm64to64 (h1 m c) (m ((c : Thread nD τ).loc main_arg5))
abbrev h2 (c : Dev nD) : FVec Ideal S100000x64 .f32 := conv64 (src m c) (dst m c) (dinv m c) (xw2 m c) (m ((c : Thread nD τ).loc main_arg6))
abbrev xw3 (c : Dev nD) : FVec Ideal S100000x64 .f32 := mm64to64 (h2 m c) (m ((c : Thread nD τ).loc main_arg7))
abbrev h3 (c : Dev nD) : FVec Ideal S100000x64 .f32 := conv64 (src m c) (dst m c) (dinv m c) (xw3 m c) (m ((c : Thread nD τ).loc main_arg8))
abbrev z (c : Dev nD) : FVec Ideal S64x16 .f32 := latentOf (F := Ideal) (poolOf (m ((c : Thread nD τ).loc main_arg2)) (h3 m c)) (m ((c : Thread nD τ).loc main_arg9)) (m ((c : Thread nD τ).loc main_arg10))
abbrev tbl (c : Dev nD) : FVec Ideal S64x64 .f32 := tableOf (z m c) (m ((c : Thread nD τ).loc main_arg11)) (m ((c : Thread nD τ).loc main_arg12))
abbrev ids (c : Dev nD) : IVec S100000x1 32 := shapeCast S100000x1 (m ((c : Thread nD τ).loc main_arg2)) shapeCasts_S100000_S100000x1
abbrev d0 (c : Dev nD) : FVec Ideal S100000x64 .f32 := spread (ids m c) (tbl m c)
abbrev xw4 (c : Dev nD) : FVec Ideal S100000x64 .f32 := mm64to64 (d0 m c) (m ((c : Thread nD τ).loc main_arg13))
abbrev d1 (c : Dev nD) : FVec Ideal S100000x64 .f32 := conv64 (src m c) (dst m c) (dinv m c) (xw4 m c) (m ((c : Thread nD τ).loc main_arg14))
abbrev xw5 (c : Dev nD) : FVec Ideal S100000x32 .f32 := mm64to32 (d1 m c) (m ((c : Thread nD τ).loc main_arg15))
abbrev xr (c : Dev nD) : FVec Ideal S100000x32 .f32 := conv32 (src m c) (dst m c) (dinv m c) (xw5 m c) (m ((c : Thread nD τ).loc main_arg16))

/-! ## The edge quantities, from the first stretch on -/

theorem w1_v1 (c : Dev nD) : W1 m ρ c (Proc.devRef .tc main_v1) = src m c := Cert.Stretches.src0 (W0 m ρ c)
theorem w1_v3 (c : Dev nD) : W1 m ρ c (Proc.devRef .tc main_v3) = dst m c := Cert.Stretches.dst0 (W0 m ρ c)
theorem w1_v11 (c : Dev nD) : W1 m ρ c (Proc.devRef .tc main_v11) = selfOf (dinv m c) := Cert.Stretches.self0 (W0 m ρ c)
theorem w1_v26 (c : Dev nD) : W1 m ρ c (Proc.devRef .tc main_v26) = coef m c := Cert.Stretches.coef0 (W0 m ρ c)
theorem w2_v1 (c : Dev nD) : W2 m ρ c (Proc.devRef .tc main_v1) = src m c := (Cert.Carry.to2_v1 m ρ c).trans (w1_v1 m ρ c)
theorem w2_v3 (c : Dev nD) : W2 m ρ c (Proc.devRef .tc main_v3) = dst m c := (Cert.Carry.to2_v3 m ρ c).trans (w1_v3 m ρ c)
theorem w2_v11 (c : Dev nD) : W2 m ρ c (Proc.devRef .tc main_v11) = selfOf (dinv m c) := (Cert.Carry.to2_v11 m ρ c).trans (w1_v11 m ρ c)
theorem w2_v26 (c : Dev nD) : W2 m ρ c (Proc.devRef .tc main_v26) = coef m c := (Cert.Carry.to2_v26 m ρ c).trans (w1_v26 m ρ c)
theorem w5_v1 (c : Dev nD) : W5 m ρ c (Proc.devRef .tc main_v1) = src m c := (Cert.Carry.to5_v1 m ρ c).trans (w1_v1 m ρ c)
theorem w5_v3 (c : Dev nD) : W5 m ρ c (Proc.devRef .tc main_v3) = dst m c := (Cert.Carry.to5_v3 m ρ c).trans (w1_v3 m ρ c)
theorem w5_v11 (c : Dev nD) : W5 m ρ c (Proc.devRef .tc main_v11) = selfOf (dinv m c) := (Cert.Carry.to5_v11 m ρ c).trans (w1_v11 m ρ c)
theorem w5_v26 (c : Dev nD) : W5 m ρ c (Proc.devRef .tc main_v26) = coef m c := (Cert.Carry.to5_v26 m ρ c).trans (w1_v26 m ρ c)
theorem w8_v1 (c : Dev nD) : W8 m ρ c (Proc.devRef .tc main_v1) = src m c := (Cert.Carry.to8_v1 m ρ c).trans (w1_v1 m ρ c)
theorem w8_v3 (c : Dev nD) : W8 m ρ c (Proc.devRef .tc main_v3) = dst m c := (Cert.Carry.to8_v3 m ρ c).trans (w1_v3 m ρ c)
theorem w8_v11 (c : Dev nD) : W8 m ρ c (Proc.devRef .tc main_v11) = selfOf (dinv m c) := (Cert.Carry.to8_v11 m ρ c).trans (w1_v11 m ρ c)
theorem w8_v26 (c : Dev nD) : W8 m ρ c (Proc.devRef .tc main_v26) = coef m c := (Cert.Carry.to8_v26 m ρ c).trans (w1_v26 m ρ c)
theorem w13_v1 (c : Dev nD) : W13 m ρ c (Proc.devRef .tc main_v1) = src m c := (Cert.Carry.to13_v1 m ρ c).trans (w1_v1 m ρ c)
theorem w13_v3 (c : Dev nD) : W13 m ρ c (Proc.devRef .tc main_v3) = dst m c := (Cert.Carry.to13_v3 m ρ c).trans (w1_v3 m ρ c)
theorem w13_v11 (c : Dev nD) : W13 m ρ c (Proc.devRef .tc main_v11) = selfOf (dinv m c) := (Cert.Carry.to13_v11 m ρ c).trans (w1_v11 m ρ c)
theorem w13_v26 (c : Dev nD) : W13 m ρ c (Proc.devRef .tc main_v26) = coef m c := (Cert.Carry.to13_v26 m ρ c).trans (w1_v26 m ρ c)
theorem w16_v1 (c : Dev nD) : W16 m ρ c (Proc.devRef .tc main_v1) = src m c := (Cert.Carry.to16_v1 m ρ c).trans (w1_v1 m ρ c)
theorem w16_v3 (c : Dev nD) : W16 m ρ c (Proc.devRef .tc main_v3) = dst m c := (Cert.Carry.to16_v3 m ρ c).trans (w1_v3 m ρ c)
theorem w16_v11 (c : Dev nD) : W16 m ρ c (Proc.devRef .tc main_v11) = selfOf (dinv m c) := (Cert.Carry.to16_v11 m ρ c).trans (w1_v11 m ρ c)
theorem w16_v26 (c : Dev nD) : W16 m ρ c (Proc.devRef .tc main_v26) = coef m c := (Cert.Carry.to16_v26 m ρ c).trans (w1_v26 m ρ c)

/-! ## The convolution whose product is `xw1` -/

theorem w2_v27 (c : Dev nD) : W2 m ρ c (Proc.devRef .tc main_v27) = xw1 m c :=
  (W2_arr m ρ c 2).trans ((Cert.Region0.final (V1 m ρ) c).trans
    (congrArg₂ mm32to64 (Cert.Carry.to1_arg0 m ρ c) (Cert.Carry.to1_arg3 m ρ c)))
theorem w3_v40 (c : Dev nD) : W3 m ρ c (Proc.devRef .tc main_v40) = agg64 (F := Ideal) (src m c) (dst m c) (coef m c) (xw1 m c) :=
  (Cert.Stretches.agg1 (W2 m ρ c)).trans
    (congr4 (agg64 (F := Ideal)) (w2_v1 m ρ c) (w2_v3 m ρ c) (w2_v26 m ρ c) (w2_v27 m ρ c))
theorem w3_v41 (c : Dev nD) : W3 m ρ c (Proc.devRef .tc main_v41) = col m c :=
  (Cert.Stretches.col1 (W2 m ρ c)).trans
    (congrArg (fun v => shapeCast S100000x1 v shapeCasts_S100000_S100000x1) (w2_v11 m ρ c))
theorem w3_v42 (c : Dev nD) :
    W3 m ρ c (Proc.devRef .tc main_v42) = shapeCast S1x64 (m ((c : Thread nD τ).loc main_arg4)) shapeCasts_S64_S1x64 :=
  (Cert.Stretches.row1 (W2 m ρ c)).trans
    (congrArg (fun v => shapeCast S1x64 v shapeCasts_S64_S1x64) (Cert.Carry.to2_arg4 m ρ c))
theorem w3_v27 (c : Dev nD) : W3 m ρ c (Proc.devRef .tc main_v27) = xw1 m c :=
  (Cert.Carry.to3_v27 m ρ c).trans (w2_v27 m ρ c)
theorem w4_v43 (c : Dev nD) : W4 m ρ c (Proc.devRef .tc main_v43) = h1 m c :=
  (W4_arr m ρ c 4).trans ((Cert.Region1.final (V3 m ρ) c).trans
    (congr4 comb64 (w3_v40 m ρ c) (w3_v27 m ρ c)
      (w3_v41 m ρ c) (w3_v42 m ρ c)))

/-! ## The convolution whose product is `xw2` -/

theorem w5_v44 (c : Dev nD) : W5 m ρ c (Proc.devRef .tc main_v44) = xw2 m c :=
  (W5_arr m ρ c 2).trans ((Cert.Region2.final (V4 m ρ) c).trans
    (congrArg₂ mm64to64 (w4_v43 m ρ c) (Cert.Carry.to4_arg5 m ρ c)))
theorem w6_v57 (c : Dev nD) : W6 m ρ c (Proc.devRef .tc main_v57) = agg64 (F := Ideal) (src m c) (dst m c) (coef m c) (xw2 m c) :=
  (Cert.Stretches.agg3 (W5 m ρ c)).trans
    (congr4 (agg64 (F := Ideal)) (w5_v1 m ρ c) (w5_v3 m ρ c) (w5_v26 m ρ c) (w5_v44 m ρ c))
theorem w6_v58 (c : Dev nD) : W6 m ρ c (Proc.devRef .tc main_v58) = col m c :=
  (Cert.Stretches.col3 (W5 m ρ c)).trans
    (congrArg (fun v => shapeCast S100000x1 v shapeCasts_S100000_S100000x1) (w5_v11 m ρ c))
theorem w6_v59 (c : Dev nD) :
    W6 m ρ c (Proc.devRef .tc main_v59) = shapeCast S1x64 (m ((c : Thread nD τ).loc main_arg6)) shapeCasts_S64_S1x64 :=
  (Cert.Stretches.row3 (W5 m ρ c)).trans
    (congrArg (fun v => shapeCast S1x64 v shapeCasts_S64_S1x64) (Cert.Carry.to5_arg6 m ρ c))
theorem w6_v44 (c : Dev nD) : W6 m ρ c (Proc.devRef .tc main_v44) = xw2 m c :=
  (Cert.Carry.to6_v44 m ρ c).trans (w5_v44 m ρ c)
theorem w7_v60 (c : Dev nD) : W7 m ρ c (Proc.devRef .tc main_v60) = h2 m c :=
  (W7_arr m ρ c 4).trans ((Cert.Region3.final (V6 m ρ) c).trans
    (congr4 comb64 (w6_v57 m ρ c) (w6_v44 m ρ c)
      (w6_v58 m ρ c) (w6_v59 m ρ c)))

/-! ## The convolution whose product is `xw3` -/

theorem w8_v61 (c : Dev nD) : W8 m ρ c (Proc.devRef .tc main_v61) = xw3 m c :=
  (W8_arr m ρ c 2).trans ((Cert.Region4.final (V7 m ρ) c).trans
    (congrArg₂ mm64to64 (w7_v60 m ρ c) (Cert.Carry.to7_arg7 m ρ c)))
theorem w9_v74 (c : Dev nD) : W9 m ρ c (Proc.devRef .tc main_v74) = agg64 (F := Ideal) (src m c) (dst m c) (coef m c) (xw3 m c) :=
  (Cert.Stretches.agg5 (W8 m ρ c)).trans
    (congr4 (agg64 (F := Ideal)) (w8_v1 m ρ c) (w8_v3 m ρ c) (w8_v26 m ρ c) (w8_v61 m ρ c))
theorem w9_v75 (c : Dev nD) : W9 m ρ c (Proc.devRef .tc main_v75) = col m c :=
  (Cert.Stretches.col5 (W8 m ρ c)).trans
    (congrArg (fun v => shapeCast S100000x1 v shapeCasts_S100000_S100000x1) (w8_v11 m ρ c))
theorem w9_v76 (c : Dev nD) :
    W9 m ρ c (Proc.devRef .tc main_v76) = shapeCast S1x64 (m ((c : Thread nD τ).loc main_arg8)) shapeCasts_S64_S1x64 :=
  (Cert.Stretches.row5 (W8 m ρ c)).trans
    (congrArg (fun v => shapeCast S1x64 v shapeCasts_S64_S1x64) (Cert.Carry.to8_arg8 m ρ c))
theorem w9_v61 (c : Dev nD) : W9 m ρ c (Proc.devRef .tc main_v61) = xw3 m c :=
  (Cert.Carry.to9_v61 m ρ c).trans (w8_v61 m ρ c)
theorem w10_v77 (c : Dev nD) : W10 m ρ c (Proc.devRef .tc main_v77) = h3 m c :=
  (W10_arr m ρ c 4).trans ((Cert.Region5.final (V9 m ρ) c).trans
    (congr4 comb64 (w9_v74 m ρ c) (w9_v61 m ρ c)
      (w9_v75 m ρ c) (w9_v76 m ρ c)))

/-! ## The pool stretch and the spread call -/

theorem w11_v93 (c : Dev nD) : W11 m ρ c (Proc.devRef .tc main_v93) = z m c :=
  (Cert.Stretches.latent6 (W10 m ρ c)).trans
    (congr3 (latentOf (F := Ideal)) (congrArg₂ (poolOf (F := Ideal)) (Cert.Carry.to10_arg2 m ρ c) (w10_v77 m ρ c))
      (Cert.Carry.to10_arg9 m ρ c) (Cert.Carry.to10_arg10 m ρ c))
theorem w11_v97 (c : Dev nD) : W11 m ρ c (Proc.devRef .tc main_v97) = tbl m c :=
  (Cert.Stretches.table6 (W10 m ρ c)).trans
    (congr3 tableOf
      (congr3 (latentOf (F := Ideal)) (congrArg₂ (poolOf (F := Ideal)) (Cert.Carry.to10_arg2 m ρ c) (w10_v77 m ρ c))
        (Cert.Carry.to10_arg9 m ρ c) (Cert.Carry.to10_arg10 m ρ c))
      (Cert.Carry.to10_arg11 m ρ c) (Cert.Carry.to10_arg12 m ρ c))
theorem w11_v98 (c : Dev nD) : W11 m ρ c (Proc.devRef .tc main_v98) = ids m c :=
  (Cert.Stretches.ids6 (W10 m ρ c)).trans
    (congrArg (fun v => shapeCast S100000x1 v shapeCasts_S100000_S100000x1) (Cert.Carry.to10_arg2 m ρ c))
theorem w12_v99 (c : Dev nD) : W12 m ρ c (Proc.devRef .tc main_v99) = d0 m c :=
  (W12_arr m ρ c 2).trans ((Cert.Region6.final (V11 m ρ) c).trans (congrArg₂ spread (w11_v98 m ρ c) (w11_v97 m ρ c)))

/-! ## The convolution whose product is `xw4` -/

theorem w13_v100 (c : Dev nD) : W13 m ρ c (Proc.devRef .tc main_v100) = xw4 m c :=
  (W13_arr m ρ c 2).trans ((Cert.Region7.final (V12 m ρ) c).trans
    (congrArg₂ mm64to64 (w12_v99 m ρ c) (Cert.Carry.to12_arg13 m ρ c)))
theorem w14_v113 (c : Dev nD) : W14 m ρ c (Proc.devRef .tc main_v113) = agg64 (F := Ideal) (src m c) (dst m c) (coef m c) (xw4 m c) :=
  (Cert.Stretches.agg8 (W13 m ρ c)).trans
    (congr4 (agg64 (F := Ideal)) (w13_v1 m ρ c) (w13_v3 m ρ c) (w13_v26 m ρ c) (w13_v100 m ρ c))
theorem w14_v114 (c : Dev nD) : W14 m ρ c (Proc.devRef .tc main_v114) = col m c :=
  (Cert.Stretches.col8 (W13 m ρ c)).trans
    (congrArg (fun v => shapeCast S100000x1 v shapeCasts_S100000_S100000x1) (w13_v11 m ρ c))
theorem w14_v115 (c : Dev nD) :
    W14 m ρ c (Proc.devRef .tc main_v115) = shapeCast S1x64 (m ((c : Thread nD τ).loc main_arg14)) shapeCasts_S64_S1x64 :=
  (Cert.Stretches.row8 (W13 m ρ c)).trans
    (congrArg (fun v => shapeCast S1x64 v shapeCasts_S64_S1x64) (Cert.Carry.to13_arg14 m ρ c))
theorem w14_v100 (c : Dev nD) : W14 m ρ c (Proc.devRef .tc main_v100) = xw4 m c :=
  (Cert.Carry.to14_v100 m ρ c).trans (w13_v100 m ρ c)
theorem w15_v116 (c : Dev nD) : W15 m ρ c (Proc.devRef .tc main_v116) = d1 m c :=
  (W15_arr m ρ c 4).trans ((Cert.Region8.final (V14 m ρ) c).trans
    (congr4 comb64 (w14_v113 m ρ c) (w14_v100 m ρ c)
      (w14_v114 m ρ c) (w14_v115 m ρ c)))

/-! ## The convolution whose product is `xw5` -/

theorem w16_v117 (c : Dev nD) : W16 m ρ c (Proc.devRef .tc main_v117) = xw5 m c :=
  (W16_arr m ρ c 2).trans ((Cert.Region9.final (V15 m ρ) c).trans
    (congrArg₂ mm64to32 (w15_v116 m ρ c) (Cert.Carry.to15_arg15 m ρ c)))
theorem w17_v130 (c : Dev nD) : W17 m ρ c (Proc.devRef .tc main_v130) = agg32 (F := Ideal) (src m c) (dst m c) (coef m c) (xw5 m c) :=
  (Cert.Stretches.agg10 (W16 m ρ c)).trans
    (congr4 (agg32 (F := Ideal)) (w16_v1 m ρ c) (w16_v3 m ρ c) (w16_v26 m ρ c) (w16_v117 m ρ c))
theorem w17_v131 (c : Dev nD) : W17 m ρ c (Proc.devRef .tc main_v131) = col m c :=
  (Cert.Stretches.col10 (W16 m ρ c)).trans
    (congrArg (fun v => shapeCast S100000x1 v shapeCasts_S100000_S100000x1) (w16_v11 m ρ c))
theorem w17_v132 (c : Dev nD) :
    W17 m ρ c (Proc.devRef .tc main_v132) = shapeCast S1x32 (m ((c : Thread nD τ).loc main_arg16)) shapeCasts_S32_S1x32 :=
  (Cert.Stretches.row10 (W16 m ρ c)).trans
    (congrArg (fun v => shapeCast S1x32 v shapeCasts_S32_S1x32) (Cert.Carry.to16_arg16 m ρ c))
theorem w17_v117 (c : Dev nD) : W17 m ρ c (Proc.devRef .tc main_v117) = xw5 m c :=
  (Cert.Carry.to17_v117 m ρ c).trans (w16_v117 m ρ c)
theorem w18_v133 (c : Dev nD) : W18 m ρ c (Proc.devRef .tc main_v133) = xr m c :=
  (W18_arr m ρ c 4).trans ((Cert.Region10.final (V17 m ρ) c).trans
    (congr4 comb32 (w17_v130 m ρ c) (w17_v117 m ρ c)
      (w17_v131 m ρ c) (w17_v132 m ρ c)))

/-! ## The two results -/

/-- The reconstruction: the last combine call's output, untouched afterwards. -/
theorem recon (c : Dev nD) : W18 m ρ c (Proc.devRef .tc main_v133)
    = decode (m ((c : Thread nD τ).loc main_arg1)) (m ((c : Thread nD τ).loc main_arg2))
        (tableOf (latentOf (F := Ideal) (poolOf (m ((c : Thread nD τ).loc main_arg2))
          (encode (m ((c : Thread nD τ).loc main_arg1)) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) (m ((c : Thread nD τ).loc main_arg9)) (m ((c : Thread nD τ).loc main_arg10))) (m ((c : Thread nD τ).loc main_arg11)) (m ((c : Thread nD τ).loc main_arg12)))
        (m ((c : Thread nD τ).loc main_arg13)) (m ((c : Thread nD τ).loc main_arg14)) (m ((c : Thread nD τ).loc main_arg15)) (m ((c : Thread nD τ).loc main_arg16)) :=
  w18_v133 m ρ c

/-- The latent codes: written by the pool stretch, carried to the end. -/
theorem latent (c : Dev nD) : W18 m ρ c (Proc.devRef .tc main_v93)
    = latentOf (F := Ideal) (poolOf (m ((c : Thread nD τ).loc main_arg2))
        (encode (m ((c : Thread nD τ).loc main_arg1)) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) (m ((c : Thread nD τ).loc main_arg9)) (m ((c : Thread nD τ).loc main_arg10)) :=
  (Cert.Carry.to18_v93 m ρ c).trans (w11_v93 m ρ c)

end Cert.KernelValue

end
-- ==== Proof.RefSpec.lean ====
/-
  The reference program's results as one composition, in the host operations it is printed with.

  The edge side is Spec's (the same host operations as the kernel program's).  The product X·W is a
  dot_general, the combine is broadcasts and whole-array additions, and the decoder starts from the
  latent codes gathered at the nodes' graph ids.
-/
import proofs.«428352_j83459804495950_3_alg».proof.ReferenceIdeal
import proofs.«428352_j83459804495950_3_alg».proof.Proof.Spec

noncomputable section

namespace Cert.RefSpec

open Idealize.ShloMosaic Cert.ReferenceIdeal

variable [Cert.ReferenceIdeal.Facts₀] [Cert.KernelIdeal.Facts₀]
open Cert.ReferenceIdeal.Facts₀

/-- Whole-array clamp at zero of 64-wide rows (jax.nn.relu). -/
def relu64 (v : FVec Ideal S100000x64 .f32) : FVec Ideal S100000x64 .f32 :=
  maximumf v (broadcastInDim S100000x64 ![] bcast_S_S100000x64 (constant S_ .f32 0x00000000#32))

/-- The combine of a 64-wide convolution in whole-array operations: aggregated + product × own weight + bias. -/
def combine64 (dinv : FVec Ideal S100000 .f32) (seg xw : FVec Ideal S100000x64 .f32) (b : FVec Ideal S64 .f32) :
    FVec Ideal S100000x64 .f32 :=
  addf (addf seg (mulf xw (broadcastInDim S100000x64 ![0, 1] bcast_S100000x1_S100000x64_0_1
      (broadcastInDim S100000x1 ![0] bcast_S100000_S100000x1_0 (mulf dinv dinv)))))
    (broadcastInDim S100000x64 ![0, 1] bcast_S1x64_S100000x64_0_1 (broadcastInDim S1x64 ![1] bcast_S64_S1x64_1 b))

/-- The same of 32-wide rows. -/
def combine32 (dinv : FVec Ideal S100000 .f32) (seg xw : FVec Ideal S100000x32 .f32) (b : FVec Ideal S32 .f32) :
    FVec Ideal S100000x32 .f32 :=
  addf (addf seg (mulf xw (broadcastInDim S100000x32 ![0, 1] bcast_S100000x1_S100000x32_0_1
      (broadcastInDim S100000x1 ![0] bcast_S100000_S100000x1_0 (mulf dinv dinv)))))
    (broadcastInDim S100000x32 ![0, 1] bcast_S1x32_S100000x32_0_1 (broadcastInDim S1x32 ![1] bcast_S32_S1x32_1 b))

/-- A 64-wide convolution clamped at zero, from the product already formed. -/
def conv64 (src dst : IVec S1600000 32) (dinv : FVec Ideal S100000 .f32) (xw : FVec Ideal S100000x64 .f32)
    (b : FVec Ideal S64 .f32) : FVec Ideal S100000x64 .f32 :=
  relu64 (combine64 dinv (Cert.Spec.agg64 src dst (Cert.Spec.coefOf src dst dinv) xw) xw b)

/-- The last, 32-wide convolution. -/
def conv32 (src dst : IVec S1600000 32) (dinv : FVec Ideal S100000 .f32) (xw : FVec Ideal S100000x32 .f32)
    (b : FVec Ideal S32 .f32) : FVec Ideal S100000x32 .f32 :=
  combine32 dinv (Cert.Spec.agg32 src dst (Cert.Spec.coefOf src dst dinv) xw) xw b

/-- The encoder: three convolutions. -/
def encode (e : IVec S2x1600000 32) (x : FVec Ideal S100000x32 .f32)
    (w0 : FVec Ideal S32x64 .f32) (b0 : FVec Ideal S64 .f32) (w1 : FVec Ideal S64x64 .f32) (b1 : FVec Ideal S64 .f32)
    (w2 : FVec Ideal S64x64 .f32) (b2 : FVec Ideal S64 .f32) : FVec Ideal S100000x64 .f32 :=
  let src := Cert.Spec.srcOf e; let dst := Cert.Spec.dstOf e; let dinv := Cert.Spec.dinvOf (F := Ideal) dst
  let h1 := conv64 src dst dinv (Host.dotGeneral dot_S100000x32_S32x64_S100000x64_1_0_0_1_n_n none x w0) b0
  let h2 := conv64 src dst dinv (Host.dotGeneral dot_S100000x64_S64x64_S100000x64_1_0_0_1_n_n none h1 w1) b1
  conv64 src dst dinv (Host.dotGeneral dot_S100000x64_S64x64_S100000x64_1_0_0_1_n_n none h2 w2) b2

/-- A graph id as jnp reads it (a negative one counts from the end), laid out as a column of start indices. -/
def wrapIds (batch : IVec S100000 32) : IVec S100000x1 32 :=
  broadcastInDim S100000x1 ![0] bcast_S100000_S100000x1_0
    (select (cmpi .slt batch (broadcastInDim S100000 ![] bcast_S_S100000 (constantI S_ 32 0#32)))
      (addi batch (broadcastInDim S100000 ![] bcast_S_S100000 (constantI S_ 32 64#32))) batch)

/-- The decoder's first rows: each node's latent code projected back to 64 features, plus the bias, clamped at zero. -/
def spread (batch : IVec S100000 32) (z : FVec Ideal S64x16 .f32) (wd : FVec Ideal S16x64 .f32) (bd : FVec Ideal S64 .f32) :
    FVec Ideal S100000x64 .f32 :=
  relu64 (addf
    (Host.dotGeneral dot_S100000x16_S16x64_S100000x64_1_0_0_1_n_n none
      (Host.gather gather_S64x16_S100000x1_S100000x16_1_0_n_n_0_1_116 z (wrapIds batch)) wd)
    (broadcastInDim S100000x64 ![0, 1] bcast_S1x64_S100000x64_0_1 (broadcastInDim S1x64 ![1] bcast_S64_S1x64_1 bd)))

/-- The decoder: the spread rows, then two convolutions. -/
def decode (e : IVec S2x1600000 32) (d0 : FVec Ideal S100000x64 .f32)
    (w0 : FVec Ideal S64x64 .f32) (b0 : FVec Ideal S64 .f32) (w1 : FVec Ideal S64x32 .f32) (b1 : FVec Ideal S32 .f32) :
    FVec Ideal S100000x32 .f32 :=
  let src := Cert.Spec.srcOf e; let dst := Cert.Spec.dstOf e; let dinv := Cert.Spec.dinvOf (F := Ideal) dst
  let d1 := conv64 src dst dinv (Host.dotGeneral dot_S100000x64_S64x64_S100000x64_1_0_0_1_n_n none d0 w0) b0
  conv32 src dst dinv (Host.dotGeneral dot_S100000x64_S64x32_S100000x32_1_0_0_1_n_n none d1 w1) b1

end Cert.RefSpec

end
-- ==== Proof.RefSide.lean ====
/-
  The reference program's two results are RefSpec's composition of its argument arrays: the run's composed
  term is that composition with every definition unfolded.
-/
import proofs.«428352_j83459804495950_3_alg».proof.Proof.Gen.ReferenceIdeal.Run
import proofs.«428352_j83459804495950_3_alg».proof.Proof.Gen.KernelIdeal
import proofs.«428352_j83459804495950_3_alg».proof.Proof.RefSpec

set_option maxRecDepth 16384

noncomputable section

namespace Cert.RefSide

open Cert.ReferenceIdeal Cert.ReferenceIdeal.Gen Cert.ReferenceIdeal.Value Idealize.ShloMosaic Idealize.ShloMosaic.TcCoe Idealize.SL.Sem

variable (m : (ℓ : Loc nD τ sig) → Buf (Elt Ideal) ℓ)

/-- The encoder's output of the reference's arguments. -/
abbrev enc (c : Dev nD) : FVec Ideal S100000x64 .f32 :=
  Cert.RefSpec.encode (m ((c.tc : Thread nD τ).loc main_arg1)) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

/-- The latent codes of the reference's arguments. -/
abbrev lat (c : Dev nD) : FVec Ideal S64x16 .f32 :=
  Cert.Spec.latentOf (F := Ideal) (Cert.Spec.poolOf (m ((c.tc : Thread nD τ).loc main_arg2)) (enc m c)) (m ((c.tc : Thread nD τ).loc main_arg9)) (m ((c.tc : Thread nD τ).loc main_arg10))

set_option maxHeartbeats 4000000 in
/-- The second result, the latent codes. -/
theorem out1_eq (c : Dev nD) : res_out1 (F := Ideal) m c = lat m c := by
  show res_main_v140 (F := Ideal) m c = _
  unfold res_main_v140
  rfl

set_option maxHeartbeats 4000000 in
/-- The first result, the reconstruction. -/
theorem out0_eq (c : Dev nD) : res_out0 (F := Ideal) m c
    = Cert.RefSpec.decode (m ((c.tc : Thread nD τ).loc main_arg1)) (Cert.RefSpec.spread (m ((c.tc : Thread nD τ).loc main_arg2)) (lat m c) (m ((c.tc : Thread nD τ).loc main_arg11)) (m ((c.tc : Thread nD τ).loc main_arg12)))
        (m ((c.tc : Thread nD τ).loc main_arg13)) (m ((c.tc : Thread nD τ).loc main_arg14)) (m ((c.tc : Thread nD τ).loc main_arg15)) (m ((c.tc : Thread nD τ).loc main_arg16)) := by
  show res_main_v227 (F := Ideal) m c = _
  unfold res_main_v227
  rfl

end Cert.RefSide

end
-- ==== Proof.MatProduct.lean ====
/-
  The host's dot_general of node rows with a weight matrix is, entry by entry, the sum over the
  contracted feature axis of the products: (X·W)[n, c] = Σ_k X[n, k] · W[k, c].

  For each of the three products the four coordinate facts come first (where the two operands are
  read, at output index i and contraction index q), stated at the literal axes 0 and 1; the sum over
  the one-axis contraction index set is then re-indexed by its single coordinate.
-/
import proofs.«428352_j83459804495950_3_alg».proof.ReferenceIdeal
import proofs.«428352_j83459804495950_3_alg».proof.Proof.Spec
import Idealize.ShloMosaic.PureOps.Ideal.Laws
import Idealize.ShloMosaic.Lib.ValueIdx

noncomputable section

namespace Cert.MatProduct

open Idealize.ShloMosaic Idealize.ShloMosaic.ValueIdx
open scoped BigOperators

variable [Cert.ReferenceIdeal.Facts₀] [Cert.KernelIdeal.Facts₀]

/-! ### 100000 × 32 rows times a 32 × 64 matrix -/

/-- The left operand is read at the output's row … -/
theorem lhsA_0 (i : Cert.ReferenceIdeal.S100000x64.Idx) (q : Cert.ReferenceIdeal.dot_S100000x32_S32x64_S100000x64_1_0_0_1_n_n.contr.Idx) :
    (Cert.ReferenceIdeal.dot_S100000x32_S32x64_S100000x64_1_0_0_1_n_n.lhsIdx i q 0).val = (i 0).val := by
  unfold DotDims.lhsIdx
  rw [dif_neg (show ¬(0 : Fin Cert.ReferenceIdeal.S100000x32.rank) ∈ Cert.ReferenceIdeal.dot_S100000x32_S32x64_S100000x64_1_0_0_1_n_n.lhsBatch from List.not_mem_nil),
    dif_pos (show (0 : Fin Cert.ReferenceIdeal.S100000x32.rank) ∈ Cert.ReferenceIdeal.dot_S100000x32_S32x64_S100000x64_1_0_0_1_n_n.lhsNonContracting from List.mem_singleton.mpr rfl)]
  rfl
/-- … and at the contracted feature; -/
theorem lhsA_1 (i : Cert.ReferenceIdeal.S100000x64.Idx) (q : Cert.ReferenceIdeal.dot_S100000x32_S32x64_S100000x64_1_0_0_1_n_n.contr.Idx) :
    (Cert.ReferenceIdeal.dot_S100000x32_S32x64_S100000x64_1_0_0_1_n_n.lhsIdx i q 1).val = (q ⟨0, Nat.one_pos⟩).val :=
  Cert.ReferenceIdeal.dot_S100000x32_S32x64_S100000x64_1_0_0_1_n_n.lhsIdx_val_of_single rfl i q
/-- the right operand at the contracted feature … -/
theorem rhsA_0 (i : Cert.ReferenceIdeal.S100000x64.Idx) (q : Cert.ReferenceIdeal.dot_S100000x32_S32x64_S100000x64_1_0_0_1_n_n.contr.Idx) :
    (Cert.ReferenceIdeal.dot_S100000x32_S32x64_S100000x64_1_0_0_1_n_n.rhsIdx i q 0).val = (q ⟨0, Nat.one_pos⟩).val :=
  Cert.ReferenceIdeal.dot_S100000x32_S32x64_S100000x64_1_0_0_1_n_n.rhsIdx_val_of_single rfl i q
/-- … and at the output's column. -/
theorem rhsA_1 (i : Cert.ReferenceIdeal.S100000x64.Idx) (q : Cert.ReferenceIdeal.dot_S100000x32_S32x64_S100000x64_1_0_0_1_n_n.contr.Idx) :
    (Cert.ReferenceIdeal.dot_S100000x32_S32x64_S100000x64_1_0_0_1_n_n.rhsIdx i q 1).val = (i 1).val := by
  unfold DotDims.rhsIdx
  rw [dif_neg (show ¬(1 : Fin Cert.ReferenceIdeal.S32x64.rank) ∈ Cert.ReferenceIdeal.dot_S100000x32_S32x64_S100000x64_1_0_0_1_n_n.rhsBatch from List.not_mem_nil),
    dif_pos (show (1 : Fin Cert.ReferenceIdeal.S32x64.rank) ∈ Cert.ReferenceIdeal.dot_S100000x32_S32x64_S100000x64_1_0_0_1_n_n.rhsNonContracting from List.mem_singleton.mpr rfl)]
  rfl

theorem dot32to64 (x : FVec Ideal Cert.KernelIdeal.S100000x32 .f32) (w : FVec Ideal Cert.KernelIdeal.S32x64 .f32) :
    Host.dotGeneral Cert.ReferenceIdeal.dot_S100000x32_S32x64_S100000x64_1_0_0_1_n_n none x w = Cert.Spec.mm32to64 x w := by
  funext i
  unfold Cert.Spec.mm32to64
  simp only [Host.dotGeneral]
  -- the sum over the one-axis contraction index set, re-indexed by its coordinate
  rw [Ideal.dotGeneral_apply, ← Equiv.sum_comp (contrEquiv1 Cert.ReferenceIdeal.dot_S100000x32_S32x64_S100000x64_1_0_0_1_n_n 32 rfl rfl).symm]
  refine Finset.sum_congr rfl fun k _ => ?_
  have hk := contrEquiv1_symm_val Cert.ReferenceIdeal.dot_S100000x32_S32x64_S100000x64_1_0_0_1_n_n 32 rfl rfl k
  have el : Cert.ReferenceIdeal.dot_S100000x32_S32x64_S100000x64_1_0_0_1_n_n.lhsIdx i ((contrEquiv1 Cert.ReferenceIdeal.dot_S100000x32_S32x64_S100000x64_1_0_0_1_n_n 32 rfl rfl).symm k)
      = ix2 (n0 := 100000) (n1 := 32) (i 0) k := funext fun a => Fin.ext (by
    match a with
    | ⟨0, _⟩ => exact lhsA_0 _ _
    | ⟨1, _⟩ => exact (lhsA_1 _ _).trans hk)
  have er : Cert.ReferenceIdeal.dot_S100000x32_S32x64_S100000x64_1_0_0_1_n_n.rhsIdx i ((contrEquiv1 Cert.ReferenceIdeal.dot_S100000x32_S32x64_S100000x64_1_0_0_1_n_n 32 rfl rfl).symm k)
      = ix2 (n0 := 32) (n1 := 64) k (i 1) := funext fun a => Fin.ext (by
    match a with
    | ⟨0, _⟩ => exact (rhsA_0 _ _).trans hk
    | ⟨1, _⟩ => exact rhsA_1 _ _)
  rw [el, er]

/-! ### 100000 × 64 rows times a 64 × 64 matrix -/

/-- The left operand is read at the output's row … -/
theorem lhsB_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x64_S100000x64_1_0_0_1_n_n.lhsBatch from List.not_mem_nil),
    dif_pos (show (0 : Fin Cert.ReferenceIdeal.S100000x64.rank) ∈ Cert.ReferenceIdeal.dot_S100000x64_S64x64_S100000x64_1_0_0_1_n_n.lhsNonContracting from List.mem_singleton.mpr rfl)]
  rfl
/-- … and at the contracted feature; -/
theorem lhsB_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 1).val = (q ⟨0, Nat.one_pos⟩).val :=
  Cert.ReferenceIdeal.dot_S100000x64_S64x64_S100000x64_1_0_0_1_n_n.lhsIdx_val_of_single rfl i q
/-- the right operand at the contracted feature … -/
theorem rhsB_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 0).val = (q ⟨0, Nat.one_pos⟩).val :=
  Cert.ReferenceIdeal.dot_S100000x64_S64x64_S100000x64_1_0_0_1_n_n.rhsIdx_val_of_single rfl i q
/-- … and at the output's column. -/
theorem rhsB_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 1).val = (i 1).val := by
  unfold DotDims.rhsIdx
  rw [dif_neg (show ¬(1 : Fin Cert.ReferenceIdeal.S64x64.rank) ∈ Cert.ReferenceIdeal.dot_S100000x64_S64x64_S100000x64_1_0_0_1_n_n.rhsBatch from List.not_mem_nil),
    dif_pos (show (1 : Fin Cert.ReferenceIdeal.S64x64.rank) ∈ Cert.ReferenceIdeal.dot_S100000x64_S64x64_S100000x64_1_0_0_1_n_n.rhsNonContracting from List.mem_singleton.mpr rfl)]
  rfl

theorem dot64to64 (x : FVec Ideal Cert.KernelIdeal.S100000x64 .f32) (w : FVec Ideal Cert.KernelIdeal.S64x64 .f32) :
    Host.dotGeneral Cert.ReferenceIdeal.dot_S100000x64_S64x64_S100000x64_1_0_0_1_n_n none x w = Cert.Spec.mm64to64 x w := by
  funext i
  unfold Cert.Spec.mm64to64
  simp only [Host.dotGeneral]
  -- the sum over the one-axis contraction index set, re-indexed by its coordinate
  rw [Ideal.dotGeneral_apply, ← Equiv.sum_comp (contrEquiv1 Cert.ReferenceIdeal.dot_S100000x64_S64x64_S100000x64_1_0_0_1_n_n 64 rfl rfl).symm]
  refine Finset.sum_congr rfl fun k _ => ?_
  have hk := contrEquiv1_symm_val Cert.ReferenceIdeal.dot_S100000x64_S64x64_S100000x64_1_0_0_1_n_n 64 rfl rfl k
  have el : Cert.ReferenceIdeal.dot_S100000x64_S64x64_S100000x64_1_0_0_1_n_n.lhsIdx i ((contrEquiv1 Cert.ReferenceIdeal.dot_S100000x64_S64x64_S100000x64_1_0_0_1_n_n 64 rfl rfl).symm k)
      = ix2 (n0 := 100000) (n1 := 64) (i 0) k := funext fun a => Fin.ext (by
    match a with
    | ⟨0, _⟩ => exact lhsB_0 _ _
    | ⟨1, _⟩ => exact (lhsB_1 _ _).trans hk)
  have er : Cert.ReferenceIdeal.dot_S100000x64_S64x64_S100000x64_1_0_0_1_n_n.rhsIdx i ((contrEquiv1 Cert.ReferenceIdeal.dot_S100000x64_S64x64_S100000x64_1_0_0_1_n_n 64 rfl rfl).symm k)
      = ix2 (n0 := 64) (n1 := 64) k (i 1) := funext fun a => Fin.ext (by
    match a with
    | ⟨0, _⟩ => exact (rhsB_0 _ _).trans hk
    | ⟨1, _⟩ => exact rhsB_1 _ _)
  rw [el, er]

/-! ### 100000 × 64 rows times a 64 × 32 matrix -/

/-- The left operand is read at the output's row … -/
theorem lhsC_0 (i : Cert.ReferenceIdeal.S100000x32.Idx) (q : Cert.ReferenceIdeal.dot_S100000x64_S64x32_S100000x32_1_0_0_1_n_n.contr.Idx) :
    (Cert.ReferenceIdeal.dot_S100000x64_S64x32_S100000x32_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x32_S100000x32_1_0_0_1_n_n.lhsBatch from List.not_mem_nil),
    dif_pos (show (0 : Fin Cert.ReferenceIdeal.S100000x64.rank) ∈ Cert.ReferenceIdeal.dot_S100000x64_S64x32_S100000x32_1_0_0_1_n_n.lhsNonContracting from List.mem_singleton.mpr rfl)]
  rfl
/-- … and at the contracted feature; -/
theorem lhsC_1 (i : Cert.ReferenceIdeal.S100000x32.Idx) (q : Cert.ReferenceIdeal.dot_S100000x64_S64x32_S100000x32_1_0_0_1_n_n.contr.Idx) :
    (Cert.ReferenceIdeal.dot_S100000x64_S64x32_S100000x32_1_0_0_1_n_n.lhsIdx i q 1).val = (q ⟨0, Nat.one_pos⟩).val :=
  Cert.ReferenceIdeal.dot_S100000x64_S64x32_S100000x32_1_0_0_1_n_n.lhsIdx_val_of_single rfl i q
/-- the right operand at the contracted feature … -/
theorem rhsC_0 (i : Cert.ReferenceIdeal.S100000x32.Idx) (q : Cert.ReferenceIdeal.dot_S100000x64_S64x32_S100000x32_1_0_0_1_n_n.contr.Idx) :
    (Cert.ReferenceIdeal.dot_S100000x64_S64x32_S100000x32_1_0_0_1_n_n.rhsIdx i q 0).val = (q ⟨0, Nat.one_pos⟩).val :=
  Cert.ReferenceIdeal.dot_S100000x64_S64x32_S100000x32_1_0_0_1_n_n.rhsIdx_val_of_single rfl i q
/-- … and at the output's column. -/
theorem rhsC_1 (i : Cert.ReferenceIdeal.S100000x32.Idx) (q : Cert.ReferenceIdeal.dot_S100000x64_S64x32_S100000x32_1_0_0_1_n_n.contr.Idx) :
    (Cert.ReferenceIdeal.dot_S100000x64_S64x32_S100000x32_1_0_0_1_n_n.rhsIdx i q 1).val = (i 1).val := by
  unfold DotDims.rhsIdx
  rw [dif_neg (show ¬(1 : Fin Cert.ReferenceIdeal.S64x32.rank) ∈ Cert.ReferenceIdeal.dot_S100000x64_S64x32_S100000x32_1_0_0_1_n_n.rhsBatch from List.not_mem_nil),
    dif_pos (show (1 : Fin Cert.ReferenceIdeal.S64x32.rank) ∈ Cert.ReferenceIdeal.dot_S100000x64_S64x32_S100000x32_1_0_0_1_n_n.rhsNonContracting from List.mem_singleton.mpr rfl)]
  rfl

theorem dot64to32 (x : FVec Ideal Cert.KernelIdeal.S100000x64 .f32) (w : FVec Ideal Cert.KernelIdeal.S64x32 .f32) :
    Host.dotGeneral Cert.ReferenceIdeal.dot_S100000x64_S64x32_S100000x32_1_0_0_1_n_n none x w = Cert.Spec.mm64to32 x w := by
  funext i
  unfold Cert.Spec.mm64to32
  simp only [Host.dotGeneral]
  -- the sum over the one-axis contraction index set, re-indexed by its coordinate
  rw [Ideal.dotGeneral_apply, ← Equiv.sum_comp (contrEquiv1 Cert.ReferenceIdeal.dot_S100000x64_S64x32_S100000x32_1_0_0_1_n_n 64 rfl rfl).symm]
  refine Finset.sum_congr rfl fun k _ => ?_
  have hk := contrEquiv1_symm_val Cert.ReferenceIdeal.dot_S100000x64_S64x32_S100000x32_1_0_0_1_n_n 64 rfl rfl k
  have el : Cert.ReferenceIdeal.dot_S100000x64_S64x32_S100000x32_1_0_0_1_n_n.lhsIdx i ((contrEquiv1 Cert.ReferenceIdeal.dot_S100000x64_S64x32_S100000x32_1_0_0_1_n_n 64 rfl rfl).symm k)
      = ix2 (n0 := 100000) (n1 := 64) (i 0) k := funext fun a => Fin.ext (by
    match a with
    | ⟨0, _⟩ => exact lhsC_0 _ _
    | ⟨1, _⟩ => exact (lhsC_1 _ _).trans hk)
  have er : Cert.ReferenceIdeal.dot_S100000x64_S64x32_S100000x32_1_0_0_1_n_n.rhsIdx i ((contrEquiv1 Cert.ReferenceIdeal.dot_S100000x64_S64x32_S100000x32_1_0_0_1_n_n 64 rfl rfl).symm k)
      = ix2 (n0 := 64) (n1 := 32) k (i 1) := funext fun a => Fin.ext (by
    match a with
    | ⟨0, _⟩ => exact (rhsC_0 _ _).trans hk
    | ⟨1, _⟩ => exact rhsC_1 _ _)
  rw [el, er]

end Cert.MatProduct

end
-- ==== Proof.CombineHost.lean ====
/-
  The reference's combine — broadcasts and whole-array additions, then the clamp at zero — is, entry by
  entry, aggregated + product × (inverse root degree)² + bias, which is what the kernel's combine
  computes from the own weights as a column and the bias as a row.
-/
import proofs.«428352_j83459804495950_3_alg».proof.Proof.RefSpec
import Idealize.ShloMosaic.Lib.ValueIdx
import Idealize.ShloMosaic.Lib.Pipeline.Value
import Idealize.ShloMosaic.Lib.ValueLayout

noncomputable section

namespace Cert.CombineHost

open Idealize.ShloMosaic Idealize.ShloMosaic.ValueIdx Cert.KernelIdeal

/-! ## Layout operations of the combine, read at an index -/

section Layout
variable {α : Type}

/-- A scalar broadcast to any shape reads the scalar everywhere. -/
theorem bcast_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-- An `[a]` array laid out along axis 0 of the column `[a, 1]` reads, at `(i, u)`, the operand at `i`. -/
theorem bcast_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A column `[a, 1]` broadcast to `[a, b]` reads, at `(i, j)`, the column at row `i`. -/
theorem bcast_a1_ab_apply {a b : ℕ} (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i (0 : Fin 1)) := by
  refine broadcastInDim_apply _ h x (ix2 i j) (ix2 i (0 : Fin 1)) fun ax => ?_
  match ax with
  | ⟨0, _⟩ =>
    show i.val = if a = 1 then 0 else i.val
    split
    · have := i.isLt; omega
    · rfl
  | ⟨1, _⟩ => rfl

/-- A `[b]` array laid out along axis 1 of the row `[1, b]` reads, at `(u, j)`, the operand at `j`. -/
theorem bcast_b_1b_apply {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- A row `[1, b]` broadcast to `[a, b]` reads, at `(i, j)`, the row at column `j`. -/
theorem bcast_1b_ab_apply {a b : ℕ} (x : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h x (ix2 i j) = x (ix2 (0 : Fin 1) j) := by
  refine broadcastInDim_apply _ h x (ix2 i j) (ix2 (0 : Fin 1) j) fun ax => ?_
  match ax with
  | ⟨0, _⟩ => rfl
  | ⟨1, _⟩ =>
    show j.val = if b = 1 then 0 else j.val
    split
    · have := j.isLt; omega
    · rfl

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

variable [Cert.ReferenceIdeal.Facts₀] [Cert.KernelIdeal.Facts₀]
open Cert.KernelIdeal.Facts₀

/-! ## The kernel's combine at an entry -/

/-- The clamped combine at entry `(n, c)`: the own weight is read in row `n` of the column, the bias in column `c` of the row. -/
theorem comb64_apply (seg xw : FVec Ideal S100000x64 .f32) (sc : FVec Ideal S100000x1 .f32) (b : FVec Ideal S1x64 .f32)
    (n : Fin 100000) (c : Fin 64) :
    Cert.Spec.comb64 seg xw sc b (ix2 n c)
      = max (seg (ix2 n c) + xw (ix2 n c) * sc (ix2 n (0 : Fin 1)) + b (ix2 (0 : Fin 1) c)) Cert.Spec.zeroLit := rfl

/-- The unclamped combine at entry `(n, c)`. -/
theorem comb32_apply (seg xw : FVec Ideal S100000x32 .f32) (sc : FVec Ideal S100000x1 .f32) (b : FVec Ideal S1x32 .f32)
    (n : Fin 100000) (c : Fin 32) :
    Cert.Spec.comb32 seg xw sc b (ix2 n c)
      = seg (ix2 n c) + xw (ix2 n c) * sc (ix2 n (0 : Fin 1)) + b (ix2 (0 : Fin 1) c) := rfl

/-- The own weights' column at row `n`: the inverse root degree of node `n`, squared. -/
theorem selfCol_apply (dinv : FVec Ideal S100000 .f32) (n : Fin 100000) (u : Fin 1) :
    Cert.Spec.selfCol dinv (ix2 n u) = dinv (ix1 n) * dinv (ix1 n) := by
  unfold Cert.Spec.selfCol Cert.Spec.selfOf
  rw [shapeCast_a_a1_apply, mulf_apply]

theorem combine64_eq (dinv : FVec Ideal S100000 .f32) (seg xw : FVec Ideal S100000x64 .f32) (b : FVec Ideal S64 .f32) :
    Cert.RefSpec.relu64 (Cert.RefSpec.combine64 dinv seg xw b)
      = Cert.Spec.comb64 seg xw (Cert.Spec.selfCol dinv) (shapeCast S1x64 b shapeCasts_S64_S1x64) := by
  funext i
  obtain ⟨n, c, rfl⟩ : ∃ (n : Fin 100000) (c : Fin 64), i = ix2 n c := ⟨i 0, i 1, eq_ix2 i⟩
  rw [comb64_apply, selfCol_apply, shapeCast_a_1a_apply]
  unfold Cert.RefSpec.relu64 Cert.RefSpec.combine64
  rw [maximumf_apply, addf_apply, addf_apply, mulf_apply, bcast_scalar_apply, constant_apply,
    bcast_a1_ab_apply, bcast_a_a1_apply, mulf_apply, bcast_1b_ab_apply, bcast_b_1b_apply]

theorem combine32_eq (dinv : FVec Ideal S100000 .f32) (seg xw : FVec Ideal S100000x32 .f32) (b : FVec Ideal S32 .f32) :
    Cert.RefSpec.combine32 dinv seg xw b
      = Cert.Spec.comb32 seg xw (Cert.Spec.selfCol dinv) (shapeCast S1x32 b shapeCasts_S32_S1x32) := by
  funext i
  obtain ⟨n, c, rfl⟩ : ∃ (n : Fin 100000) (c : Fin 32), i = ix2 n c := ⟨i 0, i 1, eq_ix2 i⟩
  rw [comb32_apply, selfCol_apply, shapeCast_a_1a_apply]
  unfold Cert.RefSpec.combine32
  rw [addf_apply, addf_apply, mulf_apply,
    bcast_a1_ab_apply, bcast_a_a1_apply, mulf_apply, bcast_1b_ab_apply, bcast_b_1b_apply]

end Cert.CombineHost

end
-- ==== Proof.SpreadRows.lean ====
/-
  With every graph id in 0 … 63, gathering the latent codes at the nodes' ids and projecting them is the
  same as projecting the 64 codes first and picking each node's row by a one-hot product:
  Σ_g [id n = g] · T[g, c] = T[id n, c], because 0 · t = 0 and 1 · t = t for every extended real t.
-/
import proofs.«428352_j83459804495950_3_alg».proof.Proof.RefSpec
import Idealize.ShloMosaic.PureOps.Ideal.Laws
import Idealize.ShloMosaic.Lib.ValueIdx
import Idealize.ShloMosaic.Lib.Pipeline.Value
import Idealize.ShloMosaic.Lib.ValueLayout
import Idealize.ShloMosaic.Lib.StackMember
import Idealize.ShloMosaic.Lib.DynamicIndex

noncomputable section

namespace Cert.SpreadRows

open Idealize.ShloMosaic Idealize.ShloMosaic.ValueIdx Cert.KernelIdeal
open scoped BigOperators

/-! ## A row gather read at an index -/

section Rows
variable {α : Type}

/-- The dimension numbers of a row gather: operand [N, K], start indices [n, 1], result [n, K]; the operand's axis 0
    is collapsed and start-indexed, its axis 1 is carried whole as the result's offset axis. -/
abbrev rowsDims (N K n : Nat)
    (wf : GatherDims.WF ⟨2, ![N, K]⟩ ⟨2, ![n, 1]⟩ ⟨2, ![n, K]⟩ [1] [0] [] [0] [] 1 ![1, K]) :
    GatherDims ⟨2, ![N, K]⟩ ⟨2, ![n, 1]⟩ ⟨2, ![n, K]⟩ where
  offsetDims := [1]
  collapsedSliceDims := [0]
  operandBatchingDims := []
  startIndicesBatchingDims := []
  startIndexMap := [0]
  indexVectorDim := 1
  sliceSizes := ![1, K]
  wf := wf

/-- On the operand's axis 0 the row read is the start index idx[p, 0], read signed and clamped into 0 … N − 1. -/
theorem rows_axis0 {N K n w : Nat}
    (wf : GatherDims.WF ⟨2, ![N, K]⟩ ⟨2, ![n, 1]⟩ ⟨2, ![n, K]⟩ [1] [0] [] [0] [] 1 ![1, K])
    (idx : IVec ⟨2, ![n, 1]⟩ w) (p : Fin n) (k : Fin K) :
    ((rowsDims N K n wf).operandIdx (ix2 p k) idx 0).val = min (idx (ix2 p 0)).toInt.toNat (N - 1) := by
  show (rowsDims N K n wf).start (ix2 p k) idx 0 + (rowsDims N K n wf).batchCoord (ix2 p k) 0
      + (rowsDims N K n wf).offCoord (ix2 p k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowsDims N K n wf).startIndexMap from List.mem_singleton.mpr rfl)]
  have hsi : (rowsDims N K n wf).siIdx (ix2 p k) ⟨List.idxOf (0 : Fin 2) (rowsDims N K n wf).startIndexMap,
      List.idxOf_lt_length_iff.2 (List.mem_singleton.mpr rfl)⟩ = ix2 p 0 := by
    funext b; refine Fin.ext ?_
    match b with
    | ⟨0, _⟩ => rfl
    | ⟨1, _⟩ => rfl
  rw [hsi]
  rfl

/-- On the operand's axis 1 the column read is the result's column. -/
theorem rows_axis1 {N K n w : Nat}
    (wf : GatherDims.WF ⟨2, ![N, K]⟩ ⟨2, ![n, 1]⟩ ⟨2, ![n, K]⟩ [1] [0] [] [0] [] 1 ![1, K])
    (idx : IVec ⟨2, ![n, 1]⟩ w) (p : Fin n) (k : Fin K) :
    ((rowsDims N K n wf).operandIdx (ix2 p k) idx 1).val = k.val := by
  show (rowsDims N K n wf).start (ix2 p k) idx 1 + (rowsDims N K n wf).batchCoord (ix2 p k) 1
      + (rowsDims N K n wf).offCoord (ix2 p k) 1 = _
  rw [GatherDims.batchCoord_eq_zero _ _ _ List.not_mem_nil]
  unfold GatherDims.start
  rw [dif_neg (show ¬ (1 : Fin 2) ∈ ([0] : List (Fin 2)) by decide)]
  unfold GatherDims.offCoord
  rw [dif_pos ((GatherDims.mem_sKept (rowsDims N K n wf) 1).mpr
    ⟨show ¬ (1 : Fin 2) ∈ ([0] : List (Fin 2)) by decide, List.not_mem_nil⟩)]
  rw [Nat.zero_add]
  rfl

/-- The row gather read at (p, k): the operand's row at the start index idx[p, 0], read signed and clamped into
    0 … N − 1, at column k. -/
theorem gather_rows_apply {N K n w : Nat} (hN : 0 < N)
    (wf : GatherDims.WF ⟨2, ![N, K]⟩ ⟨2, ![n, 1]⟩ ⟨2, ![n, K]⟩ [1] [0] [] [0] [] 1 ![1, K])
    (x : (⟨2, ![N, K]⟩ : Shape).Idx → α) (idx : IVec ⟨2, ![n, 1]⟩ w) (p : Fin n) (k : Fin K) :
    Host.gather (rowsDims N K n wf) x idx (ix2 p k)
      = x (ix2 ⟨min (idx (ix2 p 0)).toInt.toNat (N - 1), by omega⟩ k) := by
  unfold Host.gather
  refine congrArg x (funext fun a => Fin.ext ?_)
  match a with
  | ⟨0, _⟩ => exact rows_axis0 wf idx p k
  | ⟨1, _⟩ => exact rows_axis1 wf idx p k

end Rows

/-! ## The bias row and the graph ids read at an index -/

/-- A bias row laid over every row of an [n, 64] rectangle reads, at (p, q), the bias at q. -/
theorem bias_apply {α : Type} {n : Nat} (h₁ : (⟨1, ![64]⟩ : Shape).BroadcastsInDim ⟨2, ![1, 64]⟩ ![1])
    (h₂ : (⟨2, ![1, 64]⟩ : Shape).BroadcastsInDim ⟨2, ![n, 64]⟩ ![0, 1]) (v : (⟨1, ![64]⟩ : Shape).Idx → α)
    (p : Fin n) (q : Fin 64) :
    broadcastInDim ⟨2, ![n, 64]⟩ ![0, 1] h₂ (broadcastInDim ⟨2, ![1, 64]⟩ ![1] h₁ v) (ix2 p q) = v (ix1 q) := by
  refine (broadcastInDim_apply _ h₂ _ (ix2 p q) (ix2 (0 : Fin 1) q) (fun a => ?_)).trans ?_
  · match a with
    | ⟨0, _⟩ => rfl
    | ⟨1, _⟩ => rfl
  · exact broadcastInDim_apply _ h₁ v _ (ix1 q) (fun a => match a with | ⟨0, _⟩ => rfl)

/-- A 32-bit word whose signed reading lies in 0 … 63 is the word of that number. -/
theorem word_of_range (w : BitVec 32) (h0 : 0 ≤ w.toInt) (h1 : w.toInt < 64) :
    w.toInt.toNat < 64 ∧ w = BitVec.ofNat 32 w.toInt.toNat := by
  have e := BitVec.toInt_eq_toNat_cond w
  have hlt := w.isLt
  refine ⟨by omega, BitVec.eq_of_toNat_eq ?_⟩
  rw [BitVec.toNat_ofNat]
  omega

/-- The one-hot product picks one row: over the extended reals 0 · t = 0 and 1 · t = t with no condition on t. -/
theorem oneHot_sum (w : BitVec 32) (r : Fin 64) (hr : w = BitVec.ofNat 32 r.val) (T : Fin 64 → EReal) :
    ∑ g : Fin 64, Cert.Spec.oneHot w g * T g = T r := by
  rw [Finset.sum_eq_single r]
  · rw [Cert.Spec.oneHot, if_pos hr, one_mul]
  · intro g _ hg
    rw [Cert.Spec.oneHot, if_neg, zero_mul]
    intro h
    apply hg
    apply Fin.ext
    have e := congrArg BitVec.toNat (h.symm.trans hr)
    simp only [BitVec.toNat_ofNat] at e
    have := g.isLt
    have := r.isLt
    omega
  · intro h
    exact absurd (Finset.mem_univ r) h

variable [Cert.ReferenceIdeal.Facts₀] [Cert.KernelIdeal.Facts₀]
open Cert.KernelIdeal.Facts₀

/-- The column of graph ids reads, at row n, node n's id. -/
theorem idCol_apply (batch : IVec S100000 32) (n : Fin 100000) :
    shapeCast S100000x1 batch shapeCasts_S100000_S100000x1 (ix2 (n0 := 100000) (n1 := 1) n 0) = batch (ix1 n) := by
  refine shapeCast_apply batch _ _ (ix1 n) ?_
  rw [Shape.rowMajor_val_one, Shape.rowMajor_val_two]
  show n.val = n.val * 1 + 0
  omega

/-- A graph id that is not negative is read as it stands. -/
theorem wrapIds_apply (batch : IVec S100000 32) (n : Fin 100000) (h0 : 0 ≤ (batch (ix1 n)).toInt) :
    Cert.RefSpec.wrapIds batch (ix2 (n0 := 100000) (n1 := 1) n 0) = batch (ix1 n) := by
  unfold Cert.RefSpec.wrapIds
  refine (broadcastInDim_apply _ _ _ (ix2 (n0 := 100000) (n1 := 1) n 0) (ix1 n)
    (fun a => match a with | ⟨0, _⟩ => rfl)).trans ?_
  exact select_slt_zero_of_nonneg batch _ _ (ix1 n) h0

/-- The latent table at (g, c): code g projected, plus the bias. -/
theorem table_apply (z : FVec Ideal S64x16 .f32) (wd : FVec Ideal S16x64 .f32) (bd : FVec Ideal S64 .f32)
    (g c : Fin 64) :
    Cert.Spec.tableOf z wd bd (ix2 g c) = (∑ k : Fin 16, z (ix2 g k) * wd (ix2 k c)) + bd (ix1 c) := by
  unfold Cert.Spec.tableOf
  rw [addf_apply]
  exact congrArg₂ (· + ·) (StackMember.dotGeneral_plain_apply none z wd g c) (bias_apply _ _ bd g c)

/-- The kernel side at (n, c): the one-hot product of node n's id with column c of the table, clamped at zero. -/
theorem ker_apply (ids : IVec S100000x1 32) (tbl : FVec Ideal S64x64 .f32) (n : Fin 100000) (c : Fin 64) :
    Cert.Spec.spread ids tbl (ix2 n c)
      = max (∑ g : Fin 64, Cert.Spec.oneHot (ids (ix2 (n0 := 100000) (n1 := 1) n 0)) g * tbl (ix2 g c))
          Cert.Spec.zeroLit := rfl

/-- The reference side at (n, c): the code at node n's start index projected, plus the bias, clamped at zero. -/
theorem ref_apply (batch : IVec S100000 32) (z : FVec Ideal S64x16 .f32) (wd : FVec Ideal S16x64 .f32)
    (bd : FVec Ideal S64 .f32) (n : Fin 100000) (c : Fin 64) :
    Cert.RefSpec.spread batch z wd bd (ix2 n c)
      = max ((∑ k : Fin 16,
            z (ix2 ⟨min (Cert.RefSpec.wrapIds batch (ix2 (n0 := 100000) (n1 := 1) n 0)).toInt.toNat (64 - 1), by omega⟩ k)
              * wd (ix2 k c)) + bd (ix1 c))
          Cert.Spec.zeroLit := by
  unfold Cert.RefSpec.spread Cert.RefSpec.relu64
  rw [maximumf_apply, addf_apply]
  refine congrArg₂ max (congrArg₂ (· + ·) ?_ (bias_apply _ _ bd n c)) rfl
  refine (StackMember.dotGeneral_plain_apply none _ wd n c).trans (Finset.sum_congr rfl fun k _ => ?_)
  exact congrArg (· * wd (ix2 k c))
    (gather_rows_apply (by decide) Cert.ReferenceIdeal.Facts₀.gather_S64x16_S100000x1_S100000x16_1_0_n_n_0_1_116_wf
      z (Cert.RefSpec.wrapIds batch) n k)

theorem spread_eq (batch : IVec S100000 32)
    (hb : ∀ n : Fin 100000, 0 ≤ (batch (ix1 n)).toInt ∧ (batch (ix1 n)).toInt < 64)
    (z : FVec Ideal S64x16 .f32) (wd : FVec Ideal S16x64 .f32) (bd : FVec Ideal S64 .f32) :
    Cert.RefSpec.spread batch z wd bd
      = Cert.Spec.spread (shapeCast S100000x1 batch shapeCasts_S100000_S100000x1) (Cert.Spec.tableOf z wd bd) := by
  funext i
  obtain ⟨n, c, rfl⟩ : ∃ (n : Fin 100000) (c : Fin 64), i = ix2 n c := ⟨i 0, i 1, eq_ix2 i⟩
  obtain ⟨h0, h1⟩ := hb n
  obtain ⟨hr, hw⟩ := word_of_range (batch (ix1 n)) h0 h1
  rw [ref_apply, ker_apply, idCol_apply, oneHot_sum (batch (ix1 n)) ⟨(batch (ix1 n)).toInt.toNat, hr⟩ hw, table_apply]
  refine congrArg₂ max (congrArg₂ (· + ·) (Finset.sum_congr rfl fun k _ => ?_) rfl) rfl
  refine congrArg (fun r => z (ix2 r k) * wd (ix2 k c)) (Fin.ext ?_)
  show min (Cert.RefSpec.wrapIds batch (ix2 (n0 := 100000) (n1 := 1) n 0)).toInt.toNat (64 - 1) = (batch (ix1 n)).toInt.toNat
  rw [wrapIds_apply batch n h0]
  omega

end Cert.SpreadRows

end
-- ==== Proof.Bridge.lean ====
/-
  The two compositions agree: the reference's convolutions are Spec's (the product by the dot_general law, the
  combine entry by entry), and with every graph id in 0 … 63 its decoder starts from the rows Spec's spread gives.
-/
import proofs.«428352_j83459804495950_3_alg».proof.Proof.MatProduct
import proofs.«428352_j83459804495950_3_alg».proof.Proof.CombineHost
import proofs.«428352_j83459804495950_3_alg».proof.Proof.SpreadRows

noncomputable section

namespace Cert.Bridge

open Idealize.ShloMosaic Idealize.ShloMosaic.ValueIdx Cert.KernelIdeal

variable [Cert.ReferenceIdeal.Facts₀] [Cert.KernelIdeal.Facts₀]

theorem conv64_eq (src dst : IVec S1600000 32) (dinv : FVec Ideal S100000 .f32) (xw : FVec Ideal S100000x64 .f32)
    (b : FVec Ideal S64 .f32) : Cert.RefSpec.conv64 src dst dinv xw b = Cert.Spec.conv64 src dst dinv xw b := by
  unfold Cert.RefSpec.conv64 Cert.Spec.conv64
  exact Cert.CombineHost.combine64_eq dinv _ xw b

theorem conv32_eq (src dst : IVec S1600000 32) (dinv : FVec Ideal S100000 .f32) (xw : FVec Ideal S100000x32 .f32)
    (b : FVec Ideal S32 .f32) : Cert.RefSpec.conv32 src dst dinv xw b = Cert.Spec.conv32 src dst dinv xw b := by
  unfold Cert.RefSpec.conv32 Cert.Spec.conv32
  exact Cert.CombineHost.combine32_eq dinv _ xw b

/-- The encoders agree on every input. -/
theorem encode_eq (e : IVec S2x1600000 32) (x : FVec Ideal S100000x32 .f32)
    (w0 : FVec Ideal S32x64 .f32) (b0 : FVec Ideal S64 .f32) (w1 : FVec Ideal S64x64 .f32) (b1 : FVec Ideal S64 .f32)
    (w2 : FVec Ideal S64x64 .f32) (b2 : FVec Ideal S64 .f32) :
    Cert.RefSpec.encode e x w0 b0 w1 b1 w2 b2 = Cert.Spec.encode e x w0 b0 w1 b1 w2 b2 := by
  unfold Cert.RefSpec.encode Cert.Spec.encode
  simp only [conv64_eq, Cert.MatProduct.dot32to64, Cert.MatProduct.dot64to64]

/-- The decoders agree when every graph id is in range. -/
theorem decode_eq (e : IVec S2x1600000 32) (batch : IVec S100000 32)
    (hb : ∀ n : Fin 100000, 0 ≤ (batch (ix1 n)).toInt ∧ (batch (ix1 n)).toInt < 64)
    (z : FVec Ideal S64x16 .f32) (wd : FVec Ideal S16x64 .f32) (bd : FVec Ideal S64 .f32)
    (w0 : FVec Ideal S64x64 .f32) (b0 : FVec Ideal S64 .f32) (w1 : FVec Ideal S64x32 .f32) (b1 : FVec Ideal S32 .f32) :
    Cert.RefSpec.decode e (Cert.RefSpec.spread batch z wd bd) w0 b0 w1 b1
      = Cert.Spec.decode e batch (Cert.Spec.tableOf z wd bd) w0 b0 w1 b1 := by
  unfold Cert.RefSpec.decode Cert.Spec.decode
  simp only [conv64_eq, conv32_eq, Cert.MatProduct.dot64to64, Cert.MatProduct.dot64to32, Cert.SpreadRows.spread_eq batch hb]

end Cert.Bridge

end
-- ==== Proof.BatchRange.lean ====
/-
  The precondition's last conjunct says every graph id lies in 0 … 63: read out of the printed predicate.
-/
import proofs.«428352_j83459804495950_3_alg».proof.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.BatchRange

open Idealize.ShloMosaic Idealize.ShloMosaic.ValueIdx Cert.Pre_finite_inputs

variable [Cert.Pre_finite_inputs.Facts]

/-- The scalar shape has one index. -/
instance : Subsingleton S_.Idx := ⟨fun a b => funext fun d => d.elim0⟩

/-- A 32-bit word that compares signed at least 0 and signed below 64 has its signed value in [0, 64). -/
theorem word_range (w : BitVec 32) (h0 : IntOp.cmpi .sge w 0#32 = 1#1) (h1 : IntOp.cmpi .slt w 64#32 = 1#1) :
    0 ≤ w.toInt ∧ w.toInt < 64 := by
  unfold IntOp.cmpi at h0 h1
  rw [StableHlo.Predicate.ofBool_eq_one_iff] at h0 h1
  simp only [BitVec.slt, BitVec.sle, decide_eq_true_eq] at h0 h1
  have e0 : (0#32 : BitVec 32).toInt = 0 := by decide
  have e64 : (64#32 : BitVec 32).toInt = 64 := by decide
  rw [e0] at h0
  rw [e64] at h1
  exact ⟨h0, h1⟩

theorem ids_in_range (a0 : FVec Ideal S100000x32 .f32) (a1 : IVec S2x1600000 32) (a2 : IVec S100000 32)
    (a3 : FVec Ideal S32x64 .f32) (a4 : FVec Ideal S64 .f32) (a5 : FVec Ideal S64x64 .f32) (a6 : FVec Ideal S64 .f32)
    (a7 : FVec Ideal S64x64 .f32) (a8 : FVec Ideal S64 .f32) (a9 : FVec Ideal S64x16 .f32) (a10 : FVec Ideal S16 .f32)
    (a11 : FVec Ideal S16x64 .f32) (a12 : FVec Ideal S64 .f32) (a13 : FVec Ideal S64x64 .f32) (a14 : FVec Ideal S64 .f32)
    (a15 : FVec Ideal S64x32 .f32) (a16 : FVec Ideal S32 .f32)
    (h : Cert.Pre_finite_inputs.fn (F := Ideal) a0 a1 a2 a3 a4 a5 a6 a7 a8 a9 a10 a11 a12 a13 a14 a15 a16 = (fun _ => 1#1))
    (n : Fin 100000) : 0 ≤ (a2 (ix1 n)).toInt ∧ (a2 (ix1 n)).toInt < 64 := by
  -- the predicate at its one index, its chain of operations laid open
  have e := congrFun h ValueIdx.ix0
  dsimp only [fn, fn_part1, fn_part2, fn_part3, fn_part4] at e
  -- the outermost conjunction's right operand is the reduction of the graph-id mask
  have e2 := (IntOp.andi_eq_one.1 e).2
  -- every entry of the mask is 1
  have e3 := Host.reduce_andi_all _ _ _ _ _ e2 (ix1 n)
  -- the entry at n is the conjunction of the two compares of word n against the splats 0 and 64
  obtain ⟨h0, h1⟩ := IntOp.andi_eq_one.1 e3
  exact word_range _ h0 h1

end Cert.BatchRange

end
-- ==== Proof.lean ====
/-
  A graph autoencoder: three graph convolutions, a mean pool over the graphs, a latent projection, the latent
  codes projected back and spread to the nodes, two more convolutions.  The kernel program forms every product
  X·W, every combine  A(X·W) + (X·W)·s + b  and the spread of the latent table in pallas_calls over ten blocks of
  10000 nodes; the reference does the same in whole-array host operations; the edge side (degrees, coefficients,
  aggregation, pool, latent codes) is the same host operations in both.

  On the extended reals the two agree entry by entry: a block of a product is that block's rows of the one sum
  Σ_k X[n, k]·W[k, c] (the casts to bf16 are the identity, the accumulator starts at zero), a block of a combine is
  that block's rows of the one entrywise expression, and — with every graph id in 0 … 63, which the precondition
  states — the one-hot product Σ_g [id n = g]·T[g, c] is the row T[id n, c] that the reference reaches by gathering
  the latent codes first, because 0·t = 0 and 1·t = t for every extended real t.  No finiteness is used.
-/
import proofs.«428352_j83459804495950_3_alg».proof.Defs
import proofs.«428352_j83459804495950_3_alg».proof.Proof.Gen.Kernel
import proofs.«428352_j83459804495950_3_alg».proof.Proof.Gen.Kernel.Frame
import proofs.«428352_j83459804495950_3_alg».proof.Proof.Gen.KernelIdeal
import proofs.«428352_j83459804495950_3_alg».proof.Proof.Gen.KernelIdeal.Frame
import proofs.«428352_j83459804495950_3_alg».proof.Proof.Gen.ReferenceIdeal
import proofs.«428352_j83459804495950_3_alg».proof.Proof.Gen.ReferenceIdeal.Run
import proofs.«428352_j83459804495950_3_alg».proof.Proof.Gen.Pre_finite_inputs
import proofs.«428352_j83459804495950_3_alg».proof.Proof.KernelRun
import proofs.«428352_j83459804495950_3_alg».proof.Proof.KernelValue
import proofs.«428352_j83459804495950_3_alg».proof.Proof.RefSide
import proofs.«428352_j83459804495950_3_alg».proof.Proof.Bridge
import proofs.«428352_j83459804495950_3_alg».proof.Proof.BatchRange
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the reconstruction and the latent codes at Spec's composition of the arguments. -/
theorem algebraic : Cert.algebraic_KernelIdeal_ReferenceIdeal := by
  intro m ρ m' ρ' hpre hagree
  -- every graph id of the kernel's memory is in 0 … 63
  have hb : ∀ (c : Dev Cert.KernelIdeal.nD) (n : Fin 100000),
      0 ≤ ((m ((c.tc : Thread Cert.KernelIdeal.nD Cert.KernelIdeal.τ).loc Cert.KernelIdeal.main_arg2)) (ix1 n)).toInt ∧ ((m ((c.tc : Thread Cert.KernelIdeal.nD Cert.KernelIdeal.τ).loc Cert.KernelIdeal.main_arg2)) (ix1 n)).toInt < 64 :=
    fun c n => Cert.BatchRange.ids_in_range _ _ _ _ _ _ _ _ _ _ _ _ _ _ _ _ _ (hpre c) n
  refine ⟨_, _, (θ_run Cert.KernelIdeal.defs _ _).mono (fun r h c =>
      ⟨(h c).1.trans (Cert.KernelValue.recon m ρ c), (h c).2.1.trans (Cert.KernelValue.latent m ρ c), (h c).2.2⟩)
      (Cert.KernelIdeal.Gen.run_results m ρ), ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨e0, e1, e2, e3, e4, e5, e6, e7, e8, e9, e10, e11, e12, e13, e14, e15, e16⟩ := hagree c
    refine (Cert.RefSide.out0_eq m' c).trans ?_
    simp only [Cert.RefSide.lat, Cert.RefSide.enc, e0, e1, e2, e3, e4, e5, e6, e7, e8, e9, e10, e11, e12, e13, e14, e15, e16]
    rw [Cert.Bridge.encode_eq]
    exact Cert.Bridge.decode_eq _ _ (hb c) _ _ _ _ _ _ _
  · obtain ⟨e0, e1, e2, e3, e4, e5, e6, e7, e8, e9, e10, -⟩ := hagree c
    refine (Cert.RefSide.out1_eq m' c).trans ?_
    simp only [Cert.RefSide.lat, Cert.RefSide.enc, e0, e1, e2, e3, e4, e5, e6, e7, e8, e9, e10]
    rw [Cert.Bridge.encode_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
